-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_arg3)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_arg5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_arg5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x256x64x176 : Shape := ⟨5, ![2, 4, 256, 64, 176]⟩
abbrev S2x900x3 : Shape := ⟨3, ![2, 900, 3]⟩
abbrev S2x900x8 : Shape := ⟨3, ![2, 900, 8]⟩
abbrev S_ : Shape := ⟨0, ![]⟩

class Facts : Prop where
  bcast_S_S2x4x256x64x176 : S_.BroadcastsInDim S2x4x256x64x176 (![] : Fin 0 → Fin S2x4x256x64x176.rank)
  reducesTo_S2x4x256x64x176_S_d0_1_2_3_4 : S2x4x256x64x176.ReducesTo [0, 1, 2, 3, 4] S_
  h_S_ : 0 < S_.numel
  bcast_S_S2x900x3 : S_.BroadcastsInDim S2x900x3 (![] : Fin 0 → Fin S2x900x3.rank)
  reducesTo_S2x900x3_S_d0_1_2 : S2x900x3.ReducesTo [0, 1, 2] S_
  bcast_S_S2x900x8 : S_.BroadcastsInDim S2x900x8 (![] : Fin 0 → Fin S2x900x8.rank)
  reducesTo_S2x900x8_S_d0_1_2 : S2x900x8.ReducesTo [0, 1, 2] S_

variable [Facts]

def fn_part2 {F : FTy → Type} [FloatOps F] (main_arg5 : IVec S2x900x8 32) (main_v29 : IVec S_ 1) (main_v31 : IVec S2x900x8 1) (main_c_13 : IVec S_ 1) : IVec S_ 1 :=
  let main_v32 : IVec S_ 1 := (fun x v => Host.reduce IntOp.andi x v reducesTo_S2x900x8_S_d0_1_2 h_S_) main_v31 main_c_13
  let main_v33 : IVec S_ 1 := andi main_v29 main_v32
  let main_c_14 : IVec S_ 32 := constantI S_ 32 101376#32
  let main_v34 : IVec S2x900x8 32 := broadcastInDim S2x900x8 ![] bcast_S_S2x900x8 main_c_14
  let main_v35 : IVec S2x900x8 1 := cmpi .slt main_arg5 main_v34
  let main_c_15 : IVec S_ 1 := constantI S_ 1 1#1
  let main_v36 : IVec S_ 1 := (fun x v => Host.reduce IntOp.andi x v reducesTo_S2x900x8_S_d0_1_2 h_S_) main_v35 main_c_15
  let main_v37 : IVec S_ 1 := andi main_v33 main_v36
  main_v37

def fn_part1 {F : FTy → Type} [FloatOps F] (main_arg3 : IVec S2x900x3 32) (main_arg4 : IVec S2x900x3 32) (main_arg5 : IVec S2x900x8 32) (main_v13 : IVec S_ 1) (main_v15 : IVec S2x900x3 1) (main_c_5 : IVec S_ 1) : IVec S_ 1 :=
  let main_v16 : IVec S_ 1 := (fun x v => Host.reduce IntOp.andi x v reducesTo_S2x900x3_S_d0_1_2 h_S_) main_v15 main_c_5
  let main_v17 : IVec S_ 1 := andi main_v13 main_v16
  let main_c_6 : IVec S_ 32 := constantI S_ 32 4#32
  let main_v18 : IVec S2x900x3 32 := broadcastInDim S2x900x3 ![] bcast_S_S2x900x3 main_c_6
  let main_v19 : IVec S2x900x3 1 := cmpi .slt main_arg3 main_v18
  let main_c_7 : IVec S_ 1 := constantI S_ 1 1#1
  let main_v20 : IVec S_ 1 := (fun x v => Host.reduce IntOp.andi x v reducesTo_S2x900x3_S_d0_1_2 h_S_) main_v19 main_c_7
  let main_v21 : IVec S_ 1 := andi main_v17 main_v20
  let main_c_8 : IVec S_ 32 := constantI S_ 32 0#32
  let main_v22 : IVec S2x900x3 32 := broadcastInDim S2x900x3 ![] bcast_S_S2x900x3 main_c_8
  let main_v23 : IVec S2x900x3 1 := cmpi .sge main_arg4 main_v22
  let main_c_9 : IVec S_ 1 := constantI S_ 1 1#1
  let main_v24 : IVec S_ 1 := (fun x v => Host.reduce IntOp.andi x v reducesTo_S2x900x3_S_d0_1_2 h_S_) main_v23 main_c_9
  let main_v25 : IVec S_ 1 := andi main_v21 main_v24
  let main_c_10 : IVec S_ 32 := constantI S_ 32 3#32
  let main_v26 : IVec S2x900x3 32 := broadcastInDim S2x900x3 ![] bcast_S_S2x900x3 main_c_10
  let main_v27 : IVec S2x900x3 1 := cmpi .slt main_arg4 main_v26
  let main_c_11 : IVec S_ 1 := constantI S_ 1 1#1
  let main_v28 : IVec S_ 1 := (fun x v => Host.reduce IntOp.andi x v reducesTo_S2x900x3_S_d0_1_2 h_S_) main_v27 main_c_11
  let main_v29 : IVec S_ 1 := andi main_v25 main_v28
  let main_c_12 : IVec S_ 32 := constantI S_ 32 0#32
  let main_v30 : IVec S2x900x8 32 := broadcastInDim S2x900x8 ![] bcast_S_S2x900x8 main_c_12
  let main_v31 : IVec S2x900x8 1 := cmpi .sge main_arg5 main_v30
  let main_c_13 : IVec S_ 1 := constantI S_ 1 1#1
  fn_part2 (F := F) main_arg5 main_v29 main_v31 main_c_13

def fn {F : FTy → Type} [FloatOps F] (main_arg0 : FVec F S2x4x256x64x176 .f32) (main_arg1 : FVec F S2x4x256x64x176 .f32) (main_arg2 : FVec F S2x900x3 .f32) (main_arg3 : IVec S2x900x3 32) (main_arg4 : IVec S2x900x3 32) (main_arg5 : IVec S2x900x8 32) : IVec S_ 1 :=
  let main_v0 : FVec F S2x4x256x64x176 .f32 := Host.absf main_arg0
  let main_cst : FVec F S_ .f32 := constant S_ .f32 0x7F800000#32
  let main_v1 : FVec F S2x4x256x64x176 .f32 := broadcastInDim S2x4x256x64x176 ![] bcast_S_S2x4x256x64x176 main_cst
  let main_v2 : IVec S2x4x256x64x176 1 := cmpf .olt main_v0 main_v1
  let main_c : IVec S_ 1 := constantI S_ 1 1#1
  let main_v3 : IVec S_ 1 := (fun x v => Host.reduce IntOp.andi x v reducesTo_S2x4x256x64x176_S_d0_1_2_3_4 h_S_) main_v2 main_c
  let main_v4 : FVec F S2x4x256x64x176 .f32 := Host.absf main_arg1
  let main_cst_0 : FVec F S_ .f32 := constant S_ .f32 0x7F800000#32
  let main_v5 : FVec F S2x4x256x64x176 .f32 := broadcastInDim S2x4x256x64x176 ![] bcast_S_S2x4x256x64x176 main_cst_0
  let main_v6 : IVec S2x4x256x64x176 1 := cmpf .olt main_v4 main_v5
  let main_c_1 : IVec S_ 1 := constantI S_ 1 1#1
  let main_v7 : IVec S_ 1 := (fun x v => Host.reduce IntOp.andi x v reducesTo_S2x4x256x64x176_S_d0_1_2_3_4 h_S_) main_v6 main_c_1
  let main_v8 : IVec S_ 1 := andi main_v3 main_v7
  let main_v9 : FVec F S2x900x3 .f32 := Host.absf main_arg2
  let main_cst_2 : FVec F S_ .f32 := constant S_ .f32 0x7F800000#32
  let main_v10 : FVec F S2x900x3 .f32 := broadcastInDim S2x900x3 ![] bcast_S_S2x900x3 main_cst_2
  let main_v11 : IVec S2x900x3 1 := cmpf .olt main_v9 main_v10
  let main_c_3 : IVec S_ 1 := constantI S_ 1 1#1
  let main_v12 : IVec S_ 1 := (fun x v => Host.reduce IntOp.andi x v reducesTo_S2x900x3_S_d0_1_2 h_S_) main_v11 main_c_3
  let main_v13 : IVec S_ 1 := andi main_v8 main_v12
  let main_c_4 : IVec S_ 32 := constantI S_ 32 0#32
  let main_v14 : IVec S2x900x3 32 := broadcastInDim S2x900x3 ![] bcast_S_S2x900x3 main_c_4
  let main_v15 : IVec S2x900x3 1 := cmpi .sge main_arg3 main_v14
  let main_c_5 : IVec S_ 1 := constantI S_ 1 1#1
  fn_part1 (F := F) main_arg3 main_arg4 main_arg5 main_v13 main_v15 main_c_5
-- ==== Kernel.lean ====
abbrev S2x4x256x64x176 : Shape := ⟨5, ![2, 4, 256, 64, 176]⟩
abbrev S2x900x3 : Shape := ⟨3, ![2, 900, 3]⟩
abbrev S2x900x8 : Shape := ⟨3, ![2, 900, 8]⟩
abbrev S_ : Shape := ⟨0, ![]⟩
abbrev S2x900x8x1 : Shape := ⟨4, ![2, 900, 8, 1]⟩
abbrev S1 : Shape := ⟨1, ![1]⟩
abbrev S1x1x1x1 : Shape := ⟨4, ![1, 1, 1, 1]⟩
abbrev S2x4x64x176x256 : Shape := ⟨5, ![2, 4, 64, 176, 256]⟩
abbrev S90112x2x128 : Shape := ⟨3, ![90112, 2, 128]⟩
abbrev S2 : Shape := ⟨1, ![2]⟩
abbrev S2x1x1 : Shape := ⟨3, ![2, 1, 1]⟩
abbrev S14400 : Shape := ⟨1, ![14400]⟩
abbrev S14400x4x128 : Shape := ⟨3, ![14400, 4, 128]⟩
abbrev S1x2x128 : Shape := ⟨3, ![1, 2, 128]⟩
abbrev S1x4x128 : Shape := ⟨3, ![1, 4, 128]⟩
abbrev S14400x512 : Shape := ⟨2, ![14400, 512]⟩
abbrev S2x900x8x512 : Shape := ⟨4, ![2, 900, 8, 512]⟩

abbrev nBuf : Space → Nat
  | .hbm => 152
  | .vmem => 6
  | .smem => 1
  | _ => 0

abbrev hbmTy0_0 (i : Nat) : BufTy := match i % 128 with
  | 0 => ⟨S2x4x256x64x176, .f32⟩
  | 1 => ⟨S2x4x256x64x176, .f32⟩
  | 2 => ⟨S2x900x3, .f32⟩
  | 3 => ⟨S2x900x3, .i32⟩
  | 4 => ⟨S2x900x3, .i32⟩
  | 5 => ⟨S2x900x8, .i32⟩
  | 6 => ⟨S_, .i32⟩
  | 7 => ⟨S_, .i32⟩
  | 8 => ⟨S2x900x8, .i32⟩
  | 9 => ⟨S2x900x8, .i32⟩
  | 10 => ⟨S2x900x8, .i32⟩
  | 11 => ⟨S_, .i32⟩
  | 12 => ⟨S2x900x8, .i32⟩
  | 13 => ⟨S2x900x8, .i1⟩
  | 14 => ⟨S2x900x8, .i32⟩
  | 15 => ⟨S2x900x8, .i32⟩
  | 16 => ⟨S_, .i32⟩
  | 17 => ⟨S2x900x8, .i32⟩
  | 18 => ⟨S2x900x8, .i1⟩
  | 19 => ⟨S2x900x8, .i1⟩
  | 20 => ⟨S_, .i32⟩
  | 21 => ⟨S2x900x8, .i32⟩
  | 22 => ⟨S2x900x8, .i32⟩
  | 23 => ⟨S2x900x8, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S2x900x8, .i32⟩
  | 31 => ⟨S2x900x8, .i32⟩
  | 32 => ⟨S_, .i32⟩
  | 33 => ⟨S2x900x8, .i32⟩
  | 34 => ⟨S2x900x8, .i1⟩
  | 35 => ⟨S_, .i32⟩
  | 36 => ⟨S2x900x8, .i32⟩
  | 37 => ⟨S2x900x8, .i1⟩
  | 38 => ⟨S_, .i32⟩
  | 39 => ⟨S_, .i1⟩
  | 40 => ⟨S2x900x8, .i1⟩
  | 41 => ⟨S2x900x8, .i1⟩
  | 42 => ⟨S2x900x8, .i1⟩
  | 43 => ⟨S2x900x8, .i32⟩
  | 44 => ⟨S2x900x8, .i32⟩
  | 45 => ⟨S2x900x8, .i32⟩
  | 46 => ⟨S_, .i32⟩
  | 47 => ⟨S_, .i32⟩
  | 48 => ⟨S2x900x8, .i32⟩
  | 49 => ⟨S2x900x8, .i32⟩
  | 50 => ⟨S2x900x8, .i32⟩
  | 51 => ⟨S_, .i32⟩
  | 52 => ⟨S2x900x8, .i32⟩
  | 53 => ⟨S2x900x8, .i1⟩
  | 54 => ⟨S2x900x8, .i32⟩
  | 55 => ⟨S2x900x8, .i32⟩
  | 56 => ⟨S_, .i32⟩
  | 57 => ⟨S2x900x8, .i32⟩
  | 58 => ⟨S2x900x8, .i1⟩
  | 59 => ⟨S2x900x8, .i1⟩
  | 60 => ⟨S_, .i32⟩
  | 61 => ⟨S2x900x8, .i32⟩
  | 62 => ⟨S2x900x8, .i32⟩
  | 63 => ⟨S2x900x8, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S2x900x8, .i32⟩
  | 71 => ⟨S2x900x8, .i32⟩
  | 72 => ⟨S_, .i32⟩
  | 73 => ⟨S2x900x8, .i32⟩
  | 74 => ⟨S2x900x8, .i1⟩
  | 75 => ⟨S_, .i32⟩
  | 76 => ⟨S2x900x8, .i32⟩
  | 77 => ⟨S2x900x8, .i1⟩
  | 78 => ⟨S_, .i32⟩
  | 79 => ⟨S_, .i1⟩
  | 80 => ⟨S2x900x8, .i1⟩
  | 81 => ⟨S2x900x8, .i1⟩
  | 82 => ⟨S2x900x8, .i1⟩
  | 83 => ⟨S2x900x8, .i32⟩
  | 84 => ⟨S2x900x8, .i32⟩
  | 85 => ⟨S2x900x8, .i32⟩
  | 86 => ⟨S_, .i32⟩
  | 87 => ⟨S2x900x8, .i32⟩
  | 88 => ⟨S2x900x8, .i1⟩
  | 89 => ⟨S_, .i32⟩
  | 90 => ⟨S2x900x8, .i32⟩
  | 91 => ⟨S2x900x8, .i32⟩
  | 92 => ⟨S2x900x8, .i32⟩
  | 93 => ⟨S2x900x8x1, .i32⟩
  | 94 => ⟨S1, .i32⟩
  | 95 => ⟨S_, .i32⟩
  | 96 => ⟨S2x900x8x1, .i32⟩
  | 97 => ⟨S2x900x8x1, .i1⟩
  | 98 => ⟨S1x1x1x1, .i32⟩
  | 99 => ⟨S2x900x8x1, .i32⟩
  | 100 => ⟨S2x900x8x1, .i1⟩
  | 101 => ⟨S2x900x8x1, .i1⟩
  | 102 => ⟨S_, .i1⟩
  | 103 => ⟨S2x900x8, .i1⟩
  | 104 => ⟨S2x900x8, .i32⟩
  | 105 => ⟨S_, .i32⟩
  | 106 => ⟨S2x900x8, .i32⟩
  | 107 => ⟨S2x900x8, .i32⟩
  | 108 => ⟨S_, .i32⟩
  | 109 => ⟨S2x900x8, .i32⟩
  | 110 => ⟨S2x900x8, .i1⟩
  | 111 => ⟨S_, .i32⟩
  | 112 => ⟨S2x900x8, .i32⟩
  | 113 => ⟨S2x900x8, .i32⟩
  | 114 => ⟨S2x900x8, .i32⟩
  | 115 => ⟨S2x900x8x1, .i32⟩
  | 116 => ⟨S1, .i32⟩
  | 117 => ⟨S_, .i32⟩
  | 118 => ⟨S2x900x8x1, .i32⟩
  | 119 => ⟨S2x900x8x1, .i1⟩
  | 120 => ⟨S1x1x1x1, .i32⟩
  | 121 => ⟨S2x900x8x1, .i32⟩
  | 122 => ⟨S2x900x8x1, .i1⟩
  | 123 => ⟨S2x900x8x1, .i1⟩
  | 124 => ⟨S_, .i1⟩
  | 125 => ⟨S2x900x8, .i1⟩
  | 126 => ⟨S2x900x8, .i32⟩
  | 127 => ⟨S_, .i32⟩
  | _ => ⟨S2x4x256x64x176, .f32⟩

abbrev hbmTy0_1 (i : Nat) : BufTy := match i % 128 with
  | 0 => ⟨S2x900x8, .i32⟩
  | 1 => ⟨S2x900x8, .i32⟩
  | 2 => ⟨S2x4x64x176x256, .f32⟩
  | 3 => ⟨S90112x2x128, .f32⟩
  | 4 => ⟨S2x4x64x176x256, .f32⟩
  | 5 => ⟨S90112x2x128, .f32⟩
  | 6 => ⟨S2, .i32⟩
  | 7 => ⟨S2x1x1, .i32⟩
  | 8 => ⟨S2x900x8, .i32⟩
  | 9 => ⟨S_, .i32⟩
  | 10 => ⟨S2x900x8, .i32⟩
  | 11 => ⟨S2x900x8, .i32⟩
  | 12 => ⟨S2x900x8, .i32⟩
  | 13 => ⟨S_, .i32⟩
  | 14 => ⟨S2x900x8, .i32⟩
  | 15 => ⟨S2x900x8, .i32⟩
  | 16 => ⟨S2x900x8, .i32⟩
  | 17 => ⟨S_, .i32⟩
  | 18 => ⟨S2x900x8, .i32⟩
  | 19 => ⟨S2x900x8, .i32⟩
  | 20 => ⟨S2x900x8, .i32⟩
  | 21 => ⟨S14400x4x128, .f32⟩
  | 22 => ⟨S14400x512, .f32⟩
  | 23 => ⟨S2x900x8x512, .f32⟩
  | _ => ⟨S2x4x256x64x176, .f32⟩

abbrev hbmTy (i : Nat) : BufTy := match i / 128 with
  | 0 => hbmTy0_0 i
  | 1 => hbmTy0_1 i
  | _ => ⟨S2x4x256x64x176, .f32⟩

abbrev bufTy : (tb : Table) → Fin (tcTables nBuf tb) → BufTy
  | .hbm, ⟨i, _⟩ => hbmTy i
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S1x2x128, .f32⟩
  | .local _ .vmem, ⟨4, _⟩ => ⟨S1x4x128, .f32⟩
  | .local _ .vmem, ⟨5, _⟩ => ⟨S1x4x128, .f32⟩
  | .local _ .smem, ⟨0, _⟩ => ⟨S14400, .i32⟩
  | _, _ => ⟨S2x4x256x64x176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v1 : Ref sig .tc := ⟨.hbm, 45, rfl⟩
abbrev main_c_1 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v2 : Ref sig .tc := ⟨.hbm, 63, rfl⟩
abbrev main_c_2 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_v5 : Ref sig .tc := ⟨.hbm, 73, rfl⟩
abbrev main_call3_v6 : Ref sig .tc := ⟨.hbm, 74, rfl⟩
abbrev main_call3_c_2 : Ref sig .tc := ⟨.hbm, 75, rfl⟩
abbrev main_call3_v7 : Ref sig .tc := ⟨.hbm, 76, rfl⟩
abbrev main_call3_v8 : Ref sig .tc := ⟨.hbm, 77, rfl⟩
abbrev main_call3_c_3 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_v3 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_c_4 : Ref sig .tc := ⟨.hbm, 105, rfl⟩
abbrev main_call4_v14 : Ref sig .tc := ⟨.hbm, 106, rfl⟩
abbrev main_v4 : Ref sig .tc := ⟨.hbm, 107, rfl⟩
abbrev main_call5_c : Ref sig .tc := ⟨.hbm, 108, rfl⟩
abbrev main_call5_v0 : Ref sig .tc := ⟨.hbm, 109, rfl⟩
abbrev main_call5_v1 : Ref sig .tc := ⟨.hbm, 110, rfl⟩
abbrev main_call5_c_0 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_v5 : Ref sig .tc := ⟨.hbm, 115, rfl⟩
abbrev main_call5_c_1 : Ref sig .tc := ⟨.hbm, 116, rfl⟩
abbrev main_call5_c_2 : Ref sig .tc := ⟨.hbm, 117, rfl⟩
abbrev main_call5_v6 : Ref sig .tc := ⟨.hbm, 118, rfl⟩
abbrev main_call5_v7 : Ref sig .tc := ⟨.hbm, 119, rfl⟩
abbrev main_call5_v8 : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_call5_c_3 : Ref sig .tc := ⟨.hbm, 124, rfl⟩
abbrev main_call5_v12 : Ref sig .tc := ⟨.hbm, 125, rfl⟩
abbrev main_call5_v13 : Ref sig .tc := ⟨.hbm, 126, rfl⟩
abbrev main_call5_c_4 : Ref sig .tc := ⟨.hbm, 127, rfl⟩
abbrev main_call5_v14 : Ref sig .tc := ⟨.hbm, 128, rfl⟩
abbrev main_v5 : Ref sig .tc := ⟨.hbm, 129, rfl⟩
abbrev main_v6 : Ref sig .tc := ⟨.hbm, 130, rfl⟩
abbrev main_v7 : Ref sig .tc := ⟨.hbm, 131, rfl⟩
abbrev main_v8 : Ref sig .tc := ⟨.hbm, 132, rfl⟩
abbrev main_v9 : Ref sig .tc := ⟨.hbm, 133, rfl⟩
abbrev main_v10 : Ref sig .tc := ⟨.hbm, 134, rfl⟩
abbrev main_v11 : Ref sig .tc := ⟨.hbm, 135, rfl⟩
abbrev main_v12 : Ref sig .tc := ⟨.hbm, 136, rfl⟩
abbrev main_c_3 : Ref sig .tc := ⟨.hbm, 137, rfl⟩
abbrev main_v13 : Ref sig .tc := ⟨.hbm, 138, rfl⟩
abbrev main_v14 : Ref sig .tc := ⟨.hbm, 139, rfl⟩
abbrev main_v15 : Ref sig .tc := ⟨.hbm, 140, rfl⟩
abbrev main_c_4 : Ref sig .tc := ⟨.hbm, 141, rfl⟩
abbrev main_v16 : Ref sig .tc := ⟨.hbm, 142, rfl⟩
abbrev main_v17 : Ref sig .tc := ⟨.hbm, 143, rfl⟩
abbrev main_v18 : Ref sig .tc := ⟨.hbm, 144, rfl⟩
abbrev main_c_5 : Ref sig .tc := ⟨.hbm, 145, rfl⟩
abbrev main_v19 : Ref sig .tc := ⟨.hbm, 146, rfl⟩
abbrev main_v20 : Ref sig .tc := ⟨.hbm, 147, rfl⟩
abbrev main_v21 : Ref sig .tc := ⟨.hbm, 148, rfl⟩
abbrev main_v23 : Ref sig .tc := ⟨.hbm, 149, rfl⟩
abbrev main_v24 : Ref sig .tc := ⟨.hbm, 150, rfl⟩
abbrev main_v25 : Ref sig .tc := ⟨.hbm, 151, rfl⟩
abbrev main_v22 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![14400], ![false]⟩

abbrev pre0 : Pipeline.Prefetch sig := ⟨1, ![main_v22.idx], fun | 0 => main_v22.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S14400.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S14400) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S14400.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S14400) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2x900x8 : S_.BroadcastsInDim S2x900x8 (![] : Fin 0 → Fin S2x900x8.rank)
  shapeCasts_S2x900x8_S2x900x8x1 : S2x900x8.ShapeCasts S2x900x8x1
  bcast_S_S2x900x8x1 : S_.BroadcastsInDim S2x900x8x1 (![] : Fin 0 → Fin S2x900x8x1.rank)
  bcast_S1_S1x1x1x1_3 : S1.BroadcastsInDim S1x1x1x1 (![3] : Fin 1 → Fin S1x1x1x1.rank)
  bcast_S1x1x1x1_S2x900x8x1_0_1_2_3 : S1x1x1x1.BroadcastsInDim S2x900x8x1 (![0, 1, 2, 3] : Fin 4 → Fin S2x900x8x1.rank)
  reducesTo_S2x900x8x1_S2x900x8_d3 : S2x900x8x1.ReducesTo [3] S2x900x8
  h_S_ : 0 < S_.numel
  transposes_S2x4x256x64x176_S2x4x64x176x256_0_1_3_4_2 : S2x4x256x64x176.Transposes [0, 1, 3, 4, 2] S2x4x64x176x256
  shapeCasts_S2x4x64x176x256_S90112x2x128 : S2x4x64x176x256.ShapeCasts S90112x2x128
  bcast_S2_S2x1x1_0 : S2.BroadcastsInDim S2x1x1 (![0] : Fin 1 → Fin S2x1x1.rank)
  bcast_S2x1x1_S2x900x8_0_1_2 : S2x1x1.BroadcastsInDim S2x900x8 (![0, 1, 2] : Fin 3 → Fin S2x900x8.rank)
  shapeCasts_S2x900x8_S14400 : S2x900x8.ShapeCasts S14400
  numel1_S1 : S1.numel = 1
  inb_S1x2x128_S1x2x128_0_0_0 : ∀ a, (![0, 0, 0] : Fin 3 → Nat) a + S1x2x128.size a ≤ S1x2x128.size a
  h_S1x2x128 : 0 < S1x2x128.numel
  shapeCasts_S1x2x128_S1x2x128 : S1x2x128.ShapeCasts S1x2x128
  concatenates_S1x2x128_S1x2x128_S1x4x128_d1 : Shape.Concatenates [S1x2x128, S1x2x128] S1x4x128 1
  inb_S1x4x128_S1x4x128_0_0_0 : ∀ a, (![0, 0, 0] : Fin 3 → Nat) a + S1x4x128.size a ≤ S1x4x128.size a
  h_S1x4x128 : 0 < S1x4x128.numel
  shapeCasts_S14400x4x128_S14400x512 : S14400x4x128.ShapeCasts S14400x512
  shapeCasts_S14400x512_S2x900x8x512 : S14400x512.ShapeCasts S2x900x8x512
  gather_S2x900x3_S2x900x8x1_S2x900x8_n_2_01_01_2_3_111_wf : GatherDims.WF S2x900x3 S2x900x8x1 S2x900x8 [] [2] [0, 1] [2] [0, 1] 3 ![1, 1, 1]
  hrank0 : 0 < grid0.rank
  k0_off1_inb : ∀ i : grid0.Coords, ∀ a, (k0_off1 i) a + S1.size a ≤ S14400.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x128.size a ≤ S14400x4x128.size a
  hwx0_2 : ∀ i : grid0.Coords, EltTy.bits .f32 = 32 ∨ (Rect.block (s := S14400x4x128) S1x4x128.size (cc0_transform_2 i) (hinb0_2 i)).WholeWords (EltTy.packing .f32)

variable [Facts₀]

def gather_S2x900x3_S2x900x8x1_S2x900x8_n_2_01_01_2_3_111 : GatherDims S2x900x3 S2x900x8x1 S2x900x8 where
  offsetDims := []
  collapsedSliceDims := [2]
  operandBatchingDims := [0, 1]
  startIndicesBatchingDims := [0, 1]
  startIndexMap := [2]
  indexVectorDim := 3
  sliceSizes := ![1, 1, 1]
  wf := gather_S2x900x3_S2x900x8x1_S2x900x8_n_2_01_01_2_3_111_wf

abbrev spec0_0 : Pipeline.WinSpec sig grid0.rank :=
  Pipeline.WinSpec.ofSpec (Memref.whole main_v7) S1x2x128.size reads0_0 false false 2 stage0_0 sem0_0 nbuf0_0 hstage0_0

abbrev spec0_1 : Pipeline.WinSpec sig grid0.rank :=
  Pipeline.WinSpec.ofSpec (Memref.whole main_v9) S1x2x128.size reads0_1 false false 2 stage0_1 sem0_1 nbuf0_1 hstage0_1

abbrev spec0_2 : Pipeline.WinSpec sig grid0.rank :=
  Pipeline.WinSpec.ofSpec (Memref.whole main_v23) S1x4x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x2x128.size a ≤ S90112x2x128.size a), EltTy.bits .f32 = 32 ∨ (Rect.block (s := S90112x2x128) S1x2x128.size (cc0_transform_0 k0_off1_inb numel1_S1 pf i) h).WholeWords (EltTy.packing .f32)) ∧
  (∀ i : grid0.Coords, ∃ h : (∀ a, (cc0_transform_1 k0_off1_inb numel1_S1 pf i a + 1) * S1x2x128.size a ≤ S90112x2x128.size a), EltTy.bits .f32 = 32 ∨ (Rect.block (s := S90112x2x128) S1x2x128.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S2x4x256x64x176 : Shape := ⟨5, ![2, 4, 256, 64, 176]⟩
abbrev S2x900x3 : Shape := ⟨3, ![2, 900, 3]⟩
abbrev S2x900x8 : Shape := ⟨3, ![2, 900, 8]⟩
abbrev S_ : Shape := ⟨0, ![]⟩
abbrev S2x900x8x1 : Shape := ⟨4, ![2, 900, 8, 1]⟩
abbrev S1 : Shape := ⟨1, ![1]⟩
abbrev S1x1x1x1 : Shape := ⟨4, ![1, 1, 1, 1]⟩
abbrev S2 : Shape := ⟨1, ![2]⟩
abbrev S2x1x1 : Shape := ⟨3, ![2, 1, 1]⟩
abbrev S2x900x8x4 : Shape := ⟨4, ![2, 900, 8, 4]⟩
abbrev S2x900x8x256 : Shape := ⟨4, ![2, 900, 8, 256]⟩
abbrev S2x900x8x512 : Shape := ⟨4, ![2, 900, 8, 512]⟩

abbrev nBuf : Space → Nat
  | .hbm => 329
  | .vmem => 0
  | .smem => 0
  | _ => 0

abbrev hbmTy0_0 (i : Nat) : BufTy := match i % 128 with
  | 0 => ⟨S2x4x256x64x176, .f32⟩
  | 1 => ⟨S2x4x256x64x176, .f32⟩
  | 2 => ⟨S2x900x3, .f32⟩
  | 3 => ⟨S2x900x3, .i32⟩
  | 4 => ⟨S2x900x3, .i32⟩
  | 5 => ⟨S2x900x8, .i32⟩
  | 6 => ⟨S_, .i32⟩
  | 7 => ⟨S_, .i32⟩
  | 8 => ⟨S2x900x8, .i32⟩
  | 9 => ⟨S2x900x8, .i32⟩
  | 10 => ⟨S2x900x8, .i32⟩
  | 11 => ⟨S_, .i32⟩
  | 12 => ⟨S2x900x8, .i32⟩
  | 13 => ⟨S2x900x8, .i1⟩
  | 14 => ⟨S2x900x8, .i32⟩
  | 15 => ⟨S2x900x8, .i32⟩
  | 16 => ⟨S_, .i32⟩
  | 17 => ⟨S2x900x8, .i32⟩
  | 18 => ⟨S2x900x8, .i1⟩
  | 19 => ⟨S2x900x8, .i1⟩
  | 20 => ⟨S_, .i32⟩
  | 21 => ⟨S2x900x8, .i32⟩
  | 22 => ⟨S2x900x8, .i32⟩
  | 23 => ⟨S2x900x8, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S2x900x8, .i32⟩
  | 31 => ⟨S2x900x8, .i32⟩
  | 32 => ⟨S_, .i32⟩
  | 33 => ⟨S2x900x8, .i32⟩
  | 34 => ⟨S2x900x8, .i1⟩
  | 35 => ⟨S_, .i32⟩
  | 36 => ⟨S2x900x8, .i32⟩
  | 37 => ⟨S2x900x8, .i1⟩
  | 38 => ⟨S_, .i32⟩
  | 39 => ⟨S_, .i1⟩
  | 40 => ⟨S2x900x8, .i1⟩
  | 41 => ⟨S2x900x8, .i1⟩
  | 42 => ⟨S2x900x8, .i1⟩
  | 43 => ⟨S2x900x8, .i32⟩
  | 44 => ⟨S2x900x8, .i32⟩
  | 45 => ⟨S2x900x8, .i32⟩
  | 46 => ⟨S_, .i32⟩
  | 47 => ⟨S_, .i32⟩
  | 48 => ⟨S2x900x8, .i32⟩
  | 49 => ⟨S2x900x8, .i32⟩
  | 50 => ⟨S2x900x8, .i32⟩
  | 51 => ⟨S_, .i32⟩
  | 52 => ⟨S2x900x8, .i32⟩
  | 53 => ⟨S2x900x8, .i1⟩
  | 54 => ⟨S2x900x8, .i32⟩
  | 55 => ⟨S2x900x8, .i32⟩
  | 56 => ⟨S_, .i32⟩
  | 57 => ⟨S2x900x8, .i32⟩
  | 58 => ⟨S2x900x8, .i1⟩
  | 59 => ⟨S2x900x8, .i1⟩
  | 60 => ⟨S_, .i32⟩
  | 61 => ⟨S2x900x8, .i32⟩
  | 62 => ⟨S2x900x8, .i32⟩
  | 63 => ⟨S2x900x8, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S2x900x8, .i32⟩
  | 71 => ⟨S2x900x8, .i32⟩
  | 72 => ⟨S_, .i32⟩
  | 73 => ⟨S2x900x8, .i32⟩
  | 74 => ⟨S2x900x8, .i1⟩
  | 75 => ⟨S_, .i32⟩
  | 76 => ⟨S2x900x8, .i32⟩
  | 77 => ⟨S2x900x8, .i1⟩
  | 78 => ⟨S_, .i32⟩
  | 79 => ⟨S_, .i1⟩
  | 80 => ⟨S2x900x8, .i1⟩
  | 81 => ⟨S2x900x8, .i1⟩
  | 82 => ⟨S2x900x8, .i1⟩
  | 83 => ⟨S2x900x8, .i32⟩
  | 84 => ⟨S2x900x8, .i32⟩
  | 85 => ⟨S2x900x8, .i32⟩
  | 86 => ⟨S_, .i32⟩
  | 87 => ⟨S2x900x8, .i32⟩
  | 88 => ⟨S2x900x8, .i1⟩
  | 89 => ⟨S_, .i32⟩
  | 90 => ⟨S2x900x8, .i32⟩
  | 91 => ⟨S2x900x8, .i32⟩
  | 92 => ⟨S2x900x8, .i32⟩
  | 93 => ⟨S2x900x8x1, .i32⟩
  | 94 => ⟨S1, .i32⟩
  | 95 => ⟨S_, .i32⟩
  | 96 => ⟨S2x900x8x1, .i32⟩
  | 97 => ⟨S2x900x8x1, .i1⟩
  | 98 => ⟨S1x1x1x1, .i32⟩
  | 99 => ⟨S2x900x8x1, .i32⟩
  | 100 => ⟨S2x900x8x1, .i1⟩
  | 101 => ⟨S2x900x8x1, .i1⟩
  | 102 => ⟨S_, .i1⟩
  | 103 => ⟨S2x900x8, .i1⟩
  | 104 => ⟨S2x900x8, .i32⟩
  | 105 => ⟨S_, .i32⟩
  | 106 => ⟨S2x900x8, .i32⟩
  | 107 => ⟨S2x900x8, .i32⟩
  | 108 => ⟨S_, .i32⟩
  | 109 => ⟨S2x900x8, .i32⟩
  | 110 => ⟨S2x900x8, .i1⟩
  | 111 => ⟨S_, .i32⟩
  | 112 => ⟨S2x900x8, .i32⟩
  | 113 => ⟨S2x900x8, .i32⟩
  | 114 => ⟨S2x900x8, .i32⟩
  | 115 => ⟨S2x900x8x1, .i32⟩
  | 116 => ⟨S1, .i32⟩
  | 117 => ⟨S_, .i32⟩
  | 118 => ⟨S2x900x8x1, .i32⟩
  | 119 => ⟨S2x900x8x1, .i1⟩
  | 120 => ⟨S1x1x1x1, .i32⟩
  | 121 => ⟨S2x900x8x1, .i32⟩
  | 122 => ⟨S2x900x8x1, .i1⟩
  | 123 => ⟨S2x900x8x1, .i1⟩
  | 124 => ⟨S_, .i1⟩
  | 125 => ⟨S2x900x8, .i1⟩
  | 126 => ⟨S2x900x8, .i32⟩
  | 127 => ⟨S_, .i32⟩
  | _ => ⟨S2x4x256x64x176, .f32⟩

abbrev hbmTy0_1 (i : Nat) : BufTy := match i % 128 with
  | 0 => ⟨S2x900x8, .i32⟩
  | 1 => ⟨S2x900x8, .i32⟩
  | 2 => ⟨S2, .i32⟩
  | 3 => ⟨S2x1x1, .i32⟩
  | 4 => ⟨S_, .i32⟩
  | 5 => ⟨S2x1x1, .i32⟩
  | 6 => ⟨S2x1x1, .i1⟩
  | 7 => ⟨S_, .i32⟩
  | 8 => ⟨S2x1x1, .i32⟩
  | 9 => ⟨S2x1x1, .i32⟩
  | 10 => ⟨S2x1x1, .i32⟩
  | 11 => ⟨S_, .i32⟩
  | 12 => ⟨S2x900x8, .i32⟩
  | 13 => ⟨S2x900x8, .i1⟩
  | 14 => ⟨S_, .i32⟩
  | 15 => ⟨S2x900x8, .i32⟩
  | 16 => ⟨S2x900x8, .i32⟩
  | 17 => ⟨S2x900x8, .i32⟩
  | 18 => ⟨S_, .i32⟩
  | 19 => ⟨S2x900x8, .i32⟩
  | 20 => ⟨S2x900x8, .i1⟩
  | 21 => ⟨S_, .i32⟩
  | 22 => ⟨S2x900x8, .i32⟩
  | 23 => ⟨S2x900x8, .i32⟩
  | 24 => ⟨S2x900x8, .i32⟩
  | 25 => ⟨S_, .i32⟩
  | 26 => ⟨S2x900x8, .i32⟩
  | 27 => ⟨S2x900x8, .i1⟩
  | 28 => ⟨S_, .i32⟩
  | 29 => ⟨S2x900x8, .i32⟩
  | 30 => ⟨S2x900x8, .i32⟩
  | 31 => ⟨S2x900x8, .i32⟩
  | 32 => ⟨S2x900x8, .i32⟩
  | 33 => ⟨S2x900x8x1, .i32⟩
  | 34 => ⟨S2x900x8x1, .i32⟩
  | 35 => ⟨S2x900x8x1, .i32⟩
  | 36 => ⟨S2x900x8x1, .i32⟩
  | 37 => ⟨S2x900x8x4, .i32⟩
  | 38 => ⟨S2x900x8x256, .f32⟩
  | 39 => ⟨S_, .i32⟩
  | 40 => ⟨S_, .i32⟩
  | 41 => ⟨S2x900x8, .i32⟩
  | 42 => ⟨S2x900x8, .i32⟩
  | 43 => ⟨S2x900x8, .i32⟩
  | 44 => ⟨S_, .i32⟩
  | 45 => ⟨S2x900x8, .i32⟩
  | 46 => ⟨S2x900x8, .i1⟩
  | 47 => ⟨S2x900x8, .i32⟩
  | 48 => ⟨S2x900x8, .i32⟩
  | 49 => ⟨S_, .i32⟩
  | 50 => ⟨S2x900x8, .i32⟩
  | 51 => ⟨S2x900x8, .i1⟩
  | 52 => ⟨S2x900x8, .i1⟩
  | 53 => ⟨S_, .i32⟩
  | 54 => ⟨S2x900x8, .i32⟩
  | 55 => ⟨S2x900x8, .i32⟩
  | 56 => ⟨S2x900x8, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S2x900x8, .i32⟩
  | 64 => ⟨S2x900x8, .i32⟩
  | 65 => ⟨S_, .i32⟩
  | 66 => ⟨S2x900x8, .i32⟩
  | 67 => ⟨S2x900x8, .i1⟩
  | 68 => ⟨S_, .i32⟩
  | 69 => ⟨S2x900x8, .i32⟩
  | 70 => ⟨S2x900x8, .i1⟩
  | 71 => ⟨S_, .i32⟩
  | 72 => ⟨S_, .i1⟩
  | 73 => ⟨S2x900x8, .i1⟩
  | 74 => ⟨S2x900x8, .i1⟩
  | 75 => ⟨S2x900x8, .i1⟩
  | 76 => ⟨S2x900x8, .i32⟩
  | 77 => ⟨S2x900x8, .i32⟩
  | 78 => ⟨S2x900x8, .i32⟩
  | 79 => ⟨S_, .i32⟩
  | 80 => ⟨S_, .i32⟩
  | 81 => ⟨S2x900x8, .i32⟩
  | 82 => ⟨S2x900x8, .i32⟩
  | 83 => ⟨S2x900x8, .i32⟩
  | 84 => ⟨S_, .i32⟩
  | 85 => ⟨S2x900x8, .i32⟩
  | 86 => ⟨S2x900x8, .i1⟩
  | 87 => ⟨S2x900x8, .i32⟩
  | 88 => ⟨S2x900x8, .i32⟩
  | 89 => ⟨S_, .i32⟩
  | 90 => ⟨S2x900x8, .i32⟩
  | 91 => ⟨S2x900x8, .i1⟩
  | 92 => ⟨S2x900x8, .i1⟩
  | 93 => ⟨S_, .i32⟩
  | 94 => ⟨S2x900x8, .i32⟩
  | 95 => ⟨S2x900x8, .i32⟩
  | 96 => ⟨S2x900x8, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S2x900x8, .i32⟩
  | 104 => ⟨S2x900x8, .i32⟩
  | 105 => ⟨S_, .i32⟩
  | 106 => ⟨S2x900x8, .i32⟩
  | 107 => ⟨S2x900x8, .i1⟩
  | 108 => ⟨S_, .i32⟩
  | 109 => ⟨S2x900x8, .i32⟩
  | 110 => ⟨S2x900x8, .i1⟩
  | 111 => ⟨S_, .i32⟩
  | 112 => ⟨S_, .i1⟩
  | 113 => ⟨S2x900x8, .i1⟩
  | 114 => ⟨S2x900x8, .i1⟩
  | 115 => ⟨S2x900x8, .i1⟩
  | 116 => ⟨S2x900x8, .i32⟩
  | 117 => ⟨S2x900x8, .i32⟩
  | 118 => ⟨S2x900x8, .i32⟩
  | 119 => ⟨S_, .i32⟩
  | 120 => ⟨S2x900x8, .i32⟩
  | 121 => ⟨S2x900x8, .i1⟩
  | 122 => ⟨S_, .i32⟩
  | 123 => ⟨S2x900x8, .i32⟩
  | 124 => ⟨S2x900x8, .i32⟩
  | 125 => ⟨S2x900x8, .i32⟩
  | 126 => ⟨S2x900x8x1, .i32⟩
  | 127 => ⟨S1, .i32⟩
  | _ => ⟨S2x4x256x64x176, .f32⟩

abbrev hbmTy0_2 (i : Nat) : BufTy := match i % 128 with
  | 0 => ⟨S_, .i32⟩
  | 1 => ⟨S2x900x8x1, .i32⟩
  | 2 => ⟨S2x900x8x1, .i1⟩
  | 3 => ⟨S1x1x1x1, .i32⟩
  | 4 => ⟨S2x900x8x1, .i32⟩
  | 5 => ⟨S2x900x8x1, .i1⟩
  | 6 => ⟨S2x900x8x1, .i1⟩
  | 7 => ⟨S_, .i1⟩
  | 8 => ⟨S2x900x8, .i1⟩
  | 9 => ⟨S2x900x8, .i32⟩
  | 10 => ⟨S_, .i32⟩
  | 11 => ⟨S2x900x8, .i32⟩
  | 12 => ⟨S2x900x8, .i32⟩
  | 13 => ⟨S_, .i32⟩
  | 14 => ⟨S2x900x8, .i32⟩
  | 15 => ⟨S2x900x8, .i1⟩
  | 16 => ⟨S_, .i32⟩
  | 17 => ⟨S2x900x8, .i32⟩
  | 18 => ⟨S2x900x8, .i32⟩
  | 19 => ⟨S2x900x8, .i32⟩
  | 20 => ⟨S2x900x8x1, .i32⟩
  | 21 => ⟨S1, .i32⟩
  | 22 => ⟨S_, .i32⟩
  | 23 => ⟨S2x900x8x1, .i32⟩
  | 24 => ⟨S2x900x8x1, .i1⟩
  | 25 => ⟨S1x1x1x1, .i32⟩
  | 26 => ⟨S2x900x8x1, .i32⟩
  | 27 => ⟨S2x900x8x1, .i1⟩
  | 28 => ⟨S2x900x8x1, .i1⟩
  | 29 => ⟨S_, .i1⟩
  | 30 => ⟨S2x900x8, .i1⟩
  | 31 => ⟨S2x900x8, .i32⟩
  | 32 => ⟨S_, .i32⟩
  | 33 => ⟨S2x900x8, .i32⟩
  | 34 => ⟨S2x900x8, .i32⟩
  | 35 => ⟨S2, .i32⟩
  | 36 => ⟨S2x1x1, .i32⟩
  | 37 => ⟨S_, .i32⟩
  | 38 => ⟨S2x1x1, .i32⟩
  | 39 => ⟨S2x1x1, .i1⟩
  | 40 => ⟨S_, .i32⟩
  | 41 => ⟨S2x1x1, .i32⟩
  | 42 => ⟨S2x1x1, .i32⟩
  | 43 => ⟨S2x1x1, .i32⟩
  | 44 => ⟨S_, .i32⟩
  | 45 => ⟨S2x900x8, .i32⟩
  | 46 => ⟨S2x900x8, .i1⟩
  | 47 => ⟨S_, .i32⟩
  | 48 => ⟨S2x900x8, .i32⟩
  | 49 => ⟨S2x900x8, .i32⟩
  | 50 => ⟨S2x900x8, .i32⟩
  | 51 => ⟨S_, .i32⟩
  | 52 => ⟨S2x900x8, .i32⟩
  | 53 => ⟨S2x900x8, .i1⟩
  | 54 => ⟨S_, .i32⟩
  | 55 => ⟨S2x900x8, .i32⟩
  | 56 => ⟨S2x900x8, .i32⟩
  | 57 => ⟨S2x900x8, .i32⟩
  | 58 => ⟨S_, .i32⟩
  | 59 => ⟨S2x900x8, .i32⟩
  | 60 => ⟨S2x900x8, .i1⟩
  | 61 => ⟨S_, .i32⟩
  | 62 => ⟨S2x900x8, .i32⟩
  | 63 => ⟨S2x900x8, .i32⟩
  | 64 => ⟨S2x900x8, .i32⟩
  | 65 => ⟨S2x900x8, .i32⟩
  | 66 => ⟨S2x900x8x1, .i32⟩
  | 67 => ⟨S2x900x8x1, .i32⟩
  | 68 => ⟨S2x900x8x1, .i32⟩
  | 69 => ⟨S2x900x8x1, .i32⟩
  | 70 => ⟨S2x900x8x4, .i32⟩
  | 71 => ⟨S2x900x8x256, .f32⟩
  | 72 => ⟨S2x900x8x512, .f32⟩
  | _ => ⟨S2x4x256x64x176, .f32⟩

abbrev hbmTy (i : Nat) : BufTy := match i / 128 with
  | 0 => hbmTy0_0 i
  | 1 => hbmTy0_1 i
  | 2 => hbmTy0_2 i
  | _ => ⟨S2x4x256x64x176, .f32⟩

abbrev bufTy : (tb : Table) → Fin (tcTables nBuf tb) → BufTy
  | .hbm, ⟨i, _⟩ => hbmTy i
  | _, _ => ⟨S2x4x256x64x176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v1 : Ref sig .tc := ⟨.hbm, 45, rfl⟩
abbrev main_c_1 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v2 : Ref sig .tc := ⟨.hbm, 63, rfl⟩
abbrev main_c_2 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_v5 : Ref sig .tc := ⟨.hbm, 73, rfl⟩
abbrev main_call3_v6 : Ref sig .tc := ⟨.hbm, 74, rfl⟩
abbrev main_call3_c_2 : Ref sig .tc := ⟨.hbm, 75, rfl⟩
abbrev main_call3_v7 : Ref sig .tc := ⟨.hbm, 76, rfl⟩
abbrev main_call3_v8 : Ref sig .tc := ⟨.hbm, 77, rfl⟩
abbrev main_call3_c_3 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_v3 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_c_4 : Ref sig .tc := ⟨.hbm, 105, rfl⟩
abbrev main_call4_v14 : Ref sig .tc := ⟨.hbm, 106, rfl⟩
abbrev main_v4 : Ref sig .tc := ⟨.hbm, 107, rfl⟩
abbrev main_call5_c : Ref sig .tc := ⟨.hbm, 108, rfl⟩
abbrev main_call5_v0 : Ref sig .tc := ⟨.hbm, 109, rfl⟩
abbrev main_call5_v1 : Ref sig .tc := ⟨.hbm, 110, rfl⟩
abbrev main_call5_c_0 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_v5 : Ref sig .tc := ⟨.hbm, 115, rfl⟩
abbrev main_call5_c_1 : Ref sig .tc := ⟨.hbm, 116, rfl⟩
abbrev main_call5_c_2 : Ref sig .tc := ⟨.hbm, 117, rfl⟩
abbrev main_call5_v6 : Ref sig .tc := ⟨.hbm, 118, rfl⟩
abbrev main_call5_v7 : Ref sig .tc := ⟨.hbm, 119, rfl⟩
abbrev main_call5_v8 : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_call5_c_3 : Ref sig .tc := ⟨.hbm, 124, rfl⟩
abbrev main_call5_v12 : Ref sig .tc := ⟨.hbm, 125, rfl⟩
abbrev main_call5_v13 : Ref sig .tc := ⟨.hbm, 126, rfl⟩
abbrev main_call5_c_4 : Ref sig .tc := ⟨.hbm, 127, rfl⟩
abbrev main_call5_v14 : Ref sig .tc := ⟨.hbm, 128, rfl⟩
abbrev main_v5 : Ref sig .tc := ⟨.hbm, 129, rfl⟩
abbrev main_v6 : Ref sig .tc := ⟨.hbm, 130, rfl⟩
abbrev main_v7 : Ref sig .tc := ⟨.hbm, 131, rfl⟩
abbrev main_c_3 : Ref sig .tc := ⟨.hbm, 132, rfl⟩
abbrev main_v8 : Ref sig .tc := ⟨.hbm, 133, rfl⟩
abbrev main_v9 : Ref sig .tc := ⟨.hbm, 134, rfl⟩
abbrev main_c_4 : Ref sig .tc := ⟨.hbm, 135, rfl⟩
abbrev main_v10 : Ref sig .tc := ⟨.hbm, 136, rfl⟩
abbrev main_v11 : Ref sig .tc := ⟨.hbm, 137, rfl⟩
abbrev main_v12 : Ref sig .tc := ⟨.hbm, 138, rfl⟩
abbrev main_c_5 : Ref sig .tc := ⟨.hbm, 139, rfl⟩
abbrev main_v13 : Ref sig .tc := ⟨.hbm, 140, rfl⟩
abbrev main_v14 : Ref sig .tc := ⟨.hbm, 141, rfl⟩
abbrev main_c_6 : Ref sig .tc := ⟨.hbm, 142, rfl⟩
abbrev main_v15 : Ref sig .tc := ⟨.hbm, 143, rfl⟩
abbrev main_v16 : Ref sig .tc := ⟨.hbm, 144, rfl⟩
abbrev main_v17 : Ref sig .tc := ⟨.hbm, 145, rfl⟩
abbrev main_c_7 : Ref sig .tc := ⟨.hbm, 146, rfl⟩
abbrev main_v18 : Ref sig .tc := ⟨.hbm, 147, rfl⟩
abbrev main_v19 : Ref sig .tc := ⟨.hbm, 148, rfl⟩
abbrev main_c_8 : Ref sig .tc := ⟨.hbm, 149, rfl⟩
abbrev main_v20 : Ref sig .tc := ⟨.hbm, 150, rfl⟩
abbrev main_v21 : Ref sig .tc := ⟨.hbm, 151, rfl⟩
abbrev main_v22 : Ref sig .tc := ⟨.hbm, 152, rfl⟩
abbrev main_c_9 : Ref sig .tc := ⟨.hbm, 153, rfl⟩
abbrev main_v23 : Ref sig .tc := ⟨.hbm, 154, rfl⟩
abbrev main_v24 : Ref sig .tc := ⟨.hbm, 155, rfl⟩
abbrev main_c_10 : Ref sig .tc := ⟨.hbm, 156, rfl⟩
abbrev main_v25 : Ref sig .tc := ⟨.hbm, 157, rfl⟩
abbrev main_v26 : Ref sig .tc := ⟨.hbm, 158, rfl⟩
abbrev main_v27 : Ref sig .tc := ⟨.hbm, 159, rfl⟩
abbrev main_v28 : Ref sig .tc := ⟨.hbm, 160, rfl⟩
abbrev main_v29 : Ref sig .tc := ⟨.hbm, 161, rfl⟩
abbrev main_v30 : Ref sig .tc := ⟨.hbm, 162, rfl⟩
abbrev main_v31 : Ref sig .tc := ⟨.hbm, 163, rfl⟩
abbrev main_v32 : Ref sig .tc := ⟨.hbm, 164, rfl⟩
abbrev main_v33 : Ref sig .tc := ⟨.hbm, 165, rfl⟩
abbrev main_v34 : Ref sig .tc := ⟨.hbm, 166, rfl⟩
abbrev main_c_11 : Ref sig .tc := ⟨.hbm, 167, rfl⟩
abbrev main_call6_v0 : Ref sig .tc := ⟨.hbm, 168, rfl⟩
abbrev main_call6_v1 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_call6_v5 : Ref sig .tc := ⟨.hbm, 173, rfl⟩
abbrev main_call6_v6 : Ref sig .tc := ⟨.hbm, 174, rfl⟩
abbrev main_call6_v7 : Ref sig .tc := ⟨.hbm, 175, rfl⟩
abbrev main_call6_v8 : Ref sig .tc := ⟨.hbm, 176, rfl⟩
abbrev main_call6_c : Ref sig .tc := ⟨.hbm, 177, rfl⟩
abbrev main_call6_v9 : Ref sig .tc := ⟨.hbm, 178, rfl⟩
abbrev main_call6_v10 : Ref sig .tc := ⟨.hbm, 179, rfl⟩
abbrev main_call6_v11 : Ref sig .tc := ⟨.hbm, 180, rfl⟩
abbrev main_call6_c_0 : Ref sig .tc := ⟨.hbm, 181, rfl⟩
abbrev main_call6_v12 : Ref sig .tc := ⟨.hbm, 182, rfl⟩
abbrev main_call6_v13 : Ref sig .tc := ⟨.hbm, 183, rfl⟩
abbrev main_v35 : Ref sig .tc := ⟨.hbm, 184, rfl⟩
abbrev main_c_12 : Ref sig .tc := ⟨.hbm, 185, rfl⟩
abbrev main_call7_v0 : Ref sig .tc := ⟨.hbm, 186, rfl⟩
abbrev main_call7_c : Ref sig .tc := ⟨.hbm, 187, rfl⟩
abbrev main_call7_v1 : Ref sig .tc := ⟨.hbm, 188, rfl⟩
abbrev main_call7_c_0 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_call7_c_1 : Ref sig .tc := ⟨.hbm, 193, rfl⟩
abbrev main_call7_v5 : Ref sig .tc := ⟨.hbm, 194, rfl⟩
abbrev main_call7_v6 : Ref sig .tc := ⟨.hbm, 195, rfl⟩
abbrev main_call7_c_2 : Ref sig .tc := ⟨.hbm, 196, rfl⟩
abbrev main_call7_v7 : Ref sig .tc := ⟨.hbm, 197, rfl⟩
abbrev main_call7_v8 : Ref sig .tc := ⟨.hbm, 198, rfl⟩
abbrev main_call7_c_3 : Ref sig .tc := ⟨.hbm, 199, rfl⟩
abbrev main_call7_v9 : Ref sig .tc := ⟨.hbm, 200, rfl⟩
abbrev main_call7_v10 : Ref sig .tc := ⟨.hbm, 201, rfl⟩
abbrev main_call7_v11 : Ref sig .tc := ⟨.hbm, 202, rfl⟩
abbrev main_call7_v12 : Ref sig .tc := ⟨.hbm, 203, rfl⟩
abbrev main_call7_v13 : Ref sig .tc := ⟨.hbm, 204, rfl⟩
abbrev main_call7_v14 : Ref sig .tc := ⟨.hbm, 205, rfl⟩
abbrev main_v36 : Ref sig .tc := ⟨.hbm, 206, rfl⟩
abbrev main_c_13 : Ref sig .tc := ⟨.hbm, 207, rfl⟩
abbrev main_call8_v0 : Ref sig .tc := ⟨.hbm, 208, rfl⟩
abbrev main_call8_v1 : Ref sig .tc := ⟨.hbm, 209, rfl⟩
abbrev main_call8_v2 : Ref sig .tc := ⟨.hbm, 210, rfl⟩
abbrev main_call8_v3 : Ref sig .tc := ⟨.hbm, 211, rfl⟩
abbrev main_call8_v4 : Ref sig .tc := ⟨.hbm, 212, rfl⟩
abbrev main_call8_v5 : Ref sig .tc := ⟨.hbm, 213, rfl⟩
abbrev main_call8_v6 : Ref sig .tc := ⟨.hbm, 214, rfl⟩
abbrev main_call8_v7 : Ref sig .tc := ⟨.hbm, 215, rfl⟩
abbrev main_call8_v8 : Ref sig .tc := ⟨.hbm, 216, rfl⟩
abbrev main_call8_c : Ref sig .tc := ⟨.hbm, 217, rfl⟩
abbrev main_call8_v9 : Ref sig .tc := ⟨.hbm, 218, rfl⟩
abbrev main_call8_v10 : Ref sig .tc := ⟨.hbm, 219, rfl⟩
abbrev main_call8_v11 : Ref sig .tc := ⟨.hbm, 220, rfl⟩
abbrev main_call8_c_0 : Ref sig .tc := ⟨.hbm, 221, rfl⟩
abbrev main_call8_v12 : Ref sig .tc := ⟨.hbm, 222, rfl⟩
abbrev main_call8_v13 : Ref sig .tc := ⟨.hbm, 223, rfl⟩
abbrev main_v37 : Ref sig .tc := ⟨.hbm, 224, rfl⟩
abbrev main_c_14 : Ref sig .tc := ⟨.hbm, 225, rfl⟩
abbrev main_call9_v0 : Ref sig .tc := ⟨.hbm, 226, rfl⟩
abbrev main_call9_c : Ref sig .tc := ⟨.hbm, 227, rfl⟩
abbrev main_call9_v1 : Ref sig .tc := ⟨.hbm, 228, rfl⟩
abbrev main_call9_c_0 : Ref sig .tc := ⟨.hbm, 229, rfl⟩
abbrev main_call9_v2 : Ref sig .tc := ⟨.hbm, 230, rfl⟩
abbrev main_call9_v3 : Ref sig .tc := ⟨.hbm, 231, rfl⟩
abbrev main_call9_v4 : Ref sig .tc := ⟨.hbm, 232, rfl⟩
abbrev main_call9_c_1 : Ref sig .tc := ⟨.hbm, 233, rfl⟩
abbrev main_call9_v5 : Ref sig .tc := ⟨.hbm, 234, rfl⟩
abbrev main_call9_v6 : Ref sig .tc := ⟨.hbm, 235, rfl⟩
abbrev main_call9_c_2 : Ref sig .tc := ⟨.hbm, 236, rfl⟩
abbrev main_call9_v7 : Ref sig .tc := ⟨.hbm, 237, rfl⟩
abbrev main_call9_v8 : Ref sig .tc := ⟨.hbm, 238, rfl⟩
abbrev main_call9_c_3 : Ref sig .tc := ⟨.hbm, 239, rfl⟩
abbrev main_call9_v9 : Ref sig .tc := ⟨.hbm, 240, rfl⟩
abbrev main_call9_v10 : Ref sig .tc := ⟨.hbm, 241, rfl⟩
abbrev main_call9_v11 : Ref sig .tc := ⟨.hbm, 242, rfl⟩
abbrev main_call9_v12 : Ref sig .tc := ⟨.hbm, 243, rfl⟩
abbrev main_call9_v13 : Ref sig .tc := ⟨.hbm, 244, rfl⟩
abbrev main_call9_v14 : Ref sig .tc := ⟨.hbm, 245, rfl⟩
abbrev main_v38 : Ref sig .tc := ⟨.hbm, 246, rfl⟩
abbrev main_call10_c : Ref sig .tc := ⟨.hbm, 247, rfl⟩
abbrev main_call10_v0 : Ref sig .tc := ⟨.hbm, 248, rfl⟩
abbrev main_call10_v1 : Ref sig .tc := ⟨.hbm, 249, rfl⟩
abbrev main_call10_c_0 : Ref sig .tc := ⟨.hbm, 250, rfl⟩
abbrev main_call10_v2 : Ref sig .tc := ⟨.hbm, 251, rfl⟩
abbrev main_call10_v3 : Ref sig .tc := ⟨.hbm, 252, rfl⟩
abbrev main_call10_v4 : Ref sig .tc := ⟨.hbm, 253, rfl⟩
abbrev main_call10_v5 : Ref sig .tc := ⟨.hbm, 254, rfl⟩
abbrev main_call10_c_1 : Ref sig .tc := ⟨.hbm, 255, rfl⟩
abbrev main_call10_c_2 : Ref sig .tc := ⟨.hbm, 256, rfl⟩
abbrev main_call10_v6 : Ref sig .tc := ⟨.hbm, 257, rfl⟩
abbrev main_call10_v7 : Ref sig .tc := ⟨.hbm, 258, rfl⟩
abbrev main_call10_v8 : Ref sig .tc := ⟨.hbm, 259, rfl⟩
abbrev main_call10_v9 : Ref sig .tc := ⟨.hbm, 260, rfl⟩
abbrev main_call10_v10 : Ref sig .tc := ⟨.hbm, 261, rfl⟩
abbrev main_call10_v11 : Ref sig .tc := ⟨.hbm, 262, rfl⟩
abbrev main_call10_c_3 : Ref sig .tc := ⟨.hbm, 263, rfl⟩
abbrev main_call10_v12 : Ref sig .tc := ⟨.hbm, 264, rfl⟩
abbrev main_call10_v13 : Ref sig .tc := ⟨.hbm, 265, rfl⟩
abbrev main_call10_c_4 : Ref sig .tc := ⟨.hbm, 266, rfl⟩
abbrev main_call10_v14 : Ref sig .tc := ⟨.hbm, 267, rfl⟩
abbrev main_v39 : Ref sig .tc := ⟨.hbm, 268, rfl⟩
abbrev main_call11_c : Ref sig .tc := ⟨.hbm, 269, rfl⟩
abbrev main_call11_v0 : Ref sig .tc := ⟨.hbm, 270, rfl⟩
abbrev main_call11_v1 : Ref sig .tc := ⟨.hbm, 271, rfl⟩
abbrev main_call11_c_0 : Ref sig .tc := ⟨.hbm, 272, rfl⟩
abbrev main_call11_v2 : Ref sig .tc := ⟨.hbm, 273, rfl⟩
abbrev main_call11_v3 : Ref sig .tc := ⟨.hbm, 274, rfl⟩
abbrev main_call11_v4 : Ref sig .tc := ⟨.hbm, 275, rfl⟩
abbrev main_call11_v5 : Ref sig .tc := ⟨.hbm, 276, rfl⟩
abbrev main_call11_c_1 : Ref sig .tc := ⟨.hbm, 277, rfl⟩
abbrev main_call11_c_2 : Ref sig .tc := ⟨.hbm, 278, rfl⟩
abbrev main_call11_v6 : Ref sig .tc := ⟨.hbm, 279, rfl⟩
abbrev main_call11_v7 : Ref sig .tc := ⟨.hbm, 280, rfl⟩
abbrev main_call11_v8 : Ref sig .tc := ⟨.hbm, 281, rfl⟩
abbrev main_call11_v9 : Ref sig .tc := ⟨.hbm, 282, rfl⟩
abbrev main_call11_v10 : Ref sig .tc := ⟨.hbm, 283, rfl⟩
abbrev main_call11_v11 : Ref sig .tc := ⟨.hbm, 284, rfl⟩
abbrev main_call11_c_3 : Ref sig .tc := ⟨.hbm, 285, rfl⟩
abbrev main_call11_v12 : Ref sig .tc := ⟨.hbm, 286, rfl⟩
abbrev main_call11_v13 : Ref sig .tc := ⟨.hbm, 287, rfl⟩
abbrev main_call11_c_4 : Ref sig .tc := ⟨.hbm, 288, rfl⟩
abbrev main_call11_v14 : Ref sig .tc := ⟨.hbm, 289, rfl⟩
abbrev main_v40 : Ref sig .tc := ⟨.hbm, 290, rfl⟩
abbrev main_v41 : Ref sig .tc := ⟨.hbm, 291, rfl⟩
abbrev main_v42 : Ref sig .tc := ⟨.hbm, 292, rfl⟩
abbrev main_c_15 : Ref sig .tc := ⟨.hbm, 293, rfl⟩
abbrev main_v43 : Ref sig .tc := ⟨.hbm, 294, rfl⟩
abbrev main_v44 : Ref sig .tc := ⟨.hbm, 295, rfl⟩
abbrev main_c_16 : Ref sig .tc := ⟨.hbm, 296, rfl⟩
abbrev main_v45 : Ref sig .tc := ⟨.hbm, 297, rfl⟩
abbrev main_v46 : Ref sig .tc := ⟨.hbm, 298, rfl⟩
abbrev main_v47 : Ref sig .tc := ⟨.hbm, 299, rfl⟩
abbrev main_c_17 : Ref sig .tc := ⟨.hbm, 300, rfl⟩
abbrev main_v48 : Ref sig .tc := ⟨.hbm, 301, rfl⟩
abbrev main_v49 : Ref sig .tc := ⟨.hbm, 302, rfl⟩
abbrev main_c_18 : Ref sig .tc := ⟨.hbm, 303, rfl⟩
abbrev main_v50 : Ref sig .tc := ⟨.hbm, 304, rfl⟩
abbrev main_v51 : Ref sig .tc := ⟨.hbm, 305, rfl⟩
abbrev main_v52 : Ref sig .tc := ⟨.hbm, 306, rfl⟩
abbrev main_c_19 : Ref sig .tc := ⟨.hbm, 307, rfl⟩
abbrev main_v53 : Ref sig .tc := ⟨.hbm, 308, rfl⟩
abbrev main_v54 : Ref sig .tc := ⟨.hbm, 309, rfl⟩
abbrev main_c_20 : Ref sig .tc := ⟨.hbm, 310, rfl⟩
abbrev main_v55 : Ref sig .tc := ⟨.hbm, 311, rfl⟩
abbrev main_v56 : Ref sig .tc := ⟨.hbm, 312, rfl⟩
abbrev main_v57 : Ref sig .tc := ⟨.hbm, 313, rfl⟩
abbrev main_c_21 : Ref sig .tc := ⟨.hbm, 314, rfl⟩
abbrev main_v58 : Ref sig .tc := ⟨.hbm, 315, rfl⟩
abbrev main_v59 : Ref sig .tc := ⟨.hbm, 316, rfl⟩
abbrev main_c_22 : Ref sig .tc := ⟨.hbm, 317, rfl⟩
abbrev main_v60 : Ref sig .tc := ⟨.hbm, 318, rfl⟩
abbrev main_v61 : Ref sig .tc := ⟨.hbm, 319, rfl⟩
abbrev main_v62 : Ref sig .tc := ⟨.hbm, 320, rfl⟩
abbrev main_v63 : Ref sig .tc := ⟨.hbm, 321, rfl⟩
abbrev main_v64 : Ref sig .tc := ⟨.hbm, 322, rfl⟩
abbrev main_v65 : Ref sig .tc := ⟨.hbm, 323, rfl⟩
abbrev main_v66 : Ref sig .tc := ⟨.hbm, 324, rfl⟩
abbrev main_v67 : Ref sig .tc := ⟨.hbm, 325, rfl⟩
abbrev main_v68 : Ref sig .tc := ⟨.hbm, 326, rfl⟩
abbrev main_v69 : Ref sig .tc := ⟨.hbm, 327, rfl⟩
abbrev main_v70 : Ref sig .tc := ⟨.hbm, 328, rfl⟩

abbrev nD : Nat := 1
abbrev τ : Topo := Topo.v7x

variable {F : FTy → Type} [FloatOps F]

class Facts₀ : Prop where
  bcast_S_S2x900x8 : S_.BroadcastsInDim S2x900x8 (![] : Fin 0 → Fin S2x900x8.rank)
  shapeCasts_S2x900x8_S2x900x8x1 : S2x900x8.ShapeCasts S2x900x8x1
  bcast_S_S2x900x8x1 : S_.BroadcastsInDim S2x900x8x1 (![] : Fin 0 → Fin S2x900x8x1.rank)
  bcast_S1_S1x1x1x1_3 : S1.BroadcastsInDim S1x1x1x1 (![3] : Fin 1 → Fin S1x1x1x1.rank)
  bcast_S1x1x1x1_S2x900x8x1_0_1_2_3 : S1x1x1x1.BroadcastsInDim S2x900x8x1 (![0, 1, 2, 3] : Fin 4 → Fin S2x900x8x1.rank)
  reducesTo_S2x900x8x1_S2x900x8_d3 : S2x900x8x1.ReducesTo [3] S2x900x8
  h_S_ : 0 < S_.numel
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S2x1x1_S2x900x8_0_1_2 : S2x1x1.BroadcastsInDim S2x900x8 (![0, 1, 2] : Fin 3 → Fin S2x900x8.rank)
  bcast_S2x900x8_S2x900x8x1_0_1_2 : S2x900x8.BroadcastsInDim S2x900x8x1 (![0, 1, 2] : Fin 3 → Fin S2x900x8x1.rank)
  concatenates_S2x900x8x1_S2x900x8x1_S2x900x8x1_S2x900x8x1_S2x900x8x4_d3 : Shape.Concatenates [S2x900x8x1, S2x900x8x1, S2x900x8x1, S2x900x8x1] S2x900x8x4 3
  concatenates_S2x900x8x256_S2x900x8x256_S2x900x8x512_d3 : Shape.Concatenates [S2x900x8x256, S2x900x8x256] S2x900x8x512 3
  gather_S2x900x3_S2x900x8x1_S2x900x8_n_2_01_01_2_3_111_wf : GatherDims.WF S2x900x3 S2x900x8x1 S2x900x8 [] [2] [0, 1] [2] [0, 1] 3 ![1, 1, 1]
  gather_S2x4x256x64x176_S2x900x8x4_S2x900x8x256_3_0134_n_n_0134_3_1125611_wf : GatherDims.WF S2x4x256x64x176 S2x900x8x4 S2x900x8x256 [3] [0, 1, 3, 4] [] [0, 1, 3, 4] [] 3 ![1, 1, 256, 1, 1]

variable [Facts₀]

def gather_S2x900x3_S2x900x8x1_S2x900x8_n_2_01_01_2_3_111 : GatherDims S2x900x3 S2x900x8x1 S2x900x8 where
  offsetDims := []
  collapsedSliceDims := [2]
  operandBatchingDims := [0, 1]
  startIndicesBatchingDims := [0, 1]
  startIndexMap := [2]
  indexVectorDim := 3
  sliceSizes := ![1, 1, 1]
  wf := gather_S2x900x3_S2x900x8x1_S2x900x8_n_2_01_01_2_3_111_wf
def gather_S2x4x256x64x176_S2x900x8x4_S2x900x8x256_3_0134_n_n_0134_3_1125611 : GatherDims S2x4x256x64x176 S2x900x8x4 S2x900x8x256 where
  offsetDims := [3]
  collapsedSliceDims := [0, 1, 3, 4]
  operandBatchingDims := []
  startIndicesBatchingDims := []
  startIndexMap := [0, 1, 3, 4]
  indexVectorDim := 3
  sliceSizes := ![1, 1, 256, 1, 1]
  wf := gather_S2x4x256x64x176_S2x900x8x4_S2x900x8x256_3_0134_n_n_0134_3_1125611_wf

class Facts : Prop extends Facts₀ where

variable [Facts]
-- ==== Proof.KIdxBits.lean ====
/-
  The gather kernel's grid and index maps: one grid axis of 14400 points; windows 0 and 1 read block (tb[i], 0, 0) of
  the re-laid camera arrays, tb the table of row numbers the region is handed, window 2 writes block (i, 0, 0) of the
  result.  What the region asks of the table is that every entry names a row.
-/
import proofs.«424974_j60189671686814_2_alg».proof.Proof.Gen.Kernel.Launch
import Idealize.ShloMosaic.Lib.ValueIdx

set_option maxRecDepth 16384

noncomputable section

namespace Cert.Kernel.KIdx

open Cert.Kernel Cert.Kernel.Gen
open Idealize.ShloMosaic Idealize.ShloMosaic.TcCoe Idealize.SL.Sem Idealize.ShloMosaic.ValueIdx

variable {F : FTy → Type} [FloatOps F]

/-! ## The grid and the index maps -/

theorem t_lt (t : Fin grid0.N) : t.val < 14400 := lt_of_lt_of_eq t.isLt N_0

/-- The grid has one axis: point t's coordinate is t. -/
theorem coords_val (t : Fin grid0.N) : ((grid0.coords t) 0).val = t.val := by
  show t.val / grid0.stride 0 % grid0.bound 0 = t.val
  have h1 : grid0.stride 0 = 1 := by decide
  have h2 : grid0.bound 0 = 14400 := rfl
  rw [h1, h2, Nat.div_one]
  exact Nat.mod_eq_of_lt (t_lt t)

theorem i0_lt (i : grid0.Coords) : (i 0).val < 14400 := (i 0).isLt

/-- The word of the table at grid coordinate i, for any contents of the table. -/
abbrev wordAt (pf : pre0.Contents (Elt F)) (i : grid0.Coords) : BitVec 32 := (pf 0 : IVec S14400 32) (ix1 ⟨(i 0).val, i0_lt i⟩)

/-- The unit rectangle the index maps read the table through, at its one index, is entry i of the table. -/
theorem word_idx (i : grid0.Coords) :
    (Rect.unit (s := S14400) ![(Scalar.indexCast (BitVec.ofNat 32 (i 0).val)).toNat] S1.size (k0_off1_inb i)).emb (Shape.Idx.first (numel1_S1.symm ▸ Nat.one_pos))
      = ix1 ⟨(i 0).val, i0_lt i⟩ := by
  funext a
  apply Fin.ext
  match a with
  | ⟨0, _⟩ =>
    show (Scalar.indexCast (BitVec.ofNat 32 (i 0).val)).toNat + 1 * (Shape.Idx.first (s := S1) (numel1_S1.symm ▸ Nat.one_pos) (0 : Fin 1)).val = (i 0).val
    have h0 : (Shape.Idx.first (s := S1) (numel1_S1.symm ▸ Nat.one_pos) (0 : Fin 1)).val = 0 := by
      have := (Shape.Idx.first (s := S1) (numel1_S1.symm ▸ Nat.one_pos) (0 : Fin 1)).isLt
      have e1 : S1.size (0 : Fin 1) = 1 := by decide
      omega
    have h1 : (Scalar.indexCast (BitVec.ofNat 32 (i 0).val)).toNat = (i 0).val := by
      show (BitVec.ofNat 32 (i 0).val).toNat = (i 0).val
      rw [BitVec.toNat_ofNat]
      have := i0_lt i
      omega
    rw [h0, h1]
    omega

/-- Windows 0 and 1 index their arrays by that word: block (word, 0, 0). -/
theorem transform0_eq (pf : pre0.Contents (Elt F)) (i : grid0.Coords) :
    cc0_transform_0 k0_off1_inb numel1_S1 pf i = ![(wordAt pf i).toNat, 0, 0] := by
  unfold cc0_transform_0
  dsimp only
  have e : pf.at 0 (Rect.unit (s := S14400) ![(Scalar.indexCast (BitVec.ofNat 32 (i 0).val)).toNat] S1.size (k0_off1_inb i)) numel1_S1 = wordAt pf i :=
    congrArg (pf 0) (word_idx i)
  rw [e]
  rfl

theorem transform1_eq (pf : pre0.Contents (Elt F)) (i : grid0.Coords) :
    cc0_transform_1 k0_off1_inb numel1_S1 pf i = ![(wordAt pf i).toNat, 0, 0] := by
  unfold cc0_transform_1
  dsimp only
  have e : pf.at 0 (Rect.unit (s := S14400) ![(Scalar.indexCast (BitVec.ofNat 32 (i 0).val)).toNat] S1.size (k0_off1_inb i)) numel1_S1 = wordAt pf i :=
    congrArg (pf 0) (word_idx i)
  rw [e]
  rfl

theorem transform2_eq (i : grid0.Coords) : cc0_transform_2 i = ![(i 0).val, 0, 0] := by
  unfold cc0_transform_2
  dsimp only
  have h1 : (BitVec.ofNat 32 (i 0).val).toNat = (i 0).val := by
    rw [BitVec.toNat_ofNat]
    have := i0_lt i
    omega
  rw [h1]
  rfl

/-- The side condition on the table: every word names a row of the re-laid camera arrays. -/
theorem ok0_of_lt (pf : pre0.Contents (Elt F)) (h : ∀ i : grid0.Coords, (wordAt pf i).toNat < 90112) : ok0 (F := F) pf := by
  refine ⟨fun i => ⟨fun a => ?_, Or.inl rfl⟩, fun i => ⟨fun a => ?_, Or.inl rfl⟩⟩
  · rw [transform0_eq]
    have := h i
    match a with
    | ⟨0, _⟩ => show ((wordAt pf i).toNat + 1) * 1 ≤ 90112; omega
    | ⟨1, _⟩ => show (0 + 1) * 2 ≤ 2; omega
    | ⟨2, _⟩ => show (0 + 1) * 128 ≤ 128; omega
  · rw [transform1_eq]
    have := h i
    match a with
    | ⟨0, _⟩ => show ((wordAt pf i).toNat + 1) * 1 ≤ 90112; omega
    | ⟨1, _⟩ => show (0 + 1) * 2 ≤ 2; omega
    | ⟨2, _⟩ => show (0 + 1) * 128 ≤ 128; omega

/-- Conversely the side condition bounds every word. -/
theorem lt_of_ok0 (pf : pre0.Contents (Elt F)) (h : ok0 (F := F) pf) (i : grid0.Coords) : (wordAt pf i).toNat < 90112 := by
  obtain ⟨hi, -⟩ := h.1 i
  have := hi 0
  rw [transform0_eq] at this
  have h' : ((wordAt pf i).toNat + 1) * 1 ≤ 90112 := this
  omega

end Cert.Kernel.KIdx

end
-- ==== Proof.Spec.lean ====
/-
  The sampler's index arithmetic and layout, as whole-array functions of the argument arrays.

  A point index p in [0, 3·3·64·176) names (s, t', h, w) with p = ((s·3 + t')·64 + h)·176 + w; the sampled frame is
  temporal[b, n, spatial[b, n, s]], and the sampled vector is cam[b, frame, :, h, w] for each camera, the two cameras'
  256 channels side by side.  One side flattens (b, frame, h, w) to a row number of the [2·4·64·176, 2, 128] re-laid
  camera array and reads that row; the other gathers along four axes of the five-axis array.  The definitions below are
  both spellings, operation by operation, so that each program's host lines read as one of them.
-/
import Idealize.ShloMosaic.PureOps
import Idealize.ShloMosaic.Lib.ValueIdx

noncomputable section

namespace Cert.Sampler

open Idealize.ShloMosaic

abbrev S2x4x256x64x176 : Shape := ⟨5, ![2, 4, 256, 64, 176]⟩
abbrev S2x900x3 : Shape := ⟨3, ![2, 900, 3]⟩
abbrev S2x900x8 : Shape := ⟨3, ![2, 900, 8]⟩
abbrev S_ : Shape := ⟨0, ![]⟩
abbrev S2x900x8x1 : Shape := ⟨4, ![2, 900, 8, 1]⟩
abbrev S1 : Shape := ⟨1, ![1]⟩
abbrev S1x1x1x1 : Shape := ⟨4, ![1, 1, 1, 1]⟩
abbrev S2x4x64x176x256 : Shape := ⟨5, ![2, 4, 64, 176, 256]⟩
abbrev S90112x2x128 : Shape := ⟨3, ![90112, 2, 128]⟩
abbrev S2 : Shape := ⟨1, ![2]⟩
abbrev S2x1x1 : Shape := ⟨3, ![2, 1, 1]⟩
abbrev S14400 : Shape := ⟨1, ![14400]⟩
abbrev S14400x4x128 : Shape := ⟨3, ![14400, 4, 128]⟩
abbrev S14400x512 : Shape := ⟨2, ![14400, 512]⟩
abbrev S2x900x8x512 : Shape := ⟨4, ![2, 900, 8, 512]⟩
abbrev S2x900x8x4 : Shape := ⟨4, ![2, 900, 8, 4]⟩
abbrev S2x900x8x256 : Shape := ⟨4, ![2, 900, 8, 256]⟩

/-! ## Shape relations the operations take -/

theorem bc_s_388 : S_.BroadcastsInDim S2x900x8 (![] : Fin 0 → Fin S2x900x8.rank) := by decide
theorem sc_388_3881 : S2x900x8.ShapeCasts S2x900x8x1 := by decide
theorem bc_s_3881 : S_.BroadcastsInDim S2x900x8x1 (![] : Fin 0 → Fin S2x900x8x1.rank) := by decide
theorem bc_1_1111 : S1.BroadcastsInDim S1x1x1x1 (![3] : Fin 1 → Fin S1x1x1x1.rank) := by decide
theorem bc_1111_3881 : S1x1x1x1.BroadcastsInDim S2x900x8x1 (![0, 1, 2, 3] : Fin 4 → Fin S2x900x8x1.rank) := by decide
theorem red_3881_388 : S2x900x8x1.ReducesTo [3] S2x900x8 := by decide
theorem pos_s : 0 < S_.numel := by decide
theorem tr_cam : S2x4x256x64x176.Transposes [0, 1, 3, 4, 2] S2x4x64x176x256 := by decide
theorem sc_cam : S2x4x64x176x256.ShapeCasts S90112x2x128 := by decide
theorem bc_2_211 : S2.BroadcastsInDim S2x1x1 (![0] : Fin 1 → Fin S2x1x1.rank) := by decide
theorem bc_s_211 : S_.BroadcastsInDim S2x1x1 (![] : Fin 0 → Fin S2x1x1.rank) := by decide
theorem bc_211_388 : S2x1x1.BroadcastsInDim S2x900x8 (![0, 1, 2] : Fin 3 → Fin S2x900x8.rank) := by decide
theorem bc_388_3881 : S2x900x8.BroadcastsInDim S2x900x8x1 (![0, 1, 2] : Fin 3 → Fin S2x900x8x1.rank) := by decide
theorem sc_388_14400 : S2x900x8.ShapeCasts S14400 := by decide
theorem sc_out1 : S14400x4x128.ShapeCasts S14400x512 := by decide
theorem sc_out2 : S14400x512.ShapeCasts S2x900x8x512 := by decide
theorem cat_idx : Shape.Concatenates [S2x900x8x1, S2x900x8x1, S2x900x8x1, S2x900x8x1] S2x900x8x4 3 := by decide
theorem cat_out : Shape.Concatenates [S2x900x8x256, S2x900x8x256] S2x900x8x512 3 := by decide

/-- A gather along the last axis of a [2, 900, 3] table, the first two axes batched: one table entry per (b, n, p). -/
def gTake : GatherDims S2x900x3 S2x900x8x1 S2x900x8 where
  offsetDims := []
  collapsedSliceDims := [2]
  operandBatchingDims := [0, 1]
  startIndicesBatchingDims := [0, 1]
  startIndexMap := [2]
  indexVectorDim := 3
  sliceSizes := ![1, 1, 1]
  wf := by decide

/-- A gather of whole channel vectors out of the five-axis camera array: four start indices (b, t, h, w) per (b, n, p),
    the 256 channels the one offset axis. -/
def gCam : GatherDims S2x4x256x64x176 S2x900x8x4 S2x900x8x256 where
  offsetDims := [3]
  collapsedSliceDims := [0, 1, 3, 4]
  operandBatchingDims := []
  startIndicesBatchingDims := []
  startIndexMap := [0, 1, 3, 4]
  indexVectorDim := 3
  sliceSizes := ![1, 1, 256, 1, 1]
  wf := by decide

/-! ## The integer chain, operation by operation -/

/-- A scalar constant laid over the [2, 900, 8] index space. -/
def splat (k : BitVec 32) : IVec S2x900x8 32 := broadcastInDim S2x900x8 ![] bc_s_388 (constantI S_ 32 k)

/-- jnp's floor division by a scalar word: the truncated quotient, one less where the signs differ and the remainder is not zero. -/
def floorDivV (k : BitVec 32) (x : IVec S2x900x8 32) : IVec S2x900x8 32 :=
  let v0 : IVec S_ 32 := id (constantI S_ 32 k)
  let v1 : IVec S2x900x8 32 := broadcastInDim S2x900x8 ![] bc_s_388 v0
  let v2 : IVec S2x900x8 32 := Host.divsi x v1
  let v3 : IVec S2x900x8 32 := signi x
  let v4 : IVec S_ 32 := signi v0
  let v5 : IVec S2x900x8 32 := broadcastInDim S2x900x8 ![] bc_s_388 v4
  let v6 : IVec S2x900x8 1 := cmpi .ne v3 v5
  let v7 : IVec S2x900x8 32 := broadcastInDim S2x900x8 ![] bc_s_388 v0
  let v8 : IVec S2x900x8 32 := Host.remsi x v7
  let v9 : IVec S2x900x8 32 := broadcastInDim S2x900x8 ![] bc_s_388 (constantI S_ 32 0#32)
  let v10 : IVec S2x900x8 1 := cmpi .ne v8 v9
  let v11 : IVec S2x900x8 1 := andi v6 v10
  let v12 : IVec S2x900x8 32 := broadcastInDim S2x900x8 ![] bc_s_388 (constantI S_ 32 1#32)
  let v13 : IVec S2x900x8 32 := subi v2 v12
  select v11 v13 v2

/-- jnp's remainder by a scalar word: the truncated remainder, the divisor added where it is not zero and its sign differs from the divisor's. -/
def remV (k : BitVec 32) (x : IVec S2x900x8 32) : IVec S2x900x8 32 :=
  let v0 : IVec S_ 32 := id (constantI S_ 32 k)
  let v1 : IVec S_ 1 := cmpi .eq v0 (constantI S_ 32 0#32)
  let v2 : IVec S_ 32 := select v1 (constantI S_ 32 1#32) v0
  let v3 : IVec S2x900x8 32 := broadcastInDim S2x900x8 ![] bc_s_388 v2
  let v4 : IVec S2x900x8 32 := Host.remsi x v3
  let v5 : IVec S2x900x8 32 := broadcastInDim S2x900x8 ![] bc_s_388 (constantI S_ 32 0#32)
  let v6 : IVec S2x900x8 1 := cmpi .ne v4 v5
  let v7 : IVec S2x900x8 32 := broadcastInDim S2x900x8 ![] bc_s_388 (constantI S_ 32 0#32)
  let v8 : IVec S2x900x8 1 := cmpi .slt v4 v7
  let v9 : IVec S_ 1 := cmpi .slt v2 (constantI S_ 32 0#32)
  let v10 : IVec S2x900x8 1 := broadcastInDim S2x900x8 ![] bc_s_388 v9
  let v11 : IVec S2x900x8 1 := cmpi .ne v8 v10
  let v12 : IVec S2x900x8 1 := andi v11 v6
  let v13 : IVec S2x900x8 32 := broadcastInDim S2x900x8 ![] bc_s_388 v2
  let v14 : IVec S2x900x8 32 := addi v4 v13
  select v12 v14 v4

/-- jnp.take_along_axis along the last axis of a [2, 900, 3] table: a negative index wraps once, an index outside
    [0, 2] after that gives the smallest word. -/
def takeV (tb : IVec S2x900x3 32) (i : IVec S2x900x8 32) : IVec S2x900x8 32 :=
  let v0 : IVec S2x900x8 32 := broadcastInDim S2x900x8 ![] bc_s_388 (constantI S_ 32 0#32)
  let v1 : IVec S2x900x8 1 := cmpi .slt i v0
  let v2 : IVec S2x900x8 32 := broadcastInDim S2x900x8 ![] bc_s_388 (constantI S_ 32 3#32)
  let v3 : IVec S2x900x8 32 := addi i v2
  let v4 : IVec S2x900x8 32 := select v1 v3 i
  let v5 : IVec S2x900x8x1 32 := shapeCast S2x900x8x1 v4 sc_388_3881
  let v6 : IVec S2x900x8x1 32 := broadcastInDim S2x900x8x1 ![] bc_s_3881 (constantI S_ 32 0#32)
  let v7 : IVec S2x900x8x1 1 := cmpi .sge v5 v6
  let v8 : IVec S1x1x1x1 32 := broadcastInDim S1x1x1x1 ![3] bc_1_1111 (constantI S1 32 2#32)
  let v9 : IVec S2x900x8x1 32 := broadcastInDim S2x900x8x1 ![0, 1, 2, 3] bc_1111_3881 v8
  let v10 : IVec S2x900x8x1 1 := cmpi .sle v5 v9
  let v11 : IVec S2x900x8x1 1 := andi v7 v10
  let v12 : IVec S2x900x8 1 := Host.reduce IntOp.andi v11 (constantI S_ 1 1#1) red_3881_388 pos_s
  let v13 : IVec S2x900x8 32 := Host.gather gTake tb v5
  let v14 : IVec S2x900x8 32 := broadcastInDim S2x900x8 ![] bc_s_388 (constantI S_ 32 2147483648#32)
  select v12 v13 v14

/-- s = p div (3·64·176). -/
def sV (a5 : IVec S2x900x8 32) : IVec S2x900x8 32 := floorDivV 33792#32 a5
/-- p mod (64·176). -/
def remHW (a5 : IVec S2x900x8 32) : IVec S2x900x8 32 := remV 11264#32 a5
/-- h = (p mod (64·176)) div 176. -/
def hV (a5 : IVec S2x900x8 32) : IVec S2x900x8 32 := floorDivV 176#32 (remHW a5)
/-- w = (p mod (64·176)) mod 176. -/
def wV (a5 : IVec S2x900x8 32) : IVec S2x900x8 32 := remV 176#32 (remHW a5)
/-- spatial[b, n, s]. -/
def spV (a4 : IVec S2x900x3 32) (a5 : IVec S2x900x8 32) : IVec S2x900x8 32 := takeV a4 (sV a5)
/-- frame = temporal[b, n, spatial[b, n, s]]. -/
def frameV (a3 a4 : IVec S2x900x3 32) (a5 : IVec S2x900x8 32) : IVec S2x900x8 32 := takeV a3 (spV a4 a5)

/-- The batch number b over the [2, 900, 8] index space. -/
def bGrid : IVec S2x900x8 32 :=
  broadcastInDim S2x900x8 ![0, 1, 2] bc_211_388 (broadcastInDim S2x1x1 ![0] bc_2_211 (iotaInDim S2 32 0))

/-- The row number ((b·4 + frame)·64 + h)·176 + w, in word arithmetic, one per (b, n, p). -/
def flatV (a3 a4 : IVec S2x900x3 32) (a5 : IVec S2x900x8 32) : IVec S2x900x8 32 :=
  addi (muli (addi (muli (addi (muli bGrid (splat 4#32)) (frameV a3 a4 a5)) (splat 64#32)) (hV a5)) (splat 176#32)) (wV a5)

/-- The row numbers as the table of 14400 words the gather kernel is handed. -/
def flatTbl (a3 a4 : IVec S2x900x3 32) (a5 : IVec S2x900x8 32) : IVec S14400 32 :=
  shapeCast S14400 (flatV a3 a4 a5) sc_388_14400

/-- A camera array with its channels moved last and cut in two halves of 128: row ((b·4 + t)·64 + h)·176 + w holds
    cam[b, t, :, h, w]. -/
def camRows {α : Type} (a : S2x4x256x64x176.Idx → α) : S90112x2x128.Idx → α :=
  shapeCast S90112x2x128 (transpose S2x4x64x176x256 [0, 1, 3, 4, 2] a tr_cam) sc_cam

/-- A word made non-negative the numpy way: n added to it where it is negative. -/
def wrapV (n : BitVec 32) (x : IVec S2x900x8 32) : IVec S2x900x8 32 :=
  select (cmpi .slt x (splat 0#32)) (addi x (splat n)) x

/-- The batch number, wrapped the same way (over the [2, 1, 1] column it is built on), then laid over [2, 900, 8]. -/
def bWrapped : IVec S2x900x8 32 :=
  let v7 : IVec S2x1x1 32 := broadcastInDim S2x1x1 ![0] bc_2_211 (iotaInDim S2 32 0)
  let v8 : IVec S2x1x1 32 := broadcastInDim S2x1x1 ![] bc_s_211 (constantI S_ 32 0#32)
  let v9 : IVec S2x1x1 1 := cmpi .slt v7 v8
  let v10 : IVec S2x1x1 32 := broadcastInDim S2x1x1 ![] bc_s_211 (constantI S_ 32 2#32)
  let v11 : IVec S2x1x1 32 := addi v7 v10
  let v12 : IVec S2x1x1 32 := select v9 v11 v7
  broadcastInDim S2x900x8 ![0, 1, 2] bc_211_388 v12

/-- A [2, 900, 8] array as a [2, 900, 8, 1] column. -/
def col (x : IVec S2x900x8 32) : IVec S2x900x8x1 32 := broadcastInDim S2x900x8x1 ![0, 1, 2] bc_388_3881 x

/-- The four start indices (b, frame, h, w) per (b, n, p), each wrapped. -/
def idxVec (a3 a4 : IVec S2x900x3 32) (a5 : IVec S2x900x8 32) : IVec S2x900x8x4 32 :=
  concatenate S2x900x8x4 3
    [⟨S2x900x8x1, col bWrapped⟩, ⟨S2x900x8x1, col (wrapV 4#32 (frameV a3 a4 a5))⟩,
     ⟨S2x900x8x1, col (wrapV 64#32 (hV a5))⟩, ⟨S2x900x8x1, col (wrapV 176#32 (wV a5))⟩] cat_idx

/-- The sampled channel vectors of both cameras side by side, by the four-axis gather. -/
def gatherOut {α : Type} (a0 a1 : S2x4x256x64x176.Idx → α) (a3 a4 : IVec S2x900x3 32) (a5 : IVec S2x900x8 32) :
    S2x900x8x512.Idx → α :=
  concatenate S2x900x8x512 3
    [⟨S2x900x8x256, Host.gather gCam a0 (idxVec a3 a4 a5)⟩, ⟨S2x900x8x256, Host.gather gCam a1 (idxVec a3 a4 a5)⟩] cat_out

/-- A [14400, 4, 128] array of rows re-read as [2, 900, 8, 512]. -/
def rowsOut {α : Type} (r : S14400x4x128.Idx → α) : S2x900x8x512.Idx → α :=
  shapeCast S2x900x8x512 (shapeCast S14400x512 r sc_out1) sc_out2

/-- The three integer inputs lie in the ranges of the axes they index: a frame of the four, a slot of a three-entry
    table, a point of the 3·3·64·176. -/
structure InRange (a3 a4 : IVec S2x900x3 32) (a5 : IVec S2x900x8 32) : Prop where
  t : ∀ i, (a3 i).toNat < 4
  s : ∀ i, (a4 i).toNat < 3
  p : ∀ i, (a5 i).toNat < 101376

/-- Row i of the gather kernel's result: the two halves of row tb[i] of the first re-laid camera, then of the second. -/
def rowReadAt {α : Type} (R0 R1 : S90112x2x128.Idx → α) (tb : IVec S14400 32) (i : Fin 14400) (j : Fin 4) (l : Fin 128) : α :=
  if h : j.val < 2 then R0 (ValueIdx.ix3 ⟨min (tb (ValueIdx.ix1 i)).toNat 90111, by omega⟩ ⟨j.val, h⟩ l)
  else R1 (ValueIdx.ix3 ⟨min (tb (ValueIdx.ix1 i)).toNat 90111, by omega⟩ ⟨j.val - 2, by omega⟩ l)

/-- The gather kernel's whole result array. -/
def rowRead {α : Type} (R0 R1 : S90112x2x128.Idx → α) (tb : IVec S14400 32) : S14400x4x128.Idx → α :=
  fun y => rowReadAt R0 R1 tb (y 0) (y 1) (y 2)

/-- The sampled channel vectors of both cameras side by side, by row reads of the re-laid camera arrays. -/
def kernelOut {α : Type} (a0 a1 : S2x4x256x64x176.Idx → α) (a3 a4 : IVec S2x900x3 32) (a5 : IVec S2x900x8 32) :
    S2x900x8x512.Idx → α :=
  rowsOut (rowRead (camRows a0) (camRows a1) (flatTbl a3 a4 a5))

end Cert.Sampler

end
-- ==== Proof.Gathers.lean ====
/-
  The two gathers of the sampler read at an element.
-/
import proofs.«424974_j60189671686814_2_alg».proof.Proof.Spec

set_option maxRecDepth 8192

noncomputable section

namespace Cert.Sampler

open Idealize.ShloMosaic Idealize.ShloMosaic.ValueIdx

/-- The start-indices index the batched take reads for result index (b, n, p): the result's three coordinates on the
    three batch axes, and the one component 0 on the index vector's axis. -/
theorem take_siIdx (b : Fin 2) (n : Fin 900) (p : Fin 8) (c : Fin gTake.startIndexMap.length) :
    gTake.siIdx (ix3 b n p) c = ix4 b n p 0 := by
  funext k
  apply Fin.ext
  match k with
  | ⟨0, _⟩ => rfl
  | ⟨1, _⟩ => rfl
  | ⟨2, _⟩ => rfl
  | ⟨3, _⟩ =>
    have hc : c.val < 1 := c.isLt
    show c.val = 0
    omega

/-- Element (b, n, p) of the batched take is the table's entry (b, n, r), r the start index at (b, n, p) read signed and
    clamped into [0, 2]. -/
theorem take_apply (tb : IVec S2x900x3 32) (idx : IVec S2x900x8x1 32) (b : Fin 2) (n : Fin 900) (p : Fin 8) :
    Host.gather gTake tb idx (ix3 b n p)
      = tb (ix3 b n ⟨min (idx (ix4 b n p 0)).toInt.toNat 2, by omega⟩) := by
  -- axis by axis: on the two batching axes the start is 0 and the batch coordinate is the result's own (b, then n);
  -- the last axis is collapsed and carries the clamped start alone
  unfold Host.gather; congr 1; funext a; apply Fin.ext
  fin_cases a <;>
    simp [GatherDims.operandIdx, GatherDims.start, GatherDims.offCoord, GatherDims.batchCoord, gTake,
      GatherDims.sKept, Shape.kept, GatherDims.siCoord, GatherDims.siKept, GatherDims.batchDims]
  · rfl
  · rfl
  · exact congrArg (fun i => min (idx i).toInt.toNat 2) (take_siIdx b n p _)

/-- The start-indices index the camera gather reads for component k of result index (b, n, p, c): the result's three
    batch coordinates, and k on the index vector's axis. -/
theorem cam_siIdx (b : Fin 2) (n : Fin 900) (p : Fin 8) (c : Fin 256) (k : Fin gCam.startIndexMap.length) :
    gCam.siIdx (ix4 b n p c) k = ix4 b n p ⟨k.val, k.isLt⟩ := by
  funext a
  apply Fin.ext
  match a with
  | ⟨0, _⟩ => rfl
  | ⟨1, _⟩ => rfl
  | ⟨2, _⟩ => rfl
  | ⟨3, _⟩ => rfl

/-- Element (b, n, p, c) of the camera gather is the camera array's element at the four start indices of (b, n, p), each
    read signed and clamped into its axis, and channel c. -/
theorem cam_apply {α : Type} (x : S2x4x256x64x176.Idx → α) (idx : IVec S2x900x8x4 32) (b : Fin 2) (n : Fin 900) (p : Fin 8)
    (c : Fin 256) :
    Host.gather gCam x idx (ix4 b n p c)
      = x (ix5 ⟨min (idx (ix4 b n p 0)).toInt.toNat 1, by omega⟩ ⟨min (idx (ix4 b n p 1)).toInt.toNat 3, by omega⟩ c
            ⟨min (idx (ix4 b n p 2)).toInt.toNat 63, by omega⟩ ⟨min (idx (ix4 b n p 3)).toInt.toNat 175, by omega⟩) := by
  -- axis by axis: the four collapsed axes carry their clamped starts (components 0, 1, 2, 3 in the map's order), the
  -- channel axis is the one kept axis and carries the result's offset coordinate
  unfold Host.gather; congr 1; funext a; apply Fin.ext
  fin_cases a <;>
    simp [GatherDims.operandIdx, GatherDims.start, GatherDims.offCoord, GatherDims.batchCoord, gCam,
      GatherDims.sKept, Shape.kept, GatherDims.siCoord, GatherDims.siKept, GatherDims.batchDims]
  · exact congrArg (fun i => min (idx i).toInt.toNat 1) (cam_siIdx b n p c _)
  · exact congrArg (fun i => min (idx i).toInt.toNat 3) (cam_siIdx b n p c _)
  · rfl
  · exact congrArg (fun i => min (idx i).toInt.toNat 63) (cam_siIdx b n p c _)
  · exact congrArg (fun i => min (idx i).toInt.toNat 175) (cam_siIdx b n p c _)

end Cert.Sampler

end
-- ==== Proof.IntFacts.lean ====
/-
  The sampler's integer chain on in-range inputs: every index it computes lies in the axis it indexes, and the word
  arithmetic of the row number does not wrap.
-/
import proofs.«424974_j60189671686814_2_alg».proof.Proof.Spec
import proofs.«424974_j60189671686814_2_alg».proof.Proof.Gathers
import Idealize.ShloMosaic.Lib.StableHlo.Predicate
import Idealize.ShloMosaic.Lib.Pipeline.Value

noncomputable section

namespace Cert.Sampler

open Idealize.ShloMosaic Idealize.ShloMosaic.ValueIdx

variable {a3 a4 : IVec S2x900x3 32} {a5 : IVec S2x900x8 32}

namespace IntAux

/-! ## Words: signed division and remainder of a non-negative word by a positive one -/

theorem msb_false_of_lt {x : BitVec 32} (hx : x.toNat < 2 ^ 31) : x.msb = false :=
  BitVec.msb_eq_false_iff_two_mul_lt.mpr (by omega)

/-- A positive divisor below 2³¹ is neither zero nor -1: the signed division has no corner. -/
theorem not_corner {x k : BitVec 32} (hk0 : 0 < k.toNat) (hk : k.toNat < 2 ^ 31) : ¬ IntOp.SDivCorner x k := by
  rintro (hc | ⟨_, hc⟩)
  · rw [hc] at hk0; simp at hk0
  · rw [hc] at hk; revert hk; decide

/-- Both operands non-negative: the signed quotient is the quotient of the values. -/
theorem divsi_toNat (u : ArithUnit) {x k : BitVec 32} (hx : x.toNat < 2 ^ 31) (hk0 : 0 < k.toNat) (hk : k.toNat < 2 ^ 31) :
    (IntOp.divsi u x k).toNat = x.toNat / k.toNat := by
  simp only [IntOp.divsi, if_neg (not_corner hk0 hk), BitVec.sdiv_eq, msb_false_of_lt hx, msb_false_of_lt hk,
    BitVec.udiv_eq, BitVec.toNat_udiv]

/-- Both operands non-negative: the signed remainder is the remainder of the values. -/
theorem remsi_toNat (u : ArithUnit) {x k : BitVec 32} (hx : x.toNat < 2 ^ 31) (hk0 : 0 < k.toNat) (hk : k.toNat < 2 ^ 31) :
    (IntOp.remsi u x k).toNat = x.toNat % k.toNat := by
  simp only [IntOp.remsi, if_neg (not_corner hk0 hk), BitVec.srem_eq, msb_false_of_lt hx, msb_false_of_lt hk,
    BitVec.umod_eq, BitVec.toNat_umod]

/-- The sign word of a word: 0, -1 or 1. -/
def sgnW (x : BitVec 32) : BitVec 32 := if x = 0 then 0 else if x.msb then -1 else 1

theorem sgnW_pos {x : BitVec 32} (hx : x.toNat < 2 ^ 31) (h0 : x ≠ 0) : sgnW x = 1#32 := by
  unfold sgnW; rw [if_neg h0, msb_false_of_lt hx]; rfl

theorem ne_zero_of_pos {k : BitVec 32} (hk0 : 0 < k.toNat) : k ≠ 0 := by rintro rfl; simp at hk0

/-- A word below 2³¹ is not below zero read signed. -/
theorem slt_zero_eq {r : BitVec 32} (hr : r.toNat < 2 ^ 31) : IntOp.cmpi .slt r 0#32 = 0#1 :=
  eq_zero_of_ne_one fun h => by
    have := (StableHlo.Predicate.slt_iff_toNat hr (show (0#32 : BitVec 32).toNat < 2 ^ 31 by decide)).1 h
    simp at this

/-! ## Floor division and remainder by a scalar word, at an element -/

/-- Floor division by a scalar word at an element, as words. -/
theorem floorDivV_eq (k : BitVec 32) (x : IVec S2x900x8 32) (i : S2x900x8.Idx) :
    floorDivV k x i = Scalar.select
      (IntOp.andi (IntOp.cmpi .ne (sgnW (x i)) (sgnW k)) (IntOp.cmpi .ne (IntOp.remsi .host (x i) k) 0#32))
      (IntOp.subi (IntOp.divsi .host (x i) k) 1#32) (IntOp.divsi .host (x i) k) := rfl

/-- The floor-division correction never fires on a non-negative dividend and a positive divisor: a zero dividend has
    remainder zero, any other has the divisor's sign. -/
theorem floorDiv_cond (u : ArithUnit) {x k : BitVec 32} (hx : x.toNat < 2 ^ 31) (hk0 : 0 < k.toNat) (hk : k.toNat < 2 ^ 31) :
    IntOp.andi (IntOp.cmpi .ne (sgnW x) (sgnW k)) (IntOp.cmpi .ne (IntOp.remsi u x k) 0#32) = 0#1 := by
  by_cases hx0 : x = 0
  · have hr : IntOp.remsi u x k = 0#32 := by
      apply BitVec.eq_of_toNat_eq; rw [remsi_toNat u hx hk0 hk, hx0]; simp
    rw [hr]; simp [IntOp.andi, IntOp.cmpi]
  · rw [sgnW_pos hx hx0, sgnW_pos hk (ne_zero_of_pos hk0)]; simp [IntOp.andi, IntOp.cmpi]

/-- Floor division of a non-negative word by a positive scalar word is the quotient of the values. -/
theorem floorDivV_toNat (k : BitVec 32) (hk0 : 0 < k.toNat) (hk : k.toNat < 2 ^ 31) (x : IVec S2x900x8 32) (i : S2x900x8.Idx)
    (hx : (x i).toNat < 2 ^ 31) : (floorDivV k x i).toNat = (x i).toNat / k.toNat := by
  rw [floorDivV_eq, floorDiv_cond .host hx hk0 hk, select_zero]
  exact divsi_toNat .host hx hk0 hk

/-- The divisor of the remainder is the scalar word itself when it is not zero. -/
theorem divisor_eq {k : BitVec 32} (hk0 : 0 < k.toNat) : Scalar.select (IntOp.cmpi CmpIPredicate.eq k 0#32) (1#32) k = k := by
  have h : IntOp.cmpi CmpIPredicate.eq k 0#32 = 0#1 :=
    eq_zero_of_ne_one fun h => ne_zero_of_pos hk0 (StableHlo.Predicate.cmpi_eq_iff.1 h)
  rw [h, select_zero]

/-- The remainder by a scalar word at an element, as words. -/
theorem remV_eq (k : BitVec 32) (x : IVec S2x900x8 32) (i : S2x900x8.Idx) :
    remV k x i =
      Scalar.select
        (IntOp.andi
          (IntOp.cmpi .ne
            (IntOp.cmpi .slt (IntOp.remsi .host (x i) (Scalar.select (IntOp.cmpi .eq k 0#32) (1#32) k)) 0#32)
            (IntOp.cmpi .slt (Scalar.select (IntOp.cmpi .eq k 0#32) (1#32) k) 0#32))
          (IntOp.cmpi .ne (IntOp.remsi .host (x i) (Scalar.select (IntOp.cmpi .eq k 0#32) (1#32) k)) 0#32))
        (IntOp.addi (IntOp.remsi .host (x i) (Scalar.select (IntOp.cmpi .eq k 0#32) (1#32) k))
          (Scalar.select (IntOp.cmpi .eq k 0#32) (1#32) k))
        (IntOp.remsi .host (x i) (Scalar.select (IntOp.cmpi .eq k 0#32) (1#32) k)) := rfl

/-- The remainder's correction never fires on a non-negative dividend and a positive divisor: neither the remainder nor
    the divisor is negative. -/
theorem rem_cond (u : ArithUnit) {x k : BitVec 32} (hx : x.toNat < 2 ^ 31) (hk0 : 0 < k.toNat) (hk : k.toNat < 2 ^ 31) :
    IntOp.andi
        (IntOp.cmpi .ne (IntOp.cmpi .slt (IntOp.remsi u x k) 0#32) (IntOp.cmpi .slt k 0#32))
        (IntOp.cmpi .ne (IntOp.remsi u x k) 0#32) = 0#1 := by
  have hr : (IntOp.remsi u x k).toNat < 2 ^ 31 := by
    rw [remsi_toNat u hx hk0 hk]; exact lt_trans (Nat.mod_lt _ hk0) hk
  rw [slt_zero_eq hr, slt_zero_eq hk]; simp [IntOp.andi, IntOp.cmpi]

/-- The remainder of a non-negative word by a positive scalar word is the remainder of the values. -/
theorem remV_toNat (k : BitVec 32) (hk0 : 0 < k.toNat) (hk : k.toNat < 2 ^ 31) (x : IVec S2x900x8 32) (i : S2x900x8.Idx)
    (hx : (x i).toNat < 2 ^ 31) : (remV k x i).toNat = (x i).toNat % k.toNat := by
  rw [remV_eq, divisor_eq hk0, rem_cond .host hx hk0 hk, select_zero]
  exact remsi_toNat .host hx hk0 hk

/-! ## The decoded coordinates s, h, w of a point number below 3·3·64·176 -/

theorem sV_toNat (hp : ∀ i, (a5 i).toNat < 101376) (i : S2x900x8.Idx) : (sV a5 i).toNat = (a5 i).toNat / 33792 := by
  have := hp i
  exact floorDivV_toNat 33792#32 (by decide) (by decide) a5 i (by omega)

theorem remHW_toNat (hp : ∀ i, (a5 i).toNat < 101376) (i : S2x900x8.Idx) : (remHW a5 i).toNat = (a5 i).toNat % 11264 := by
  have := hp i
  exact remV_toNat 11264#32 (by decide) (by decide) a5 i (by omega)

theorem hV_toNat (hp : ∀ i, (a5 i).toNat < 101376) (i : S2x900x8.Idx) :
    (hV a5 i).toNat = (a5 i).toNat % 11264 / 176 := by
  have h := remHW_toNat hp i
  have e := floorDivV_toNat 176#32 (by decide) (by decide) (remHW a5) i (by omega)
  rw [h] at e; exact e

theorem wV_toNat (hp : ∀ i, (a5 i).toNat < 101376) (i : S2x900x8.Idx) :
    (wV a5 i).toNat = (a5 i).toNat % 11264 % 176 := by
  have h := remHW_toNat hp i
  have e := remV_toNat 176#32 (by decide) (by decide) (remHW a5) i (by omega)
  rw [h] at e; exact e

end IntAux

open IntAux

/-- h = (p mod 11264) div 176 is a row of the 64. -/
theorem h_lt (hp : ∀ i, (a5 i).toNat < 101376) (i : S2x900x8.Idx) : (hV a5 i).toNat < 64 := by
  rw [hV_toNat hp i]; omega

/-- w = (p mod 11264) mod 176 is a column of the 176. -/
theorem w_lt (hp : ∀ i, (a5 i).toNat < 101376) (i : S2x900x8.Idx) : (wV a5 i).toNat < 176 := by
  rw [wV_toNat hp i]; omega

namespace IntAux

/-! ## The table read: an index already in [0, 2] reads its own entry -/

/-- The index wrapped once where negative. -/
def wrap3 (x : IVec S2x900x8 32) : IVec S2x900x8 32 :=
  select (cmpi .slt x (broadcastInDim S2x900x8 ![] bc_s_388 (constantI S_ 32 0#32)))
    (addi x (broadcastInDim S2x900x8 ![] bc_s_388 (constantI S_ 32 3#32))) x

/-- The wrapped index as a column of start indices. -/
def takeIdx (x : IVec S2x900x8 32) : IVec S2x900x8x1 32 := shapeCast S2x900x8x1 (wrap3 x) sc_388_3881

/-- Where the start index lies in [0, 2]. -/
def takeMask (x : IVec S2x900x8 32) : IVec S2x900x8x1 1 :=
  andi (cmpi .sge (takeIdx x) (broadcastInDim S2x900x8x1 ![] bc_s_3881 (constantI S_ 32 0#32)))
    (cmpi .sle (takeIdx x)
      (broadcastInDim S2x900x8x1 ![0, 1, 2, 3] bc_1111_3881 (broadcastInDim S1x1x1x1 ![3] bc_1_1111 (constantI S1 32 2#32))))

theorem takeV_eq (tb : IVec S2x900x3 32) (x : IVec S2x900x8 32) (j : S2x900x8.Idx) :
    takeV tb x j = Scalar.select (Host.reduce IntOp.andi (takeMask x) (constantI S_ 1 1#1) red_3881_388 pos_s j)
      (Host.gather gTake tb (takeIdx x) j) 2147483648#32 := rfl

/-- A non-negative index is not wrapped, and the column reads it at every coordinate of the unit axis. -/
theorem takeIdx_apply (x : IVec S2x900x8 32) (b : Fin 2) (n : Fin 900) (p : Fin 8) (q : Fin 1)
    (hx : (x (ix3 b n p)).toNat < 2 ^ 31) : takeIdx x (ix4 b n p q) = x (ix3 b n p) := by
  have e : takeIdx x (ix4 b n p q) = wrap3 x (ix3 b n p) :=
    shapeCast_apply (wrap3 x) sc_388_3881 (ix4 b n p q) (ix3 b n p) (by
      rw [Shape.rowMajor_val_three, Shape.rowMajor_val_four]
      show (b.val * 900 + n.val) * 8 + p.val = ((b.val * 900 + n.val) * 8 + p.val) * 1 + q.val
      omega)
  have w : wrap3 x (ix3 b n p)
      = Scalar.select (IntOp.cmpi .slt (x (ix3 b n p)) 0#32) (IntOp.addi (x (ix3 b n p)) 3#32) (x (ix3 b n p)) := rfl
  rw [e, w, slt_zero_eq hx, select_zero]

/-- An index in [0, 2] passes the range test. -/
theorem takeMask_apply (x : IVec S2x900x8 32) (hx : ∀ j, (x j).toNat ≤ 2) (i : S2x900x8x1.Idx) : takeMask x i = 1#1 := by
  obtain ⟨b, n, p, q, rfl⟩ : ∃ (b : Fin 2) (n : Fin 900) (p : Fin 8) (q : Fin 1), i = ix4 b n p q :=
    ⟨i 0, i 1, i 2, i 3, eq_ix4 i⟩
  have hb := hx (ix3 b n p)
  have e : takeMask x (ix4 b n p q)
      = IntOp.andi (IntOp.cmpi .sge (takeIdx x (ix4 b n p q)) 0#32) (IntOp.cmpi .sle (takeIdx x (ix4 b n p q)) 2#32) := rfl
  have h1 : IntOp.cmpi .sge (x (ix3 b n p)) 0#32 = 1#1 :=
    (StableHlo.Predicate.sge_iff_toNat (by omega) (by decide)).2 (by simp)
  have h2 : IntOp.cmpi .sle (x (ix3 b n p)) 2#32 = 1#1 :=
    (StableHlo.Predicate.sle_iff_toNat (by omega) (by decide)).2 (by simpa using hb)
  rw [e, takeIdx_apply x b n p q (by omega), h1, h2]
  rfl

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1) (1#1) = 1#1 from by decide]
    exact foldl_andi_one f hf l

/-- The reduction of the range test over the unit axis is 1 where every index is in [0, 2]. -/
theorem takeOk (x : IVec S2x900x8 32) (hx : ∀ j, (x j).toNat ≤ 2) (j : S2x900x8.Idx) :
    Host.reduce IntOp.andi (takeMask x) (constantI S_ 1 1#1) red_3881_388 pos_s j = 1#1 := by
  rw [Host.reduce_eq_foldl]
  exact foldl_andi_one (takeMask x) (takeMask_apply x hx) _

/-- The table read at (b, n, p) with every index in [0, 2]: the table's entry (b, n, index). -/
theorem takeV_apply (tb : IVec S2x900x3 32) (x : IVec S2x900x8 32) (hx : ∀ j, (x j).toNat ≤ 2) (b : Fin 2) (n : Fin 900)
    (p : Fin 8) :
    takeV tb x (ix3 b n p) = tb (ix3 b n ⟨(x (ix3 b n p)).toNat, Nat.lt_succ_of_le (hx (ix3 b n p))⟩) := by
  have hb := hx (ix3 b n p)
  have e := takeIdx_apply x b n p 0 (by omega)
  rw [takeV_eq, takeOk x hx, select_one, take_apply]
  refine congrArg tb (congrArg (ix3 b n) (Fin.ext ?_))
  show min (takeIdx x (ix4 b n p 0)).toInt.toNat 2 = (x (ix3 b n p)).toNat
  rw [e, StableHlo.Predicate.toInt_eq_toNat_of_lt (by omega), Int.toNat_natCast]
  omega

/-! ## The sampled frame -/

theorem sV_le (hp : ∀ i, (a5 i).toNat < 101376) (j : S2x900x8.Idx) : (sV a5 j).toNat ≤ 2 := by
  rw [sV_toNat hp j]; have := hp j; omega

theorem spV_le (hr : InRange a3 a4 a5) (j : S2x900x8.Idx) : (spV a4 a5 j).toNat ≤ 2 := by
  obtain ⟨b, n, p, rfl⟩ : ∃ (b : Fin 2) (n : Fin 900) (p : Fin 8), j = ix3 b n p := ⟨j 0, j 1, j 2, eq_ix3 j⟩
  unfold spV
  rw [takeV_apply a4 (sV a5) (sV_le hr.p) b n p]
  exact Nat.le_of_lt_succ (hr.s _)

end IntAux

/-- frame = temporal[b, n, spatial[b, n, p div 33792]] is a frame of the four. -/
theorem frame_lt (hr : InRange a3 a4 a5) (i : S2x900x8.Idx) : (frameV a3 a4 a5 i).toNat < 4 := by
  obtain ⟨b, n, p, rfl⟩ : ∃ (b : Fin 2) (n : Fin 900) (p : Fin 8), i = ix3 b n p := ⟨i 0, i 1, i 2, eq_ix3 i⟩
  unfold frameV
  rw [takeV_apply a3 (spV a4 a5) (spV_le hr) b n p]
  exact hr.t _

namespace IntAux

/-! ## The row number -/

/-- The batch grid reads the batch coordinate. -/
theorem bGrid_apply (b : Fin 2) (n : Fin 900) (p : Fin 8) : bGrid (ix3 b n p) = BitVec.ofNat 32 b.val := rfl

end IntAux

/-- The row number's word arithmetic does not wrap: it is ((b·4 + frame)·64 + h)·176 + w on the values. -/
theorem flat_toNat (hr : InRange a3 a4 a5) (b : Fin 2) (n : Fin 900) (p : Fin 8) :
    (flatV a3 a4 a5 (ix3 b n p)).toNat
      = ((b.val * 4 + (frameV a3 a4 a5 (ix3 b n p)).toNat) * 64 + (hV a5 (ix3 b n p)).toNat) * 176
          + (wV a5 (ix3 b n p)).toNat := by
  have hf := frame_lt hr (ix3 b n p)
  have hh := h_lt hr.p (ix3 b n p)
  have hw := w_lt hr.p (ix3 b n p)
  have hb := b.isLt
  have e : flatV a3 a4 a5 (ix3 b n p)
      = ((BitVec.ofNat 32 b.val * 4#32 + frameV a3 a4 a5 (ix3 b n p)) * 64#32 + hV a5 (ix3 b n p)) * 176#32
          + wV a5 (ix3 b n p) := rfl
  rw [e]
  simp only [BitVec.toNat_add, BitVec.toNat_mul, BitVec.toNat_ofNat]
  omega

namespace IntAux

/-! ## The four start indices -/

/-- A non-negative word is not wrapped. -/
theorem wrapV_apply (m : BitVec 32) (x : IVec S2x900x8 32) (j : S2x900x8.Idx) (hx : (x j).toNat < 2 ^ 31) :
    wrapV m x j = x j := by
  have e : wrapV m x j = Scalar.select (IntOp.cmpi .slt (x j) 0#32) (IntOp.addi (x j) m) (x j) := rfl
  rw [e, slt_zero_eq hx, select_zero]

/-- The wrapped batch number is the batch coordinate. -/
theorem bWrapped_apply (b : Fin 2) (n : Fin 900) (p : Fin 8) : bWrapped (ix3 b n p) = BitVec.ofNat 32 b.val := by
  have e : bWrapped (ix3 b n p)
      = Scalar.select (IntOp.cmpi .slt (BitVec.ofNat 32 b.val) 0#32) (IntOp.addi (BitVec.ofNat 32 b.val) 2#32)
          (BitVec.ofNat 32 b.val) := rfl
  have hb := b.isLt
  rw [e, slt_zero_eq (by simp only [BitVec.toNat_ofNat]; omega), select_zero]

/-- A column reads its array at the first three coordinates. -/
theorem col_apply (x : IVec S2x900x8 32) (b : Fin 2) (n : Fin 900) (p : Fin 8) (q : Fin 1) :
    col x (ix4 b n p q) = x (ix3 b n p) :=
  broadcastInDim_apply _ bc_388_3881 x (ix4 b n p q) (ix3 b n p) fun a =>
    match a with | ⟨0, _⟩ => rfl | ⟨1, _⟩ => rfl | ⟨2, _⟩ => rfl

/-- Four unit columns side by side: coordinate k of the last axis reads column k, the k columns before it each one wide. -/
theorem cat4_apply_0 (c0 c1 c2 c3 : IVec S2x900x8x1 32) (b : Fin 2) (n : Fin 900) (p : Fin 8) :
    concatenate S2x900x8x4 3 [⟨S2x900x8x1, c0⟩, ⟨S2x900x8x1, c1⟩, ⟨S2x900x8x1, c2⟩, ⟨S2x900x8x1, c3⟩] cat_idx (ix4 b n p 0)
      = c0 (ix4 b n p 0) := by
  refine concatenate_apply_piece (3 : Fin S2x900x8x4.rank)
    [⟨S2x900x8x1, c0⟩, ⟨S2x900x8x1, c1⟩, ⟨S2x900x8x1, c2⟩, ⟨S2x900x8x1, c3⟩] cat_idx (ix4 b n p 0) 0 (show 0 < 4 by decide)
    S2x900x8x1 c0 rfl rfl 0 ?_ (ix4 b n p 0) ?_ ?_
  · rfl
  · intro c hc
    match c with
    | ⟨0, _⟩ => rfl
    | ⟨1, _⟩ => rfl
    | ⟨2, _⟩ => rfl
    | ⟨3, _⟩ => exact absurd rfl hc
  · rfl
theorem cat4_apply_1 (c0 c1 c2 c3 : IVec S2x900x8x1 32) (b : Fin 2) (n : Fin 900) (p : Fin 8) :
    concatenate S2x900x8x4 3 [⟨S2x900x8x1, c0⟩, ⟨S2x900x8x1, c1⟩, ⟨S2x900x8x1, c2⟩, ⟨S2x900x8x1, c3⟩] cat_idx (ix4 b n p 1)
      = c1 (ix4 b n p 0) := by
  refine concatenate_apply_piece (3 : Fin S2x900x8x4.rank)
    [⟨S2x900x8x1, c0⟩, ⟨S2x900x8x1, c1⟩, ⟨S2x900x8x1, c2⟩, ⟨S2x900x8x1, c3⟩] cat_idx (ix4 b n p 1) 1 (show 1 < 4 by decide)
    S2x900x8x1 c1 rfl rfl 1 ?_ (ix4 b n p 0) ?_ ?_
  · rfl
  · intro c hc
    match c with
    | ⟨0, _⟩ => rfl
    | ⟨1, _⟩ => rfl
    | ⟨2, _⟩ => rfl
    | ⟨3, _⟩ => exact absurd rfl hc
  · rfl
theorem cat4_apply_2 (c0 c1 c2 c3 : IVec S2x900x8x1 32) (b : Fin 2) (n : Fin 900) (p : Fin 8) :
    concatenate S2x900x8x4 3 [⟨S2x900x8x1, c0⟩, ⟨S2x900x8x1, c1⟩, ⟨S2x900x8x1, c2⟩, ⟨S2x900x8x1, c3⟩] cat_idx (ix4 b n p 2)
      = c2 (ix4 b n p 0) := by
  refine concatenate_apply_piece (3 : Fin S2x900x8x4.rank)
    [⟨S2x900x8x1, c0⟩, ⟨S2x900x8x1, c1⟩, ⟨S2x900x8x1, c2⟩, ⟨S2x900x8x1, c3⟩] cat_idx (ix4 b n p 2) 2 (show 2 < 4 by decide)
    S2x900x8x1 c2 rfl rfl 2 ?_ (ix4 b n p 0) ?_ ?_
  · rfl
  · intro c hc
    match c with
    | ⟨0, _⟩ => rfl
    | ⟨1, _⟩ => rfl
    | ⟨2, _⟩ => rfl
    | ⟨3, _⟩ => exact absurd rfl hc
  · rfl
theorem cat4_apply_3 (c0 c1 c2 c3 : IVec S2x900x8x1 32) (b : Fin 2) (n : Fin 900) (p : Fin 8) :
    concatenate S2x900x8x4 3 [⟨S2x900x8x1, c0⟩, ⟨S2x900x8x1, c1⟩, ⟨S2x900x8x1, c2⟩, ⟨S2x900x8x1, c3⟩] cat_idx (ix4 b n p 3)
      = c3 (ix4 b n p 0) := by
  refine concatenate_apply_piece (3 : Fin S2x900x8x4.rank)
    [⟨S2x900x8x1, c0⟩, ⟨S2x900x8x1, c1⟩, ⟨S2x900x8x1, c2⟩, ⟨S2x900x8x1, c3⟩] cat_idx (ix4 b n p 3) 3 (show 3 < 4 by decide)
    S2x900x8x1 c3 rfl rfl 3 ?_ (ix4 b n p 0) ?_ ?_
  · rfl
  · intro c hc
    match c with
    | ⟨0, _⟩ => rfl
    | ⟨1, _⟩ => rfl
    | ⟨2, _⟩ => rfl
    | ⟨3, _⟩ => exact absurd rfl hc
  · rfl

end IntAux

/-- The four wrapped start indices at (b, n, p), read signed: b, frame, h, w themselves (none is negative). -/
theorem idxVec_0 (b : Fin 2) (n : Fin 900) (p : Fin 8) :
    (idxVec a3 a4 a5 (ix4 b n p 0)).toInt.toNat = b.val := by
  have hb := b.isLt
  rw [show idxVec a3 a4 a5 (ix4 b n p 0) = col bWrapped (ix4 b n p 0) from cat4_apply_0 _ _ _ _ b n p, col_apply, bWrapped_apply,
    StableHlo.Predicate.toInt_ofNat_small b.val (by omega), Int.toNat_natCast]
theorem idxVec_1 (hr : InRange a3 a4 a5) (b : Fin 2) (n : Fin 900) (p : Fin 8) :
    (idxVec a3 a4 a5 (ix4 b n p 1)).toInt.toNat = (frameV a3 a4 a5 (ix3 b n p)).toNat := by
  have hf := frame_lt hr (ix3 b n p)
  rw [show idxVec a3 a4 a5 (ix4 b n p 1) = col (wrapV 4#32 (frameV a3 a4 a5)) (ix4 b n p 0) from cat4_apply_1 _ _ _ _ b n p, col_apply, wrapV_apply _ _ _ (by omega),
    StableHlo.Predicate.toInt_eq_toNat_of_lt (by omega), Int.toNat_natCast]
theorem idxVec_2 (hr : InRange a3 a4 a5) (b : Fin 2) (n : Fin 900) (p : Fin 8) :
    (idxVec a3 a4 a5 (ix4 b n p 2)).toInt.toNat = (hV a5 (ix3 b n p)).toNat := by
  have hh := h_lt hr.p (ix3 b n p)
  rw [show idxVec a3 a4 a5 (ix4 b n p 2) = col (wrapV 64#32 (hV a5)) (ix4 b n p 0) from cat4_apply_2 _ _ _ _ b n p, col_apply, wrapV_apply _ _ _ (by omega),
    StableHlo.Predicate.toInt_eq_toNat_of_lt (by omega), Int.toNat_natCast]
theorem idxVec_3 (hr : InRange a3 a4 a5) (b : Fin 2) (n : Fin 900) (p : Fin 8) :
    (idxVec a3 a4 a5 (ix4 b n p 3)).toInt.toNat = (wV a5 (ix3 b n p)).toNat := by
  have hw := w_lt hr.p (ix3 b n p)
  rw [show idxVec a3 a4 a5 (ix4 b n p 3) = col (wrapV 176#32 (wV a5)) (ix4 b n p 0) from cat4_apply_3 _ _ _ _ b n p, col_apply, wrapV_apply _ _ _ (by omega),
    StableHlo.Predicate.toInt_eq_toNat_of_lt (by omega), Int.toNat_natCast]

end Cert.Sampler

end
-- ==== Proof.PreDecode.lean ====
/-
  The precondition read: every float input finite says nothing the sampler uses; the six integer comparisons say the
  three index inputs are in range.
-/
import proofs.«424974_j60189671686814_2_alg».proof.Proof.Spec
import proofs.«424974_j60189671686814_2_alg».proof.Pre_finite_inputs
import proofs.«424974_j60189671686814_2_alg».proof.Proof.Gen.Pre_finite_inputs
import Idealize.ShloMosaic.Lib.ReduceAll
import Idealize.ShloMosaic.Lib.StableHlo.Predicate

noncomputable section

namespace Cert.Sampler

open Idealize.ShloMosaic Idealize.ShloMosaic.ValueIdx

namespace PreAux

/-- The scalar shape has one index. -/
instance subsingleton_scalarIdx : Subsingleton S_.Idx := ⟨fun a b => funext fun d => d.elim0⟩

/-- A word that is at least 0 and below k, both read signed, with k below 2³¹, is below k read unsigned: its top bit is
    clear by the first comparison, so both sides of the second read as their values. -/
theorem toNat_lt_of_sge_slt (w k : BitVec 32) (hk : k.toNat < 2 ^ 31) (h0 : IntOp.cmpi .sge w 0#32 = 1#1)
    (h1 : IntOp.cmpi .slt w k = 1#1) : w.toNat < k.toNat := by
  have hw : w.toNat < 2 ^ 31 := by
    by_contra hc
    have hm : w.msb = true := by
      rw [BitVec.msb_eq_decide]; simp only [decide_eq_true_eq]; omega
    have hz : (0#32 : BitVec 32).toInt = 0 := by decide
    have hlt := w.isLt
    simp only [IntOp.cmpi, StableHlo.Predicate.ofBool_eq_one_iff, BitVec.sle, hz, BitVec.toInt_eq_msb_cond, hm, if_true,
      decide_eq_true_eq] at h0
    omega
  exact (StableHlo.Predicate.slt_iff_toNat hw hk).1 h1

end PreAux

open PreAux

/-- The printed precondition holding everywhere puts the three integer inputs in range. -/
theorem inRange_of_pre {F : FTy → Type} [FloatOps F] (a0 a1 : FVec F S2x4x256x64x176 .f32) (a2 : FVec F S2x900x3 .f32)
    (a3 a4 : IVec S2x900x3 32) (a5 : IVec S2x900x8 32)
    (h : Cert.Pre_finite_inputs.fn (F := F) a0 a1 a2 a3 a4 a5 = fun _ => 1#1) : InRange a3 a4 a5 := by
  have e := congrFun h ValueIdx.ix0
  unfold Cert.Pre_finite_inputs.fn Cert.Pre_finite_inputs.fn_part1 Cert.Pre_finite_inputs.fn_part2 at e
  dsimp only at e
  simp only [andi, IntOp.andi_eq_one] at e
  obtain ⟨⟨⟨⟨⟨⟨-, h30⟩, h34⟩, h40⟩, h43⟩, h50⟩, h5k⟩ := e
  refine ⟨fun i => ?_, fun i => ?_, fun i => ?_⟩
  · have g0 := Host.reduce_andi_all _ _ _ _ _ h30 i
    have g1 := Host.reduce_andi_all _ _ _ _ _ h34 i
    exact toNat_lt_of_sge_slt (a3 i) 4#32 (by decide) g0 g1
  · have g0 := Host.reduce_andi_all _ _ _ _ _ h40 i
    have g1 := Host.reduce_andi_all _ _ _ _ _ h43 i
    exact toNat_lt_of_sge_slt (a4 i) 3#32 (by decide) g0 g1
  · have g0 := Host.reduce_andi_all _ _ _ _ _ h50 i
    have g1 := Host.reduce_andi_all _ _ _ _ _ h5k i
    exact toNat_lt_of_sge_slt (a5 i) 101376#32 (by decide) g0 g1

end Cert.Sampler

end
-- ==== Proof.KHostBits.lean ====
/-
  The gather kernel's operands as the region finds them, as functions of the argument arrays: the table of row numbers
  and the two re-laid camera arrays.  On in-range index inputs every row number names a row of the re-laid arrays, which
  is what the region asks of the table it is handed.
-/
import proofs.«424974_j60189671686814_2_alg».proof.Defs
import proofs.«424974_j60189671686814_2_alg».proof.Proof.Gen.Kernel.Frame
import proofs.«424974_j60189671686814_2_alg».proof.Proof.Spec
import proofs.«424974_j60189671686814_2_alg».proof.Proof.IntFacts
import proofs.«424974_j60189671686814_2_alg».proof.Proof.PreDecode

set_option maxRecDepth 16384

noncomputable section

namespace Cert.Kernel.HostVals

open Cert.Kernel Cert.Kernel.Gen
open Idealize.ShloMosaic Idealize.ShloMosaic.TcCoe Idealize.SL.Sem Idealize.ShloMosaic.ValueIdx
open Cert.Sampler (flatTbl camRows InRange)

variable {F : FTy → Type} [FloatOps F] (m : (ℓ : Loc nD τ sig) → Buf (Elt F) ℓ)

/-! ## The host lines before the region, stretch by stretch

Each stretch of lines is read over an arbitrary valuation `W`: what it leaves at its result, as one of the sampler's
functions of what `W` holds at the stretch's operands, and that it leaves alone the values later stretches still read. -/

section Stretches

open Idealize.ShloMosaic.StableHlo (after)
open Cert.Sampler (S2x900x8 S2x900x3 S14400 sV remHW floorDivV remV takeV bGrid splat sc_388_14400)

variable (W : Valuation τ sig (Elt F))

/-- Unrolls a stretch's lines at a reference and reads each line's result. -/
local macro "host_lines" : tactic =>
  `(tactic| (simp only [hostOps0, hostOps0_1, hostOps0_2, hostOps0_3, hostOps0_4, hostOps0_5, hostOps0_6, hostOps0_7,
               hostOps0_8, hostOps0_9, hostOps0_10]
             after_results_simp))

/-- s = p div (3·64·176): the divisor's constant and the floor division's lines. -/
theorem s_line :
    (after hostOps0_1 (after hostOps0 W) (Proc.devRef .tc main_v0) : IVec S2x900x8 32)
      = sV (W (Proc.devRef .tc main_arg5)) := by
  host_lines; rfl

theorem s_keeps (r : Ref sig .tc) (hr : r = main_arg3 ∨ r = main_arg4 ∨ r = main_arg5) :
    after hostOps0_1 (after hostOps0 W) (Proc.devRef .tc r) = W (Proc.devRef .tc r) := by
  rcases hr with rfl | rfl | rfl <;> host_lines

/-- p mod (64·176): the modulus' constant and the remainder's lines. -/
theorem rem_line :
    (after hostOps0_3 (after hostOps0_2 W) (Proc.devRef .tc main_v1) : IVec S2x900x8 32)
      = remHW (W (Proc.devRef .tc main_arg5)) := by
  host_lines; rfl

theorem rem_keeps (r : Ref sig .tc) (hr : r = main_arg3 ∨ r = main_arg4 ∨ r = main_v0) :
    after hostOps0_3 (after hostOps0_2 W) (Proc.devRef .tc r) = W (Proc.devRef .tc r) := by
  rcases hr with rfl | rfl | rfl <;> host_lines

/-- h: the floor division of the remainder by 176. -/
theorem h_line :
    (after hostOps0_5 (after hostOps0_4 W) (Proc.devRef .tc main_v2) : IVec S2x900x8 32)
      = floorDivV 176#32 (W (Proc.devRef .tc main_v1)) := by
  host_lines; rfl

theorem h_keeps (r : Ref sig .tc) (hr : r = main_arg3 ∨ r = main_arg4 ∨ r = main_v0 ∨ r = main_v1) :
    after hostOps0_5 (after hostOps0_4 W) (Proc.devRef .tc r) = W (Proc.devRef .tc r) := by
  rcases hr with rfl | rfl | rfl | rfl <;> host_lines

/-- w: the remainder of the remainder by 176. -/
theorem w_line :
    (after hostOps0_7 (after hostOps0_6 W) (Proc.devRef .tc main_v3) : IVec S2x900x8 32)
      = remV 176#32 (W (Proc.devRef .tc main_v1)) := by
  host_lines; rfl

theorem w_keeps (r : Ref sig .tc) (hr : r = main_arg3 ∨ r = main_arg4 ∨ r = main_v0 ∨ r = main_v2) :
    after hostOps0_7 (after hostOps0_6 W) (Proc.devRef .tc r) = W (Proc.devRef .tc r) := by
  rcases hr with rfl | rfl | rfl | rfl <;> host_lines

attribute [local irreducible] Host.reduce Host.gather in
/-- spatial[b, n, s]: the first table look-up's lines. -/
theorem sp_line :
    (after hostOps0_8 W (Proc.devRef .tc main_v4) : IVec S2x900x8 32)
      = takeV (W (Proc.devRef .tc main_arg4)) (W (Proc.devRef .tc main_v0)) := by
  host_lines; rfl

theorem sp_keeps (r : Ref sig .tc) (hr : r = main_arg3 ∨ r = main_v2 ∨ r = main_v3) :
    after hostOps0_8 W (Proc.devRef .tc r) = W (Proc.devRef .tc r) := by
  rcases hr with rfl | rfl | rfl <;> host_lines

attribute [local irreducible] Host.reduce Host.gather in
/-- frame = temporal[b, n, spatial[b, n, s]]: the second table look-up's lines. -/
theorem frame_line :
    (after hostOps0_9 W (Proc.devRef .tc main_v5) : IVec S2x900x8 32)
      = takeV (W (Proc.devRef .tc main_arg3)) (W (Proc.devRef .tc main_v4)) := by
  host_lines; rfl

theorem frame_keeps (r : Ref sig .tc) (hr : r = main_v2 ∨ r = main_v3) :
    after hostOps0_9 W (Proc.devRef .tc r) = W (Proc.devRef .tc r) := by
  rcases hr with rfl | rfl <;> host_lines

/-- The row number ((b·4 + frame)·64 + h)·176 + w of the last lines, as a table of 14400 words. -/
theorem tbl_line :
    (after hostOps0_10 W (Proc.devRef .tc main_v22) : IVec S14400 32)
      = shapeCast S14400
          (addi (muli (addi (muli (addi (muli bGrid (splat 4#32)) (W (Proc.devRef .tc main_v5))) (splat 64#32))
            (W (Proc.devRef .tc main_v2))) (splat 176#32)) (W (Proc.devRef .tc main_v3))) sc_388_14400 := by
  host_lines; rfl

end Stretches

/-- The table the region is handed is the table of row numbers of the three index inputs. -/
theorem V_v22 (c : Dev nD) :
    (V m c main_v22 : IVec Cert.Sampler.S14400 32)
      = flatTbl (m ((c : Thread nD τ).loc main_arg3)) (m ((c : Thread nD τ).loc main_arg4)) (m ((c : Thread nD τ).loc main_arg5)) := by
  dsimp only [Gen.V, Gen.V0]
  simp only [List.flatten_cons, List.flatten_nil, List.append_nil, StableHlo.after_append]
  rw [tbl_line]
  rw [frame_line, frame_keeps _ main_v2 (.inl rfl), frame_keeps _ main_v3 (.inr rfl)]
  rw [sp_line, sp_keeps _ main_arg3 (.inl rfl), sp_keeps _ main_v2 (.inr (.inl rfl)), sp_keeps _ main_v3 (.inr (.inr rfl))]
  rw [w_line, w_keeps _ main_arg3 (.inl rfl), w_keeps _ main_arg4 (.inr (.inl rfl)), w_keeps _ main_v0 (.inr (.inr (.inl rfl))),
    w_keeps _ main_v2 (.inr (.inr (.inr rfl)))]
  rw [h_line, h_keeps _ main_arg3 (.inl rfl), h_keeps _ main_arg4 (.inr (.inl rfl)), h_keeps _ main_v0 (.inr (.inr (.inl rfl))),
    h_keeps _ main_v1 (.inr (.inr (.inr rfl)))]
  rw [rem_line, rem_keeps _ main_arg3 (.inl rfl), rem_keeps _ main_arg4 (.inr (.inl rfl)), rem_keeps _ main_v0 (.inr (.inr rfl))]
  rw [s_line, s_keeps _ main_arg3 (.inl rfl), s_keeps _ main_arg4 (.inr (.inl rfl)), s_keeps _ main_arg5 (.inr (.inr rfl))]
  rfl

/-- Window 0's array is the first camera re-laid. -/
theorem V_v7 (c : Dev nD) :
    (V m c main_v7 : Cert.Sampler.S90112x2x128.Idx → Elt F .f32) = camRows (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

/-- Window 1's array is the second camera re-laid. -/
theorem V_v9 (c : Dev nD) :
    (V m c main_v9 : Cert.Sampler.S90112x2x128.Idx → Elt F .f32) = camRows (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

end Cert.Kernel.HostVals

end
-- ==== Proof.Layout.lean ====
/-
  The re-layings of the sampler read at an element.
-/
import proofs.«424974_j60189671686814_2_alg».proof.Proof.Spec
import Idealize.ShloMosaic.Lib.Pipeline.Value

noncomputable section

namespace Cert.Sampler

open Idealize.ShloMosaic Idealize.ShloMosaic.ValueIdx

/-- Row ((b·4 + t)·64 + h)·176 + w of the re-laid camera array, half j, lane l, is cam[b, t, j·128 + l, h, w]. -/
theorem camRows_apply {α : Type} (a : S2x4x256x64x176.Idx → α) (b : Fin 2) (t : Fin 4) (h : Fin 64) (w : Fin 176)
    (j : Fin 2) (l : Fin 128) :
    camRows a (ix3 ⟨((b.val * 4 + t.val) * 64 + h.val) * 176 + w.val, by omega⟩ j l)
      = a (ix5 b t ⟨j.val * 128 + l.val, by omega⟩ h w) := by
  unfold camRows
  -- the cast keeps the row-major position: (row·2 + j)·128 + l = row·256 + (j·128 + l)
  refine (shapeCast_apply _ sc_cam _ (ix5 b t h w ⟨j.val * 128 + l.val, by omega⟩) ?_).trans ?_
  · rw [Shape.rowMajor_val_five, Shape.rowMajor_val_three]
    show ((((b.val * 4 + t.val) * 64 + h.val) * 176 + w.val) * 256 + (j.val * 128 + l.val))
      = ((((b.val * 4 + t.val) * 64 + h.val) * 176 + w.val) * 2 + j.val) * 128 + l.val
    omega
  -- the transpose moves the channel axis from last to third
  · exact transpose_apply _ a tr_cam _ _ fun k => by
      match k with
      | ⟨0, _⟩ => rfl
      | ⟨1, _⟩ => rfl
      | ⟨2, _⟩ => rfl
      | ⟨3, _⟩ => rfl
      | ⟨4, _⟩ => rfl

/-- Element (b, n, p, c) of the rows re-read as [2, 900, 8, 512] is row (b·900 + n)·8 + p, half c / 128, lane c % 128. -/
theorem rowsOut_apply {α : Type} (r : S14400x4x128.Idx → α) (b : Fin 2) (n : Fin 900) (p : Fin 8) (c : Fin 512) :
    rowsOut r (ix4 b n p c)
      = r (ix3 ⟨(b.val * 900 + n.val) * 8 + p.val, by omega⟩ ⟨c.val / 128, by omega⟩ ⟨c.val % 128, by omega⟩) := by
  unfold rowsOut
  -- both casts keep the row-major position ((b·900 + n)·8 + p)·512 + c
  refine (shapeCast_apply _ sc_out2 _ (ix2 ⟨(b.val * 900 + n.val) * 8 + p.val, by omega⟩ c) ?_).trans ?_
  · rw [Shape.rowMajor_val_two, Shape.rowMajor_val_four]
    show ((b.val * 900 + n.val) * 8 + p.val) * 512 + c.val = ((b.val * 900 + n.val) * 8 + p.val) * 512 + c.val
    rfl
  · refine shapeCast_apply _ sc_out1 _ _ ?_
    rw [Shape.rowMajor_val_three, Shape.rowMajor_val_two]
    show (((b.val * 900 + n.val) * 8 + p.val) * 4 + c.val / 128) * 128 + c.val % 128
      = ((b.val * 900 + n.val) * 8 + p.val) * 512 + c.val
    omega

/-- Entry (b·900 + n)·8 + p of the row-number table is the row number at (b, n, p). -/
theorem flatTbl_apply (a3 a4 : IVec S2x900x3 32) (a5 : IVec S2x900x8 32) (b : Fin 2) (n : Fin 900) (p : Fin 8) :
    flatTbl a3 a4 a5 (ix1 ⟨(b.val * 900 + n.val) * 8 + p.val, by omega⟩) = flatV a3 a4 a5 (ix3 b n p) := by
  unfold flatTbl
  refine shapeCast_apply _ sc_388_14400 _ _ ?_
  rw [Shape.rowMajor_val_three, Shape.rowMajor_val_one]
  rfl

/-- The side-by-side result at channel c: the first camera's gather below 256, the second's from 256 on. -/
theorem gatherOut_apply {α : Type} (a0 a1 : S2x4x256x64x176.Idx → α) (a3 a4 : IVec S2x900x3 32) (a5 : IVec S2x900x8 32)
    (b : Fin 2) (n : Fin 900) (p : Fin 8) (c : Fin 512) :
    gatherOut a0 a1 a3 a4 a5 (ix4 b n p c)
      = if h : c.val < 256 then Host.gather gCam a0 (idxVec a3 a4 a5) (ix4 b n p ⟨c.val, h⟩)
        else Host.gather gCam a1 (idxVec a3 a4 a5) (ix4 b n p ⟨c.val - 256, by omega⟩) := by
  unfold gatherOut
  split
  · next h =>
    -- the channel falls in the first piece, at the same coordinates
    exact concatenate_pair_apply_left 3 _ _ cat_out _ rfl (ix4 b n p ⟨c.val, h⟩) fun k => by
      match k with
      | ⟨0, _⟩ => rfl
      | ⟨1, _⟩ => rfl
      | ⟨2, _⟩ => rfl
      | ⟨3, _⟩ => rfl
  · next h =>
    -- the channel falls in the second piece, the first piece's 256 channels less
    refine concatenate_pair_apply_right 3 _ _ cat_out _ rfl rfl (ix4 b n p ⟨c.val - 256, by omega⟩) (fun k hk => ?_) ?_
    · match k with
      | ⟨0, _⟩ => rfl
      | ⟨1, _⟩ => rfl
      | ⟨2, _⟩ => rfl
      | ⟨3, _⟩ => exact absurd rfl hk
    · show c.val - 256 + 256 = c.val
      omega

end Cert.Sampler

end
-- ==== Proof.OkBits.lean ====
/-
  The region's side condition from the precondition: on in-range index inputs the row number
  ((b·4 + frame)·64 + h)·176 + w is below 2·4·64·176 = 90112, so every entry of the table names a row of the re-laid
  camera arrays.
-/
import proofs.«424974_j60189671686814_2_alg».proof.Defs
import proofs.«424974_j60189671686814_2_alg».proof.Proof.KIdxBits
import proofs.«424974_j60189671686814_2_alg».proof.Proof.KHostBits
import proofs.«424974_j60189671686814_2_alg».proof.Proof.Layout

set_option maxRecDepth 16384

noncomputable section

namespace Cert.Kernel.OkOfPre

open Cert.Kernel Cert.Kernel.Gen Cert.Kernel.KIdx Cert.Kernel.HostVals
open Idealize.ShloMosaic Idealize.ShloMosaic.TcCoe Idealize.SL.Sem Idealize.ShloMosaic.ValueIdx
open Cert.Sampler (flatTbl flatV InRange)

variable {F : FTy → Type} [FloatOps F] (m : (ℓ : Loc nD τ sig) → Buf (Elt F) ℓ)

/-- Entry i of the table on in-range inputs is below 90112. -/
theorem flat_lt {a3 a4 : IVec Cert.Sampler.S2x900x3 32} {a5 : IVec Cert.Sampler.S2x900x8 32} (hr : InRange a3 a4 a5) (i : Fin 14400) :
    (flatTbl a3 a4 a5 (ix1 i)).toNat < 90112 := by
  have hi := i.isLt
  have e : i = ⟨((i.val / 7200) * 900 + (i.val / 8 % 900)) * 8 + i.val % 8, by omega⟩ :=
    Fin.ext (by show i.val = ((i.val / 7200) * 900 + (i.val / 8 % 900)) * 8 + i.val % 8; omega)
  rw [e, Cert.Sampler.flatTbl_apply a3 a4 a5 ⟨i.val / 7200, by omega⟩ ⟨i.val / 8 % 900, by omega⟩ ⟨i.val % 8, by omega⟩,
    Cert.Sampler.flat_toNat hr]
  have hf := Cert.Sampler.frame_lt hr (ix3 (⟨i.val / 7200, by omega⟩ : Fin 2) (⟨i.val / 8 % 900, by omega⟩ : Fin 900) (⟨i.val % 8, by omega⟩ : Fin 8))
  have hh := Cert.Sampler.h_lt hr.p (ix3 (⟨i.val / 7200, by omega⟩ : Fin 2) (⟨i.val / 8 % 900, by omega⟩ : Fin 900) (⟨i.val % 8, by omega⟩ : Fin 8)) (a5 := a5)
  have hw := Cert.Sampler.w_lt hr.p (ix3 (⟨i.val / 7200, by omega⟩ : Fin 2) (⟨i.val / 8 % 900, by omega⟩ : Fin 900) (⟨i.val % 8, by omega⟩ : Fin 8)) (a5 := a5)
  show ((i.val / 7200 * 4 + _) * 64 + _) * 176 + _ < 90112
  omega

/-- The precondition as the claims state it of this program's argument arrays, at any float instance. -/
def PreAt : Prop :=
  ∀ c : Dev nD, Cert.Pre_finite_inputs.fn (F := F) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) = fun _ => 1#1

/-- The precondition puts the three index inputs of device c in range. -/
theorem inRange (h : PreAt m) (c : Dev nD) :
    InRange (m ((c : Thread nD τ).loc main_arg3)) (m ((c : Thread nD τ).loc main_arg4)) (m ((c : Thread nD τ).loc main_arg5)) :=
  Cert.Sampler.inRange_of_pre _ _ _ _ _ _ (h c)

/-- THE SIDE CONDITION: the table the region reads names rows only. -/
theorem ok_of_pre (h : PreAt m) : Ok m := by
  refine ok0_of_lt (tbl m) fun i => ?_
  show ((tbl m 0 : IVec S14400 32) (ix1 ⟨(i 0).val, i0_lt i⟩)).toNat < 90112
  have e : (tbl m 0 : IVec S14400 32) = flatTbl (m (((0 : Dev nD) : Thread nD τ).loc main_arg3)) (m (((0 : Dev nD) : Thread nD τ).loc main_arg4)) (m (((0 : Dev nD) : Thread nD τ).loc main_arg5)) :=
    V_v22 m 0
  rw [e]
  exact flat_lt (inRange m h 0) _

end Cert.Kernel.OkOfPre

end
-- ==== Proof.KIdxIdeal.lean ====
/-
  The gather kernel's grid and index maps: one grid axis of 14400 points; windows 0 and 1 read block (tb[i], 0, 0) of
  the re-laid camera arrays, tb the table of row numbers the region is handed, window 2 writes block (i, 0, 0) of the
  result.  What the region asks of the table is that every entry names a row.
-/
import proofs.«424974_j60189671686814_2_alg».proof.Proof.Gen.KernelIdeal.Launch
import Idealize.ShloMosaic.Lib.ValueIdx

set_option maxRecDepth 16384

noncomputable section

namespace Cert.KernelIdeal.KIdx

open Cert.KernelIdeal Cert.KernelIdeal.Gen
open Idealize.ShloMosaic Idealize.ShloMosaic.TcCoe Idealize.SL.Sem Idealize.ShloMosaic.ValueIdx

variable {F : FTy → Type} [FloatOps F]

/-! ## The grid and the index maps -/

theorem t_lt (t : Fin grid0.N) : t.val < 14400 := lt_of_lt_of_eq t.isLt N_0

/-- The grid has one axis: point t's coordinate is t. -/
theorem coords_val (t : Fin grid0.N) : ((grid0.coords t) 0).val = t.val := by
  show t.val / grid0.stride 0 % grid0.bound 0 = t.val
  have h1 : grid0.stride 0 = 1 := by decide
  have h2 : grid0.bound 0 = 14400 := rfl
  rw [h1, h2, Nat.div_one]
  exact Nat.mod_eq_of_lt (t_lt t)

theorem i0_lt (i : grid0.Coords) : (i 0).val < 14400 := (i 0).isLt

/-- The word of the table at grid coordinate i, for any contents of the table. -/
abbrev wordAt (pf : pre0.Contents (Elt F)) (i : grid0.Coords) : BitVec 32 := (pf 0 : IVec S14400 32) (ix1 ⟨(i 0).val, i0_lt i⟩)

/-- The unit rectangle the index maps read the table through, at its one index, is entry i of the table. -/
theorem word_idx (i : grid0.Coords) :
    (Rect.unit (s := S14400) ![(Scalar.indexCast (BitVec.ofNat 32 (i 0).val)).toNat] S1.size (k0_off1_inb i)).emb (Shape.Idx.first (numel1_S1.symm ▸ Nat.one_pos))
      = ix1 ⟨(i 0).val, i0_lt i⟩ := by
  funext a
  apply Fin.ext
  match a with
  | ⟨0, _⟩ =>
    show (Scalar.indexCast (BitVec.ofNat 32 (i 0).val)).toNat + 1 * (Shape.Idx.first (s := S1) (numel1_S1.symm ▸ Nat.one_pos) (0 : Fin 1)).val = (i 0).val
    have h0 : (Shape.Idx.first (s := S1) (numel1_S1.symm ▸ Nat.one_pos) (0 : Fin 1)).val = 0 := by
      have := (Shape.Idx.first (s := S1) (numel1_S1.symm ▸ Nat.one_pos) (0 : Fin 1)).isLt
      have e1 : S1.size (0 : Fin 1) = 1 := by decide
      omega
    have h1 : (Scalar.indexCast (BitVec.ofNat 32 (i 0).val)).toNat = (i 0).val := by
      show (BitVec.ofNat 32 (i 0).val).toNat = (i 0).val
      rw [BitVec.toNat_ofNat]
      have := i0_lt i
      omega
    rw [h0, h1]
    omega

/-- Windows 0 and 1 index their arrays by that word: block (word, 0, 0). -/
theorem transform0_eq (pf : pre0.Contents (Elt F)) (i : grid0.Coords) :
    cc0_transform_0 k0_off1_inb numel1_S1 pf i = ![(wordAt pf i).toNat, 0, 0] := by
  unfold cc0_transform_0
  dsimp only
  have e : pf.at 0 (Rect.unit (s := S14400) ![(Scalar.indexCast (BitVec.ofNat 32 (i 0).val)).toNat] S1.size (k0_off1_inb i)) numel1_S1 = wordAt pf i :=
    congrArg (pf 0) (word_idx i)
  rw [e]
  rfl

theorem transform1_eq (pf : pre0.Contents (Elt F)) (i : grid0.Coords) :
    cc0_transform_1 k0_off1_inb numel1_S1 pf i = ![(wordAt pf i).toNat, 0, 0] := by
  unfold cc0_transform_1
  dsimp only
  have e : pf.at 0 (Rect.unit (s := S14400) ![(Scalar.indexCast (BitVec.ofNat 32 (i 0).val)).toNat] S1.size (k0_off1_inb i)) numel1_S1 = wordAt pf i :=
    congrArg (pf 0) (word_idx i)
  rw [e]
  rfl

theorem transform2_eq (i : grid0.Coords) : cc0_transform_2 i = ![(i 0).val, 0, 0] := by
  unfold cc0_transform_2
  dsimp only
  have h1 : (BitVec.ofNat 32 (i 0).val).toNat = (i 0).val := by
    rw [BitVec.toNat_ofNat]
    have := i0_lt i
    omega
  rw [h1]
  rfl

/-- The side condition on the table: every word names a row of the re-laid camera arrays. -/
theorem ok0_of_lt (pf : pre0.Contents (Elt F)) (h : ∀ i : grid0.Coords, (wordAt pf i).toNat < 90112) : ok0 (F := F) pf := by
  refine ⟨fun i => ⟨fun a => ?_, Or.inl rfl⟩, fun i => ⟨fun a => ?_, Or.inl rfl⟩⟩
  · rw [transform0_eq]
    have := h i
    match a with
    | ⟨0, _⟩ => show ((wordAt pf i).toNat + 1) * 1 ≤ 90112; omega
    | ⟨1, _⟩ => show (0 + 1) * 2 ≤ 2; omega
    | ⟨2, _⟩ => show (0 + 1) * 128 ≤ 128; omega
  · rw [transform1_eq]
    have := h i
    match a with
    | ⟨0, _⟩ => show ((wordAt pf i).toNat + 1) * 1 ≤ 90112; omega
    | ⟨1, _⟩ => show (0 + 1) * 2 ≤ 2; omega
    | ⟨2, _⟩ => show (0 + 1) * 128 ≤ 128; omega

/-- Conversely the side condition bounds every word. -/
theorem lt_of_ok0 (pf : pre0.Contents (Elt F)) (h : ok0 (F := F) pf) (i : grid0.Coords) : (wordAt pf i).toNat < 90112 := by
  obtain ⟨hi, -⟩ := h.1 i
  have := hi 0
  rw [transform0_eq] at this
  have h' : ((wordAt pf i).toNat + 1) * 1 ≤ 90112 := this
  omega

end Cert.KernelIdeal.KIdx

end
-- ==== Proof.KHostIdeal.lean ====
/-
  The gather kernel's operands as the region finds them, as functions of the argument arrays: the table of row numbers
  and the two re-laid camera arrays.  On in-range index inputs every row number names a row of the re-laid arrays, which
  is what the region asks of the table it is handed.
-/
import proofs.«424974_j60189671686814_2_alg».proof.Defs
import proofs.«424974_j60189671686814_2_alg».proof.Proof.Gen.KernelIdeal.Frame
import proofs.«424974_j60189671686814_2_alg».proof.Proof.Spec
import proofs.«424974_j60189671686814_2_alg».proof.Proof.IntFacts
import proofs.«424974_j60189671686814_2_alg».proof.Proof.PreDecode

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.ValueIdx
open Cert.Sampler (flatTbl camRows InRange)

variable {F : FTy → Type} [FloatOps F] (m : (ℓ : Loc nD τ sig) → Buf (Elt F) ℓ)

/-! ## The host lines before the region, stretch by stretch

Each stretch of lines is read over an arbitrary valuation `W`: what it leaves at its result, as one of the sampler's
functions of what `W` holds at the stretch's operands, and that it leaves alone the values later stretches still read. -/

section Stretches

open Idealize.ShloMosaic.StableHlo (after)
open Cert.Sampler (S2x900x8 S2x900x3 S14400 sV remHW floorDivV remV takeV bGrid splat sc_388_14400)

variable (W : Valuation τ sig (Elt F))

/-- Unrolls a stretch's lines at a reference and reads each line's result. -/
local macro "host_lines" : tactic =>
  `(tactic| (simp only [hostOps0, hostOps0_1, hostOps0_2, hostOps0_3, hostOps0_4, hostOps0_5, hostOps0_6, hostOps0_7,
               hostOps0_8, hostOps0_9, hostOps0_10]
             after_results_simp))

/-- s = p div (3·64·176): the divisor's constant and the floor division's lines. -/
theorem s_line :
    (after hostOps0_1 (after hostOps0 W) (Proc.devRef .tc main_v0) : IVec S2x900x8 32)
      = sV (W (Proc.devRef .tc main_arg5)) := by
  host_lines; rfl

theorem s_keeps (r : Ref sig .tc) (hr : r = main_arg3 ∨ r = main_arg4 ∨ r = main_arg5) :
    after hostOps0_1 (after hostOps0 W) (Proc.devRef .tc r) = W (Proc.devRef .tc r) := by
  rcases hr with rfl | rfl | rfl <;> host_lines

/-- p mod (64·176): the modulus' constant and the remainder's lines. -/
theorem rem_line :
    (after hostOps0_3 (after hostOps0_2 W) (Proc.devRef .tc main_v1) : IVec S2x900x8 32)
      = remHW (W (Proc.devRef .tc main_arg5)) := by
  host_lines; rfl

theorem rem_keeps (r : Ref sig .tc) (hr : r = main_arg3 ∨ r = main_arg4 ∨ r = main_v0) :
    after hostOps0_3 (after hostOps0_2 W) (Proc.devRef .tc r) = W (Proc.devRef .tc r) := by
  rcases hr with rfl | rfl | rfl <;> host_lines

/-- h: the floor division of the remainder by 176. -/
theorem h_line :
    (after hostOps0_5 (after hostOps0_4 W) (Proc.devRef .tc main_v2) : IVec S2x900x8 32)
      = floorDivV 176#32 (W (Proc.devRef .tc main_v1)) := by
  host_lines; rfl

theorem h_keeps (r : Ref sig .tc) (hr : r = main_arg3 ∨ r = main_arg4 ∨ r = main_v0 ∨ r = main_v1) :
    after hostOps0_5 (after hostOps0_4 W) (Proc.devRef .tc r) = W (Proc.devRef .tc r) := by
  rcases hr with rfl | rfl | rfl | rfl <;> host_lines

/-- w: the remainder of the remainder by 176. -/
theorem w_line :
    (after hostOps0_7 (after hostOps0_6 W) (Proc.devRef .tc main_v3) : IVec S2x900x8 32)
      = remV 176#32 (W (Proc.devRef .tc main_v1)) := by
  host_lines; rfl

theorem w_keeps (r : Ref sig .tc) (hr : r = main_arg3 ∨ r = main_arg4 ∨ r = main_v0 ∨ r = main_v2) :
    after hostOps0_7 (after hostOps0_6 W) (Proc.devRef .tc r) = W (Proc.devRef .tc r) := by
  rcases hr with rfl | rfl | rfl | rfl <;> host_lines

attribute [local irreducible] Host.reduce Host.gather in
/-- spatial[b, n, s]: the first table look-up's lines. -/
theorem sp_line :
    (after hostOps0_8 W (Proc.devRef .tc main_v4) : IVec S2x900x8 32)
      = takeV (W (Proc.devRef .tc main_arg4)) (W (Proc.devRef .tc main_v0)) := by
  host_lines; rfl

theorem sp_keeps (r : Ref sig .tc) (hr : r = main_arg3 ∨ r = main_v2 ∨ r = main_v3) :
    after hostOps0_8 W (Proc.devRef .tc r) = W (Proc.devRef .tc r) := by
  rcases hr with rfl | rfl | rfl <;> host_lines

attribute [local irreducible] Host.reduce Host.gather in
/-- frame = temporal[b, n, spatial[b, n, s]]: the second table look-up's lines. -/
theorem frame_line :
    (after hostOps0_9 W (Proc.devRef .tc main_v5) : IVec S2x900x8 32)
      = takeV (W (Proc.devRef .tc main_arg3)) (W (Proc.devRef .tc main_v4)) := by
  host_lines; rfl

theorem frame_keeps (r : Ref sig .tc) (hr : r = main_v2 ∨ r = main_v3) :
    after hostOps0_9 W (Proc.devRef .tc r) = W (Proc.devRef .tc r) := by
  rcases hr with rfl | rfl <;> host_lines

/-- The row number ((b·4 + frame)·64 + h)·176 + w of the last lines, as a table of 14400 words. -/
theorem tbl_line :
    (after hostOps0_10 W (Proc.devRef .tc main_v22) : IVec S14400 32)
      = shapeCast S14400
          (addi (muli (addi (muli (addi (muli bGrid (splat 4#32)) (W (Proc.devRef .tc main_v5))) (splat 64#32))
            (W (Proc.devRef .tc main_v2))) (splat 176#32)) (W (Proc.devRef .tc main_v3))) sc_388_14400 := by
  host_lines; rfl

end Stretches

/-- The table the region is handed is the table of row numbers of the three index inputs. -/
theorem V_v22 (c : Dev nD) :
    (V m c main_v22 : IVec Cert.Sampler.S14400 32)
      = flatTbl (m ((c : Thread nD τ).loc main_arg3)) (m ((c : Thread nD τ).loc main_arg4)) (m ((c : Thread nD τ).loc main_arg5)) := by
  dsimp only [Gen.V, Gen.V0]
  simp only [List.flatten_cons, List.flatten_nil, List.append_nil, StableHlo.after_append]
  rw [tbl_line]
  rw [frame_line, frame_keeps _ main_v2 (.inl rfl), frame_keeps _ main_v3 (.inr rfl)]
  rw [sp_line, sp_keeps _ main_arg3 (.inl rfl), sp_keeps _ main_v2 (.inr (.inl rfl)), sp_keeps _ main_v3 (.inr (.inr rfl))]
  rw [w_line, w_keeps _ main_arg3 (.inl rfl), w_keeps _ main_arg4 (.inr (.inl rfl)), w_keeps _ main_v0 (.inr (.inr (.inl rfl))),
    w_keeps _ main_v2 (.inr (.inr (.inr rfl)))]
  rw [h_line, h_keeps _ main_arg3 (.inl rfl), h_keeps _ main_arg4 (.inr (.inl rfl)), h_keeps _ main_v0 (.inr (.inr (.inl rfl))),
    h_keeps _ main_v1 (.inr (.inr (.inr rfl)))]
  rw [rem_line, rem_keeps _ main_arg3 (.inl rfl), rem_keeps _ main_arg4 (.inr (.inl rfl)), rem_keeps _ main_v0 (.inr (.inr rfl))]
  rw [s_line, s_keeps _ main_arg3 (.inl rfl), s_keeps _ main_arg4 (.inr (.inl rfl)), s_keeps _ main_arg5 (.inr (.inr rfl))]
  rfl

/-- Window 0's array is the first camera re-laid. -/
theorem V_v7 (c : Dev nD) :
    (V m c main_v7 : Cert.Sampler.S90112x2x128.Idx → Elt F .f32) = camRows (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

/-- Window 1's array is the second camera re-laid. -/
theorem V_v9 (c : Dev nD) :
    (V m c main_v9 : Cert.Sampler.S90112x2x128.Idx → Elt F .f32) = camRows (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

end Cert.KernelIdeal.HostVals

end
-- ==== Proof.OkIdeal.lean ====
/-
  The region's side condition from the precondition: on in-range index inputs the row number
  ((b·4 + frame)·64 + h)·176 + w is below 2·4·64·176 = 90112, so every entry of the table names a row of the re-laid
  camera arrays.
-/
import proofs.«424974_j60189671686814_2_alg».proof.Defs
import proofs.«424974_j60189671686814_2_alg».proof.Proof.KIdxIdeal
import proofs.«424974_j60189671686814_2_alg».proof.Proof.KHostIdeal
import proofs.«424974_j60189671686814_2_alg».proof.Proof.Layout

set_option maxRecDepth 16384

noncomputable section

namespace Cert.KernelIdeal.OkOfPre

open Cert.KernelIdeal Cert.KernelIdeal.Gen Cert.KernelIdeal.KIdx Cert.KernelIdeal.HostVals
open Idealize.ShloMosaic Idealize.ShloMosaic.TcCoe Idealize.SL.Sem Idealize.ShloMosaic.ValueIdx
open Cert.Sampler (flatTbl flatV InRange)

variable {F : FTy → Type} [FloatOps F] (m : (ℓ : Loc nD τ sig) → Buf (Elt F) ℓ)

/-- Entry i of the table on in-range inputs is below 90112. -/
theorem flat_lt {a3 a4 : IVec Cert.Sampler.S2x900x3 32} {a5 : IVec Cert.Sampler.S2x900x8 32} (hr : InRange a3 a4 a5) (i : Fin 14400) :
    (flatTbl a3 a4 a5 (ix1 i)).toNat < 90112 := by
  have hi := i.isLt
  have e : i = ⟨((i.val / 7200) * 900 + (i.val / 8 % 900)) * 8 + i.val % 8, by omega⟩ :=
    Fin.ext (by show i.val = ((i.val / 7200) * 900 + (i.val / 8 % 900)) * 8 + i.val % 8; omega)
  rw [e, Cert.Sampler.flatTbl_apply a3 a4 a5 ⟨i.val / 7200, by omega⟩ ⟨i.val / 8 % 900, by omega⟩ ⟨i.val % 8, by omega⟩,
    Cert.Sampler.flat_toNat hr]
  have hf := Cert.Sampler.frame_lt hr (ix3 (⟨i.val / 7200, by omega⟩ : Fin 2) (⟨i.val / 8 % 900, by omega⟩ : Fin 900) (⟨i.val % 8, by omega⟩ : Fin 8))
  have hh := Cert.Sampler.h_lt hr.p (ix3 (⟨i.val / 7200, by omega⟩ : Fin 2) (⟨i.val / 8 % 900, by omega⟩ : Fin 900) (⟨i.val % 8, by omega⟩ : Fin 8)) (a5 := a5)
  have hw := Cert.Sampler.w_lt hr.p (ix3 (⟨i.val / 7200, by omega⟩ : Fin 2) (⟨i.val / 8 % 900, by omega⟩ : Fin 900) (⟨i.val % 8, by omega⟩ : Fin 8)) (a5 := a5)
  show ((i.val / 7200 * 4 + _) * 64 + _) * 176 + _ < 90112
  omega

/-- The precondition as the claims state it of this program's argument arrays, at any float instance. -/
def PreAt : Prop :=
  ∀ c : Dev nD, Cert.Pre_finite_inputs.fn (F := F) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) = fun _ => 1#1

/-- The precondition puts the three index inputs of device c in range. -/
theorem inRange (h : PreAt m) (c : Dev nD) :
    InRange (m ((c : Thread nD τ).loc main_arg3)) (m ((c : Thread nD τ).loc main_arg4)) (m ((c : Thread nD τ).loc main_arg5)) :=
  Cert.Sampler.inRange_of_pre _ _ _ _ _ _ (h c)

/-- THE SIDE CONDITION: the table the region reads names rows only. -/
theorem ok_of_pre (h : PreAt m) : Ok m := by
  refine ok0_of_lt (tbl m) fun i => ?_
  show ((tbl m 0 : IVec S14400 32) (ix1 ⟨(i 0).val, i0_lt i⟩)).toNat < 90112
  have e : (tbl m 0 : IVec S14400 32) = flatTbl (m (((0 : Dev nD) : Thread nD τ).loc main_arg3)) (m (((0 : Dev nD) : Thread nD τ).loc main_arg4)) (m (((0 : Dev nD) : Thread nD τ).loc main_arg5)) :=
    V_v22 m 0
  rw [e]
  exact flat_lt (inRange m h 0) _

end Cert.KernelIdeal.OkOfPre

end
-- ==== Proof.KTail.lean ====
/-
  The host lines after the gather kernel's region: two re-readings of its [14400, 4, 128] result, as [14400, 512] and
  then as [2, 900, 8, 512].
-/
import proofs.«424974_j60189671686814_2_alg».proof.Defs
import proofs.«424974_j60189671686814_2_alg».proof.Proof.Gen.KernelIdeal.Frame
import proofs.«424974_j60189671686814_2_alg».proof.Proof.Spec
import Idealize.ShloMosaic.Lib.Pipeline.Value

set_option maxRecDepth 16384

noncomputable section

namespace Cert.KernelIdeal.KTail

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

set_option maxHeartbeats 400000 in
/-- The two lines, run from ANY contents of the other buffers and ANY contents of the region's three arrays: the result
    buffer ends holding the third array re-read as [14400, 512] and then as [2, 900, 8, 512]. -/
theorem tail_any (c : Dev nD) (W : Valuation τ sig (Elt F))
    (A : (w : Fin 3) → Buf (Elt F) ((spec0 w).arr.view.loc (c.tc : Thread nD τ))) :
    (StableHlo.after hostOps1 (Pipeline.withArrays spec0 c W A) (Proc.devRef .tc main_v25) : Cert.Sampler.S2x900x8x512.Idx → Elt F .f32)
      = Cert.Sampler.rowsOut (A 2 : Cert.Sampler.S14400x4x128.Idx → Elt F .f32) := by
  -- each line leaves its operand's contents re-read at its result's shape
  simp only [hostOps1, StableHlo.after_cons, StableHlo.after_nil]
  rw [StableHlo.reshape_result, StableHlo.reshape_result]
  -- the first line's operand is the region's third array
  have e : Pipeline.withArrays spec0 c W A (Proc.devRef .tc main_v23) = A 2 :=
    Pipeline.withArrays_arr spec0 winFacts0.arr_inj c W A 2
  rw [e]
  rfl

/-- What the lines after the region leave in the result buffer: the region's output array, whatever it holds, re-read
    as [2, 900, 8, 512]. -/
theorem tail_v25 (hO : Ok m) (c : Dev nD) :
    (Pipeline.afterTail pcfgs (fun _ => adm m hO) (dats m hO) 0 (V0 m) [hostOps1] c main_v25 : Cert.Sampler.S2x900x8x512.Idx → Elt F .f32)
      = Cert.Sampler.rowsOut ((dats m hO 0 c).arrAt 2 (cfgM m hO).N : Cert.Sampler.S14400x4x128.Idx → Elt F .f32) := by
  unfold Pipeline.afterTail
  exact tail_any c (V0 m c) (fun w => (dats m hO 0 c).arrAt w (cfgM m hO).N)

end Cert.KernelIdeal.KTail

end
-- ==== Proof.KValueIdeal.lean ====
/-
  The gather kernel's value: at every weakly fair execution's end the result buffer holds, at (b, n, p, c), row
  tb[(b·900 + n)·8 + p] of the re-laid cameras — the first camera's in channels 0 … 255, the second's in 256 … 511 —, tb
  the table of row numbers the region was handed.

  The body at a grid point stores the concatenation of its two input blocks; input window k's block at point t is row
  tb[t] of re-laid camera k (its index map reads the table); the output's block at point t is row t of the result, so the
  blocks cover the result and it ends holding one row read per row.  The two host lines after the region re-read that
  [14400, 4, 128] array as [2, 900, 8, 512].
-/
import proofs.«424974_j60189671686814_2_alg».proof.Defs
import proofs.«424974_j60189671686814_2_alg».proof.Proof.Gen.KernelIdeal.Frame
import proofs.«424974_j60189671686814_2_alg».proof.Proof.Spec
import proofs.«424974_j60189671686814_2_alg».proof.Proof.KIdxIdeal
import proofs.«424974_j60189671686814_2_alg».proof.Proof.KHostIdeal
import proofs.«424974_j60189671686814_2_alg».proof.Proof.KTail
import Idealize.ShloMosaic.Lib.Pipeline.Value

set_option maxRecDepth 16384

noncomputable section

namespace Cert.KernelIdeal.KValue

open Cert.KernelIdeal Cert.KernelIdeal.Gen Cert.KernelIdeal.KIdx
open Idealize.ShloMosaic Idealize.ShloMosaic.TcCoe Idealize.ShloMosaic.Tactic Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The zero offset of a whole-block access. -/
theorem hz3 : (![0, 0, 0] : Fin 3 → Nat) = fun _ => 0 := by funext a; fin_cases a <;> rfl

/-- What the body leaves in the output block: its one store's payload, of the two input blocks as it found them. -/
theorem out_piece (c : Dev nD) (i : grid0.Coords) (arg2 : Memref sig .tc .vmem S1x2x128 .f32) (harg2 : arg2.IsWhole) (arg3 : Memref sig .tc .vmem S1x2x128 .f32) (harg3 : arg3.IsWhole) (arg4 : Memref sig .tc .vmem S1x4x128 .f32) (harg4 : arg4.IsWhole)
    (x0 : Vec F S1x2x128 .f32) (x1 : Vec F S1x2x128 .f32) (xt0 : TbBuf0 (F := F) c tbM0_0) :
    out0_A_2 c i arg2 harg2 arg3 harg3 arg4 harg4 x0 x1 xt0 = k0_pay1 x0 x1 := by
  unfold out0_A_2
  rw [View.read_writes_eq_canon _ _ _ (cover0_A_2 c i arg2 harg2 arg3 harg3 arg4 harg4 x0 x1 xt0)]
  unfold kernelRun0_A
  dsimp only
  sl_unfold_words
  rw [View.canon_unit_zero hz3]
  simp only [View.readAt_eq_ld, Memref.IsWhole.read_unread, View.ld_unit_zero (S := S1x2x128) hz3]

/-- The payload at half j < 2, lane l: the first block there. -/
theorem pay_left (v0 v2 : Vec F S1x2x128 .f32) (j : Fin 4) (l : Fin 128) (hj : j.val < 2) :
    k0_pay1 v0 v2 (ix3 (0 : Fin 1) j l) = v0 (ix3 (0 : Fin 1) ⟨j.val, hj⟩ l) := by
  unfold k0_pay1
  rw [shapeCast_self, shapeCast_self]
  refine concatenate_pair_apply_left (1 : Fin 3) v0 v2 _ (ix3 (0 : Fin 1) j l) rfl (ix3 (0 : Fin 1) ⟨j.val, hj⟩ l) ?_
  intro b
  match b with
  | ⟨0, _⟩ => rfl
  | ⟨1, _⟩ => rfl
  | ⟨2, _⟩ => rfl

/-- The payload at half j ≥ 2, lane l: the second block at half j − 2. -/
theorem pay_right (v0 v2 : Vec F S1x2x128 .f32) (j : Fin 4) (l : Fin 128) (hj : ¬ j.val < 2) :
    k0_pay1 v0 v2 (ix3 (0 : Fin 1) j l) = v2 (ix3 (0 : Fin 1) ⟨j.val - 2, by omega⟩ l) := by
  unfold k0_pay1
  rw [shapeCast_self, shapeCast_self]
  refine concatenate_pair_apply_right (1 : Fin 3) v0 v2 _ (ix3 (0 : Fin 1) j l) rfl rfl (ix3 (0 : Fin 1) ⟨j.val - 2, by omega⟩ l) ?_ ?_
  · intro b hb
    match b with
    | ⟨0, _⟩ => rfl
    | ⟨1, _⟩ => exact absurd rfl hb
    | ⟨2, _⟩ => rfl
  · show (j.val - 2) + 2 = j.val
    omega

/-! ## The blocks -/

/-- A block index of an input window has leading coordinate 0. -/
theorem y0_in (y : S1x2x128.Idx) : (y 0).val = 0 := by
  have := (y 0).isLt
  have e : S1x2x128.size 0 = 1 := by decide
  omega

theorem blk0_emb (a : (pcfg0 (F := F)).Adm) (t : Fin (cfg0 a).N) (y : S1x2x128.Idx)
    (hlt : (wordAt a.1 (grid0.coords t)).toNat < 90112) :
    ((((cfg0 a).win 0).blk t).view.emb y : S90112x2x128.Idx) = ix3 ⟨(wordAt a.1 (grid0.coords t)).toNat, hlt⟩ (y 1) (y 2) := by
  have hi : ((cfg0 a).win 0).index t = cc0_transform_0 k0_off1_inb numel1_S1 a.1 (grid0.coords t) := rfl
  funext d
  apply Fin.ext
  match d with
  | ⟨0, _⟩ =>
    show ((cfg0 a).win 0).index t (0 : Fin 3) * 1 + 1 * (y 0).val = (wordAt a.1 (grid0.coords t)).toNat
    rw [hi, transform0_eq, y0_in]
    show (wordAt a.1 (grid0.coords t)).toNat * 1 + 1 * 0 = _
    omega
  | ⟨1, _⟩ =>
    show ((cfg0 a).win 0).index t (1 : Fin 3) * 2 + 1 * (y 1).val = (y 1).val
    rw [hi, transform0_eq]
    show 0 * 2 + 1 * (y 1).val = _
    omega
  | ⟨2, _⟩ =>
    show ((cfg0 a).win 0).index t (2 : Fin 3) * 128 + 1 * (y 2).val = (y 2).val
    rw [hi, transform0_eq]
    show 0 * 128 + 1 * (y 2).val = _
    omega

theorem blk1_emb (a : (pcfg0 (F := F)).Adm) (t : Fin (cfg0 a).N) (y : S1x2x128.Idx)
    (hlt : (wordAt a.1 (grid0.coords t)).toNat < 90112) :
    ((((cfg0 a).win 1).blk t).view.emb y : S90112x2x128.Idx) = ix3 ⟨(wordAt a.1 (grid0.coords t)).toNat, hlt⟩ (y 1) (y 2) := by
  have hi : ((cfg0 a).win 1).index t = cc0_transform_1 k0_off1_inb numel1_S1 a.1 (grid0.coords t) := rfl
  funext d
  apply Fin.ext
  match d with
  | ⟨0, _⟩ =>
    show ((cfg0 a).win 1).index t (0 : Fin 3) * 1 + 1 * (y 0).val = (wordAt a.1 (grid0.coords t)).toNat
    rw [hi, transform1_eq, y0_in]
    show (wordAt a.1 (grid0.coords t)).toNat * 1 + 1 * 0 = _
    omega
  | ⟨1, _⟩ =>
    show ((cfg0 a).win 1).index t (1 : Fin 3) * 2 + 1 * (y 1).val = (y 1).val
    rw [hi, transform1_eq]
    show 0 * 2 + 1 * (y 1).val = _
    omega
  | ⟨2, _⟩ =>
    show ((cfg0 a).win 1).index t (2 : Fin 3) * 128 + 1 * (y 2).val = (y 2).val
    rw [hi, transform1_eq]
    show 0 * 128 + 1 * (y 2).val = _
    omega

/-- A block index of the output window has leading coordinate 0. -/
theorem y0_out (y : S1x4x128.Idx) : (y 0).val = 0 := by
  have := (y 0).isLt
  have e : S1x4x128.size 0 = 1 := by decide
  omega

/-- Point t's output block is row t of the result. -/
theorem blk2_emb (a : (pcfg0 (F := F)).Adm) (t : Fin (cfg0 a).N) (y : S1x4x128.Idx) :
    ((((cfg0 a).win 2).blk t).view.emb y : S14400x4x128.Idx) = ix3 ⟨t.val, t_lt t⟩ (y 1) (y 2) := by
  have hi : ((cfg0 a).win 2).index t = cc0_transform_2 (grid0.coords t) := rfl
  funext d
  apply Fin.ext
  match d with
  | ⟨0, _⟩ =>
    show ((cfg0 a).win 2).index t (0 : Fin 3) * 1 + 1 * (y 0).val = t.val
    rw [hi, transform2_eq, y0_out, coords_val]
    show t.val * 1 + 1 * 0 = _
    omega
  | ⟨1, _⟩ =>
    show ((cfg0 a).win 2).index t (1 : Fin 3) * 4 + 1 * (y 1).val = (y 1).val
    rw [hi, transform2_eq]
    show 0 * 4 + 1 * (y 1).val = _
    omega
  | ⟨2, _⟩ =>
    show ((cfg0 a).win 2).index t (2 : Fin 3) * 128 + 1 * (y 2).val = (y 2).val
    rw [hi, transform2_eq]
    show 0 * 128 + 1 * (y 2).val = _
    omega

/-! ## What the kernel leaves -/

/-- The table, and the two re-laid camera arrays, as the region finds them. -/
abbrev tb : IVec S14400 32 := tbl m 0
abbrev R0 (c : Dev nD) : S90112x2x128.Idx → Elt F .f32 := V m c main_v7
abbrev R1 (c : Dev nD) : S90112x2x128.Idx → Elt F .f32 := V m c main_v9

theorem iblk0_apply (hO : Ok m) (c : Dev nD) (t : Fin (cfgM m hO).N) (y : S1x2x128.Idx) :
    iblk m hO c 0 t y = R0 m c (ix3 ⟨(wordAt (tbl m) (grid0.coords t)).toNat, lt_of_ok0 (tbl m) hO _⟩ (y 1) (y 2)) := by
  unfold iblk
  exact congrArg (V m c main_v7) (blk0_emb (adm m hO) t y (lt_of_ok0 (tbl m) hO _))

theorem iblk1_apply (hO : Ok m) (c : Dev nD) (t : Fin (cfgM m hO).N) (y : S1x2x128.Idx) :
    iblk m hO c 1 t y = R1 m c (ix3 ⟨(wordAt (tbl m) (grid0.coords t)).toNat, lt_of_ok0 (tbl m) hO _⟩ (y 1) (y 2)) := by
  unfold iblk
  exact congrArg (V m c main_v9) (blk1_emb (adm m hO) t y (lt_of_ok0 (tbl m) hO _))

/-- Two indices of a re-laid camera array with equal row numbers and the same half and lane are equal. -/
theorem ix3_row {r r' : Fin 90112} (h : r.val = r'.val) (j : Fin 2) (l : Fin 128) :
    (ix3 r j l : S90112x2x128.Idx) = ix3 r' j l := by
  obtain rfl := Fin.ext h; rfl

/-- The table word the index maps read at point t is entry t, which the side condition keeps below 90112. -/
theorem word_eq (hO : Ok m) (t : Fin grid0.N) :
    (wordAt (tbl m) (grid0.coords t)).toNat = min ((tb m) (ix1 ⟨t.val, t_lt t⟩)).toNat 90111 := by
  have h := lt_of_ok0 (tbl m) hO (grid0.coords t)
  have e : (ix1 ⟨((grid0.coords t) 0).val, i0_lt (grid0.coords t)⟩ : S14400.Idx) = ix1 ⟨t.val, t_lt t⟩ :=
    congrArg ix1 (Fin.ext (coords_val t))
  have e' : wordAt (tbl m) (grid0.coords t) = (tb m) (ix1 ⟨t.val, t_lt t⟩) := congrArg (tb m) e
  rw [e'] at h ⊢
  exact (Nat.min_eq_left (by omega)).symm

/-- THE OUTPUT BLOCK the body leaves at point t: row tb[t] of the first re-laid camera in halves 0 and 1, of the second
    in halves 2 and 3. -/
theorem outs_apply (hO : Ok m) (c : Dev nD) (t : Fin (cfgM m hO).N) (y : S1x4x128.Idx) :
    outsAt0 m hO c t y = Cert.Sampler.rowReadAt (R0 m c) (R1 m c) (tb m) ⟨t.val, t_lt t⟩ (y 1) (y 2) := by
  unfold outsAt0
  refine (congrFun (out_piece c (grid0.coords t) (ms0_0 m hO t) (hs0_0 m hO t) (ms0_1 m hO t) (hs0_1 m hO t) (ms0_2 m hO t) (hs0_2 m hO t)
    (iblk m hO c 0 t) (iblk m hO c 1 t) (tbl m 0)) y).trans ?_
  obtain ⟨y0, j, l, rfl⟩ : ∃ (y0 : Fin 1) (j : Fin 4) (l : Fin 128), y = ix3 y0 j l := ⟨y 0, y 1, y 2, eq_ix3 y⟩
  obtain rfl : y0 = 0 := Subsingleton.elim _ _
  show k0_pay1 _ _ (ix3 (0 : Fin 1) j l) = Cert.Sampler.rowReadAt (R0 m c) (R1 m c) (tb m) ⟨t.val, t_lt t⟩ j l
  unfold Cert.Sampler.rowReadAt
  by_cases hj : j.val < 2
  · rw [dif_pos hj]
    refine (pay_left (iblk m hO c 0 t) (iblk m hO c 1 t) j l hj).trans ?_
    refine (iblk0_apply m hO c t (ix3 (0 : Fin 1) ⟨j.val, hj⟩ l)).trans ?_
    exact congrArg (R0 m c) (ix3_row (word_eq m hO t) ⟨j.val, hj⟩ l)
  · rw [dif_neg hj]
    refine (pay_right (iblk m hO c 0 t) (iblk m hO c 1 t) j l hj).trans ?_
    refine (iblk1_apply m hO c t (ix3 (0 : Fin 1) ⟨j.val - 2, by omega⟩ l)).trans ?_
    exact congrArg (R1 m c) (ix3_row (word_eq m hO t) ⟨j.val - 2, by omega⟩ l)

/-- The whole result array: row i reads row tb[i] of the two re-laid cameras. -/
abbrev Gout (c : Dev nD) : S14400x4x128.Idx → Elt F .f32 := Cert.Sampler.rowRead (R0 m c) (R1 m c) (tb m)

/-- WHAT POINT t WRITES BACK is block t of that array. -/
theorem flushed_eq (hO : Ok m) (c : Dev nD) (t : Fin (cfgM m hO).N) (_ : ((cfgM m hO).win 2).flush t = true) :
    (dats m hO 0 c).flushed 2 t = (((cfgM m hO).win 2).blk t).view.read (Elt F) (Gout m c) := by
  show ((cfgM m hO).win 2).cut ((cfgM m hO).grid.coords t) ((dats m hO 0 c).after 2 t) = _
  rw [after0_2]
  funext y
  show outsAt0 m hO c t y = Gout m c ((((cfgM m hO).win 2).blk t).view.emb y)
  refine (outs_apply m hO c t y).trans ?_
  exact (congrArg (Gout m c) (blk2_emb (adm m hO) t y)).symm

/-- An index of the result is in point t's block iff its row is t. -/
theorem mem_blk2 (a : (pcfg0 (F := F)).Adm) (t : Fin (cfg0 a).N) (i : S14400x4x128.Idx) :
    i ∈ (((cfg0 a).win 2).blk t).view.set ↔ ∀ d : Fin 3, ((cfg0 a).win 2).index t d * S1x4x128.size d ≤ (i d).val ∧ (i d).val < ((cfg0 a).win 2).index t d * S1x4x128.size d + S1x4x128.size d := by
  have e : ((View.whole main_v23).slice (((cfg0 a).win 2).rect t)).set = (((cfg0 a).win 2).rect t).set :=
    View.set_slice_whole main_v23 _
  show i ∈ ((View.whole main_v23).slice (((cfg0 a).win 2).rect t)).set ↔ _
  refine (Eq.to_iff (congrArg (fun s => i ∈ s) e)).trans ?_
  exact Rect.mem_set_unit

/-- Every row of the result is some point's block. -/
theorem cover (hO : Ok m) (i : S14400x4x128.Idx) :
    ∃ t : Fin (cfgM m hO).N, ((cfgM m hO).win 2).flush t = true ∧ i ∈ (((cfgM m hO).win 2).blk t).view.set := by
  have hi0 : (i 0).val < 14400 := (i 0).isLt
  have hi1 : (i 1).val < 4 := (i 1).isLt
  have hi2 : (i 2).val < 128 := (i 2).isLt
  refine ⟨⟨(i 0).val, lt_of_lt_of_eq hi0 N_0.symm⟩, flush0_2 (adm m hO) _, ?_⟩
  refine (mem_blk2 (adm m hO) _ i).mpr ?_
  have hi : ((cfgM m hO).win 2).index ⟨(i 0).val, lt_of_lt_of_eq hi0 N_0.symm⟩ = ![(i 0).val, 0, 0] := by
    show cc0_transform_2 (grid0.coords ⟨(i 0).val, lt_of_lt_of_eq hi0 N_0.symm⟩) = _
    rw [transform2_eq, coords_val]
  intro d
  show ((cfgM m hO).win 2).index ⟨(i 0).val, lt_of_lt_of_eq hi0 N_0.symm⟩ d * S1x4x128.size d ≤ (i d).val ∧ (i d).val < ((cfgM m hO).win 2).index ⟨(i 0).val, lt_of_lt_of_eq hi0 N_0.symm⟩ d * S1x4x128.size d + S1x4x128.size d
  rw [hi]
  match d with
  | ⟨0, _⟩ => show (i 0).val * 1 ≤ (i 0).val ∧ (i 0).val < (i 0).val * 1 + 1; omega
  | ⟨1, _⟩ => show 0 * 4 ≤ (i 1).val ∧ (i 1).val < 0 * 4 + 4; omega
  | ⟨2, _⟩ => show 0 * 128 ≤ (i 2).val ∧ (i 2).val < 0 * 128 + 128; omega

/-- THE RESULT ARRAY after the region. -/
theorem final (hO : Ok m) (c : Dev nD) : (dats m hO 0 c).arrAt 2 (cfgM m hO).N = Gout m c :=
  (dats m hO 0 c).arrAt_eq_of_cover 2 (Gout m c) (flushed_eq m hO c) (cover m hO)

/-! ## The run, read -/

/-- THE KERNEL'S RUN with its result named: the row reads of the re-laid cameras at the table of row numbers of the
    three index inputs, re-read as [2, 900, 8, 512]; the arguments as launched. -/
theorem run (hO : Ok m) :
    θ_run defs (onTc (τ := τ) (main (F := F))) ⟨m, fun _ => 0, ρ⟩ fun r => ∀ c : Dev nD,
      r.2.mem ((c : Thread nD τ).loc main_v25)
          = Cert.Sampler.kernelOut (m ((c : Thread nD τ).loc main_arg0)) (m ((c : Thread nD τ).loc main_arg1))
              (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have H := run_main m ρ hO
  refine (θ_run defs _ _).mono (fun r hq c => ?_) H
  refine ⟨?_, ((hq c).2 main_arg0 (by decide : main_arg0 ∈ Pipeline.restRefs sig spec0)).trans (W_main_arg0 m hO (dats m hO) c),
    ((hq c).2 main_arg1 (by decide : main_arg1 ∈ Pipeline.restRefs sig spec0)).trans (W_main_arg1 m hO (dats m hO) c),
    ((hq c).2 main_arg2 (by decide : main_arg2 ∈ Pipeline.restRefs sig spec0)).trans (W_main_arg2 m hO (dats m hO) c),
    ((hq c).2 main_arg3 (by decide : main_arg3 ∈ Pipeline.restRefs sig spec0)).trans (W_main_arg3 m hO (dats m hO) c),
    ((hq c).2 main_arg4 (by decide : main_arg4 ∈ Pipeline.restRefs sig spec0)).trans (W_main_arg4 m hO (dats m hO) c),
    ((hq c).2 main_arg5 (by decide : main_arg5 ∈ Pipeline.restRefs sig spec0)).trans (W_main_arg5 m hO (dats m hO) c)⟩
  refine ((hq c).2 main_v25 (by decide : main_v25 ∈ Pipeline.restRefs sig spec0)).trans ?_
  refine (Cert.KernelIdeal.KTail.tail_v25 m hO c).trans ?_
  obtain rfl : c = 0 := Subsingleton.elim _ _
  have e7 := Cert.KernelIdeal.HostVals.V_v7 m (0 : Dev nD)
  have e9 := Cert.KernelIdeal.HostVals.V_v9 m (0 : Dev nD)
  have e22 : (tb m : IVec S14400 32) = _ := Cert.KernelIdeal.HostVals.V_v22 m (0 : Dev nD)
  refine (congrArg Cert.Sampler.rowsOut (final m hO 0)).trans ?_
  exact congrArg Cert.Sampler.rowsOut (congr (congr (congrArg (Cert.Sampler.rowRead (α := Elt F .f32)) e7) e9) e22)

end Cert.KernelIdeal.KValue

end
-- ==== Proof.RefRun.lean ====
/-
  The reference's run: @main is one straight line of host operations once its calls are opened, so every weakly fair
  execution ends with each buffer at the operations' fold over the launch contents; read at the result buffer that fold is
  the four-axis gather of both cameras side by side, and no operation writes an argument.

  The line is cut into consecutive stretches — one per call with the constant before it, one per camera for @main's own
  lines, the last concatenate — and the fold of a concatenation is the fold of the second list over the fold of the
  first. Each stretch is read twice: at the one buffer later lines use, where it holds the integer function of
  Proof/Spec.lean applied to what the stretch found at the buffers it reads; and at any reference it does not write,
  which keeps its contents. The second camera's six calls recompute the first camera's integer functions of the same
  arguments into buffers of their own, so both gathers read the same four start indices.
-/
import proofs.«424974_j60189671686814_2_alg».proof.Defs
import proofs.«424974_j60189671686814_2_alg».proof.Proof.Gen.ReferenceIdeal
import proofs.«424974_j60189671686814_2_alg».proof.Proof.Spec
import Idealize.ShloMosaic.Lib.StableHlo.Run

noncomputable section

namespace Cert.ReferenceIdeal.HandRun

open Cert.ReferenceIdeal Cert.ReferenceIdeal.Gen
open Idealize.ShloMosaic Idealize.ShloMosaic.TcCoe Idealize.SL.Sem Idealize.ShloMosaic.StableHlo

variable {F : FTy → Type} [FloatOps F]

/-- The fold of two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- An operation that writes one reference of a list writes inside the list's device buffers. -/
theorem wsub {W : List (Ref sig .tc)} {y : Ref sig .tc} (h : y ∈ W) :
    ({Proc.devRef (τ := τ) .tc y} : Finset (DevRef τ sig)) ⊆ (W.map (Proc.devRef (τ := τ) .tc)).toFinset := by
  rw [Finset.singleton_subset_iff, List.mem_toFinset]
  exact List.mem_map.mpr ⟨y, h, rfl⟩

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The four start indices (b, frame, h, w) per (b, n, p), each wrapped, from a frame, a row and a column array. -/
def idxOf (f h w : IVec Cert.Sampler.S2x900x8 32) : IVec Cert.Sampler.S2x900x8x4 32 :=
  concatenate Cert.Sampler.S2x900x8x4 3
    [⟨Cert.Sampler.S2x900x8x1, Cert.Sampler.col Cert.Sampler.bWrapped⟩, ⟨Cert.Sampler.S2x900x8x1, Cert.Sampler.col (Cert.Sampler.wrapV 4#32 f)⟩,
     ⟨Cert.Sampler.S2x900x8x1, Cert.Sampler.col (Cert.Sampler.wrapV 64#32 h)⟩, ⟨Cert.Sampler.S2x900x8x1, Cert.Sampler.col (Cert.Sampler.wrapV 176#32 w)⟩] Cert.Sampler.cat_idx

/-- The constant 33792 and the seventeen operations of the floor division over call 0's buffers: s = p div (3·64·176) lands in main_v0. -/
abbrev A0 : List (HloOp τ sig (Elt F)) :=
  [
    StableHlo.nullary main_c (constantI S_ 32 33792#32),
    StableHlo.TRef.unary (.of main_c : StableHlo.TRef sig ⟨S_, .i32⟩) main_call0.v0 id,
    StableHlo.TRef.unary main_call0.v0 main_call0.v1 (broadcastInDim S2x900x8 ![] bcast_S_S2x900x8),
    StableHlo.TRef.binary (.of main_arg5 : StableHlo.TRef sig ⟨S2x900x8, .i32⟩) main_call0.v1 main_call0.v2 Host.divsi,
    StableHlo.TRef.unary (.of main_arg5 : StableHlo.TRef sig ⟨S2x900x8, .i32⟩) main_call0.v3 signi,
    StableHlo.TRef.unary main_call0.v0 main_call0.v4 signi,
    StableHlo.TRef.unary main_call0.v4 main_call0.v5 (broadcastInDim S2x900x8 ![] bcast_S_S2x900x8),
    StableHlo.TRef.binary main_call0.v3 main_call0.v5 main_call0.v6 (cmpi .ne),
    StableHlo.TRef.unary main_call0.v0 main_call0.v7 (broadcastInDim S2x900x8 ![] bcast_S_S2x900x8),
    StableHlo.TRef.binary (.of main_arg5 : StableHlo.TRef sig ⟨S2x900x8, .i32⟩) main_call0.v7 main_call0.v8 Host.remsi,
    StableHlo.TRef.nullary main_call0.c (constantI S_ 32 0#32),
    StableHlo.TRef.unary main_call0.c main_call0.v9 (broadcastInDim S2x900x8 ![] bcast_S_S2x900x8),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S2x900x8 ![] bcast_S_S2x900x8),
    StableHlo.TRef.binary main_call0.v2 main_call0.v12 main_call0.v13 subi,
    StableHlo.TRef.ternary main_call0.v11 main_call0.v13 main_call0.v2 main_call0.call0.v0 select ]

/-- The references that stretch writes, in order. -/
abbrev WA0 : List (Ref sig .tc) := [main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v0]

theorem A0_sub : (A0 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem A0_fresh : (A0 : List (HloOp τ sig (Elt F))).Forall fun op => op.fresh = ∅ :=
  ⟨rfl, rfl, rfl, rfl, rfl, rfl, rfl, rfl, rfl, rfl, rfl, rfl, rfl, rfl, rfl, rfl, rfl, rfl⟩

theorem A0_writes : (A0 : List (HloOp τ sig (Elt F))).Forall fun op => op.writes ⊆ (WA0.map (Proc.devRef (τ := τ) .tc)).toFinset :=
  ⟨wsub (y := main_c) (by decide), wsub (y := main_call0_v0) (by decide), wsub (y := main_call0_v1) (by decide), wsub (y := main_call0_v2) (by decide), wsub (y := main_call0_v3) (by decide), wsub (y := main_call0_v4) (by decide), wsub (y := main_call0_v5) (by decide), wsub (y := main_call0_v6) (by decide), wsub (y := main_call0_v7) (by decide), wsub (y := main_call0_v8) (by decide), wsub (y := main_call0_c) (by decide), wsub (y := main_call0_v9) (by decide), wsub (y := main_call0_v10) (by decide), wsub (y := main_call0_v11) (by decide), wsub (y := main_call0_c_0) (by decide), wsub (y := main_call0_v12) (by decide), wsub (y := main_call0_v13) (by decide), wsub (y := main_v0) (by decide)⟩

/-- A reference the stretch does not write keeps its contents. -/
theorem A0_keep (V : Valuation τ sig (Elt F)) {r : Ref sig .tc} (hr : r ∉ WA0) :
    after A0 V (no_index (Proc.devRef .tc r)) = V (Proc.devRef .tc r) :=
  after_of_writes_sub A0 V A0_writes hr

set_option maxHeartbeats 2000000 in
/-- What the stretch leaves at its result buffer, as a function of what it found at the buffers it reads: each
    operation's result read at its own buffer, the typed references' transports the identity at these literal references. -/
theorem A0_out (V : Valuation τ sig (Elt F)) :
    after A0 V (no_index (Proc.devRef .tc main_v0)) = Cert.Sampler.sV (V (Proc.devRef .tc main_arg5)) := by
  after_results
  rfl

/-- The constant 11264 and the twenty-one operations of the remainder over call 1's buffers: p mod (64·176) lands in main_v1. -/
abbrev A1 : List (HloOp τ sig (Elt F)) :=
  [
    StableHlo.nullary main_c_0 (constantI S_ 32 11264#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S2x900x8 ![] bcast_S_S2x900x8),
    StableHlo.TRef.binary (.of main_arg5 : StableHlo.TRef sig ⟨S2x900x8, .i32⟩) main_call1.v3 main_call1.v4 Host.remsi,
    StableHlo.TRef.nullary main_call1.c_1 (constantI S_ 32 0#32),
    StableHlo.TRef.unary main_call1.c_1 main_call1.v5 (broadcastInDim S2x900x8 ![] bcast_S_S2x900x8),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S2x900x8 ![] bcast_S_S2x900x8),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S2x900x8 ![] bcast_S_S2x900x8),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S2x900x8 ![] bcast_S_S2x900x8),
    StableHlo.TRef.binary main_call1.v4 main_call1.v13 main_call1.v14 addi,
    StableHlo.TRef.ternary main_call1.v12 main_call1.v14 main_call1.v4 main_call1.v15 select ]

/-- The references that stretch writes, in order. -/
abbrev WA1 : List (Ref sig .tc) := [main_c_0, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v1]

theorem A1_sub : (A1 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem A1_fresh : (A1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem A1_writes : (A1 : List (HloOp τ sig (Elt F))).Forall fun op => op.writes ⊆ (WA1.map (Proc.devRef (τ := τ) .tc)).toFinset :=
  ⟨wsub (y := main_c_0) (by decide), wsub (y := main_call1_v0) (by decide), wsub (y := main_call1_c) (by decide), wsub (y := main_call1_v1) (by decide), wsub (y := main_call1_c_0) (by decide), wsub (y := main_call1_v2) (by decide), wsub (y := main_call1_v3) (by decide), wsub (y := main_call1_v4) (by decide), wsub (y := main_call1_c_1) (by decide), wsub (y := main_call1_v5) (by decide), wsub (y := main_call1_v6) (by decide), wsub (y := main_call1_c_2) (by decide), wsub (y := main_call1_v7) (by decide), wsub (y := main_call1_v8) (by decide), wsub (y := main_call1_c_3) (by decide), wsub (y := main_call1_v9) (by decide), wsub (y := main_call1_v10) (by decide), wsub (y := main_call1_v11) (by decide), wsub (y := main_call1_v12) (by decide), wsub (y := main_call1_v13) (by decide), wsub (y := main_call1_v14) (by decide), wsub (y := main_v1) (by decide)⟩

/-- A reference the stretch does not write keeps its contents. -/
theorem A1_keep (V : Valuation τ sig (Elt F)) {r : Ref sig .tc} (hr : r ∉ WA1) :
    after A1 V (no_index (Proc.devRef .tc r)) = V (Proc.devRef .tc r) :=
  after_of_writes_sub A1 V A1_writes hr

set_option maxHeartbeats 2000000 in
/-- What the stretch leaves at its result buffer, as a function of what it found at the buffers it reads: each
    operation's result read at its own buffer, the typed references' transports the identity at these literal references. -/
theorem A1_out (V : Valuation τ sig (Elt F)) :
    after A1 V (no_index (Proc.devRef .tc main_v1)) = Cert.Sampler.remHW (V (Proc.devRef .tc main_arg5)) := by
  after_results
  rfl

/-- The constant 176 and the seventeen operations of the floor division over call 2's buffers: h = (p mod (64·176)) div 176 lands in main_v2. -/
abbrev A2 : List (HloOp τ sig (Elt F)) :=
  [
    StableHlo.nullary main_c_1 (constantI S_ 32 176#32),
    StableHlo.TRef.unary (.of main_c_1 : StableHlo.TRef sig ⟨S_, .i32⟩) main_call2.v0 id,
    StableHlo.TRef.unary main_call2.v0 main_call2.v1 (broadcastInDim S2x900x8 ![] bcast_S_S2x900x8),
    StableHlo.TRef.binary (.of main_v1 : StableHlo.TRef sig ⟨S2x900x8, .i32⟩) main_call2.v1 main_call2.v2 Host.divsi,
    StableHlo.TRef.unary (.of main_v1 : StableHlo.TRef sig ⟨S2x900x8, .i32⟩) main_call2.v3 signi,
    StableHlo.TRef.unary main_call2.v0 main_call2.v4 signi,
    StableHlo.TRef.unary main_call2.v4 main_call2.v5 (broadcastInDim S2x900x8 ![] bcast_S_S2x900x8),
    StableHlo.TRef.binary main_call2.v3 main_call2.v5 main_call2.v6 (cmpi .ne),
    StableHlo.TRef.unary main_call2.v0 main_call2.v7 (broadcastInDim S2x900x8 ![] bcast_S_S2x900x8),
    StableHlo.TRef.binary (.of main_v1 : StableHlo.TRef sig ⟨S2x900x8, .i32⟩) main_call2.v7 main_call2.v8 Host.remsi,
    StableHlo.TRef.nullary main_call2.c (constantI S_ 32 0#32),
    StableHlo.TRef.unary main_call2.c main_call2.v9 (broadcastInDim S2x900x8 ![] bcast_S_S2x900x8),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S2x900x8 ![] bcast_S_S2x900x8),
    StableHlo.TRef.binary main_call2.v2 main_call2.v12 main_call2.v13 subi,
    StableHlo.TRef.ternary main_call2.v11 main_call2.v13 main_call2.v2 main_call2.call0.v0 select ]

/-- The references that stretch writes, in order. -/
abbrev WA2 : List (Ref sig .tc) := [main_c_1, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v2]

theorem A2_sub : (A2 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem A2_fresh : (A2 : List (HloOp τ sig (Elt F))).Forall fun op => op.fresh = ∅ :=
  ⟨rfl, rfl, rfl, rfl, rfl, rfl, rfl, rfl, rfl, rfl, rfl, rfl, rfl, rfl, rfl, rfl, rfl, rfl⟩

theorem A2_writes : (A2 : List (HloOp τ sig (Elt F))).Forall fun op => op.writes ⊆ (WA2.map (Proc.devRef (τ := τ) .tc)).toFinset :=
  ⟨wsub (y := main_c_1) (by decide), wsub (y := main_call2_v0) (by decide), wsub (y := main_call2_v1) (by decide), wsub (y := main_call2_v2) (by decide), wsub (y := main_call2_v3) (by decide), wsub (y := main_call2_v4) (by decide), wsub (y := main_call2_v5) (by decide), wsub (y := main_call2_v6) (by decide), wsub (y := main_call2_v7) (by decide), wsub (y := main_call2_v8) (by decide), wsub (y := main_call2_c) (by decide), wsub (y := main_call2_v9) (by decide), wsub (y := main_call2_v10) (by decide), wsub (y := main_call2_v11) (by decide), wsub (y := main_call2_c_0) (by decide), wsub (y := main_call2_v12) (by decide), wsub (y := main_call2_v13) (by decide), wsub (y := main_v2) (by decide)⟩

/-- A reference the stretch does not write keeps its contents. -/
theorem A2_keep (V : Valuation τ sig (Elt F)) {r : Ref sig .tc} (hr : r ∉ WA2) :
    after A2 V (no_index (Proc.devRef .tc r)) = V (Proc.devRef .tc r) :=
  after_of_writes_sub A2 V A2_writes hr

set_option maxHeartbeats 2000000 in
/-- What the stretch leaves at its result buffer, as a function of what it found at the buffers it reads: each
    operation's result read at its own buffer, the typed references' transports the identity at these literal references. -/
theorem A2_out (V : Valuation τ sig (Elt F)) :
    after A2 V (no_index (Proc.devRef .tc main_v2)) = Cert.Sampler.floorDivV 176#32 (V (Proc.devRef .tc main_v1)) := by
  after_results
  rfl

/-- The constant 176 and the twenty-one operations of the remainder over call 3's buffers: w = (p mod (64·176)) mod 176 lands in main_v3. -/
abbrev A3 : List (HloOp τ sig (Elt F)) :=
  [
    StableHlo.nullary main_c_2 (constantI S_ 32 176#32),
    StableHlo.TRef.unary (.of main_c_2 : StableHlo.TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S2x900x8 ![] bcast_S_S2x900x8),
    StableHlo.TRef.binary (.of main_v1 : StableHlo.TRef sig ⟨S2x900x8, .i32⟩) main_call3.v3 main_call3.v4 Host.remsi,
    StableHlo.TRef.nullary main_call3.c_1 (constantI S_ 32 0#32),
    StableHlo.TRef.unary main_call3.c_1 main_call3.v5 (broadcastInDim S2x900x8 ![] bcast_S_S2x900x8),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S2x900x8 ![] bcast_S_S2x900x8),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S2x900x8 ![] bcast_S_S2x900x8),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S2x900x8 ![] bcast_S_S2x900x8),
    StableHlo.TRef.binary main_call3.v4 main_call3.v13 main_call3.v14 addi,
    StableHlo.TRef.ternary main_call3.v12 main_call3.v14 main_call3.v4 main_call3.v15 select ]

/-- The references that stretch writes, in order. -/
abbrev WA3 : List (Ref sig .tc) := [main_c_2, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v3]

theorem A3_sub : (A3 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem A3_fresh : (A3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem A3_writes : (A3 : List (HloOp τ sig (Elt F))).Forall fun op => op.writes ⊆ (WA3.map (Proc.devRef (τ := τ) .tc)).toFinset :=
  ⟨wsub (y := main_c_2) (by decide), wsub (y := main_call3_v0) (by decide), wsub (y := main_call3_c) (by decide), wsub (y := main_call3_v1) (by decide), wsub (y := main_call3_c_0) (by decide), wsub (y := main_call3_v2) (by decide), wsub (y := main_call3_v3) (by decide), wsub (y := main_call3_v4) (by decide), wsub (y := main_call3_c_1) (by decide), wsub (y := main_call3_v5) (by decide), wsub (y := main_call3_v6) (by decide), wsub (y := main_call3_c_2) (by decide), wsub (y := main_call3_v7) (by decide), wsub (y := main_call3_v8) (by decide), wsub (y := main_call3_c_3) (by decide), wsub (y := main_call3_v9) (by decide), wsub (y := main_call3_v10) (by decide), wsub (y := main_call3_v11) (by decide), wsub (y := main_call3_v12) (by decide), wsub (y := main_call3_v13) (by decide), wsub (y := main_call3_v14) (by decide), wsub (y := main_v3) (by decide)⟩

/-- A reference the stretch does not write keeps its contents. -/
theorem A3_keep (V : Valuation τ sig (Elt F)) {r : Ref sig .tc} (hr : r ∉ WA3) :
    after A3 V (no_index (Proc.devRef .tc r)) = V (Proc.devRef .tc r) :=
  after_of_writes_sub A3 V A3_writes hr

set_option maxHeartbeats 2000000 in
/-- What the stretch leaves at its result buffer, as a function of what it found at the buffers it reads: each
    operation's result read at its own buffer, the typed references' transports the identity at these literal references. -/
theorem A3_out (V : Valuation τ sig (Elt F)) :
    after A3 V (no_index (Proc.devRef .tc main_v3)) = Cert.Sampler.remV 176#32 (V (Proc.devRef .tc main_v1)) := by
  after_results
  rfl

/-- The twenty-two operations of the take along the last axis over call 4's buffers: spatial[b, n, s] lands in main_v4. -/
abbrev A4 : List (HloOp τ sig (Elt F)) :=
  [
    StableHlo.TRef.nullary main_call4.c (constantI S_ 32 0#32),
    StableHlo.TRef.unary main_call4.c main_call4.v0 (broadcastInDim S2x900x8 ![] bcast_S_S2x900x8),
    StableHlo.TRef.binary (.of main_v0 : StableHlo.TRef sig ⟨S2x900x8, .i32⟩) main_call4.v0 main_call4.v1 (cmpi .slt),
    StableHlo.TRef.nullary main_call4.c_0 (constantI S_ 32 3#32),
    StableHlo.TRef.unary main_call4.c_0 main_call4.v2 (broadcastInDim S2x900x8 ![] bcast_S_S2x900x8),
    StableHlo.TRef.binary (.of main_v0 : StableHlo.TRef sig ⟨S2x900x8, .i32⟩) main_call4.v2 main_call4.v3 addi,
    StableHlo.TRef.ternary main_call4.v1 main_call4.v3 (.of main_v0 : StableHlo.TRef sig ⟨S2x900x8, .i32⟩) main_call4.v4 select,
    StableHlo.TRef.reshape main_call4.v4 main_call4.v5 rfl shapeCasts_S2x900x8_S2x900x8x1,
    StableHlo.TRef.nullary main_call4.c_1 (constantI S1 32 2#32),
    StableHlo.TRef.nullary main_call4.c_2 (constantI S_ 32 0#32),
    StableHlo.TRef.unary main_call4.c_2 main_call4.v6 (broadcastInDim S2x900x8x1 ![] bcast_S_S2x900x8x1),
    StableHlo.TRef.binary main_call4.v5 main_call4.v6 main_call4.v7 (cmpi .sge),
    StableHlo.TRef.unary main_call4.c_1 main_call4.v8 (broadcastInDim S1x1x1x1 ![3] bcast_S1_S1x1x1x1_3),
    StableHlo.TRef.unary main_call4.v8 main_call4.v9 (broadcastInDim S2x900x8x1 ![0, 1, 2, 3] bcast_S1x1x1x1_S2x900x8x1_0_1_2_3),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S2x900x8x1_S2x900x8_d3 h_S_),
    StableHlo.TRef.binary (.of main_arg4 : StableHlo.TRef sig ⟨S2x900x3, .i32⟩) main_call4.v5 main_call4.v13 (fun x i => Host.gather gather_S2x900x3_S2x900x8x1_S2x900x8_n_2_01_01_2_3_111 x i),
    StableHlo.TRef.nullary main_call4.c_4 (constantI S_ 32 2147483648#32),
    StableHlo.TRef.unary main_call4.c_4 main_call4.v14 (broadcastInDim S2x900x8 ![] bcast_S_S2x900x8),
    StableHlo.TRef.ternary main_call4.v12 main_call4.v13 main_call4.v14 main_call4.v15 select ]

/-- The references that stretch writes, in order. -/
abbrev WA4 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_c_4, main_call4_v14, main_v4]

theorem A4_sub : (A4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem A4_fresh : (A4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem A4_writes : (A4 : List (HloOp τ sig (Elt F))).Forall fun op => op.writes ⊆ (WA4.map (Proc.devRef (τ := τ) .tc)).toFinset :=
  ⟨wsub (y := main_call4_c) (by decide), wsub (y := main_call4_v0) (by decide), wsub (y := main_call4_v1) (by decide), wsub (y := main_call4_c_0) (by decide), wsub (y := main_call4_v2) (by decide), wsub (y := main_call4_v3) (by decide), wsub (y := main_call4_v4) (by decide), wsub (y := main_call4_v5) (by decide), wsub (y := main_call4_c_1) (by decide), wsub (y := main_call4_c_2) (by decide), wsub (y := main_call4_v6) (by decide), wsub (y := main_call4_v7) (by decide), wsub (y := main_call4_v8) (by decide), wsub (y := main_call4_v9) (by decide), wsub (y := main_call4_v10) (by decide), wsub (y := main_call4_v11) (by decide), wsub (y := main_call4_c_3) (by decide), wsub (y := main_call4_v12) (by decide), wsub (y := main_call4_v13) (by decide), wsub (y := main_call4_c_4) (by decide), wsub (y := main_call4_v14) (by decide), wsub (y := main_v4) (by decide)⟩

/-- A reference the stretch does not write keeps its contents. -/
theorem A4_keep (V : Valuation τ sig (Elt F)) {r : Ref sig .tc} (hr : r ∉ WA4) :
    after A4 V (no_index (Proc.devRef .tc r)) = V (Proc.devRef .tc r) :=
  after_of_writes_sub A4 V A4_writes hr

set_option maxHeartbeats 2000000 in
/-- What the stretch leaves at its result buffer, as a function of what it found at the buffers it reads: each
    operation's result read at its own buffer, the typed references' transports the identity at these literal references. -/
theorem A4_out (V : Valuation τ sig (Elt F)) :
    after A4 V (no_index (Proc.devRef .tc main_v4)) = Cert.Sampler.takeV (V (Proc.devRef .tc main_arg4)) (V (Proc.devRef .tc main_v0)) := by
  after_results
  rfl

/-- The twenty-two operations of the take along the last axis over call 5's buffers: temporal[b, n, spatial[b, n, s]] lands in main_v5. -/
abbrev A5 : List (HloOp τ sig (Elt F)) :=
  [
    StableHlo.TRef.nullary main_call5.c (constantI S_ 32 0#32),
    StableHlo.TRef.unary main_call5.c main_call5.v0 (broadcastInDim S2x900x8 ![] bcast_S_S2x900x8),
    StableHlo.TRef.binary (.of main_v4 : StableHlo.TRef sig ⟨S2x900x8, .i32⟩) main_call5.v0 main_call5.v1 (cmpi .slt),
    StableHlo.TRef.nullary main_call5.c_0 (constantI S_ 32 3#32),
    StableHlo.TRef.unary main_call5.c_0 main_call5.v2 (broadcastInDim S2x900x8 ![] bcast_S_S2x900x8),
    StableHlo.TRef.binary (.of main_v4 : StableHlo.TRef sig ⟨S2x900x8, .i32⟩) main_call5.v2 main_call5.v3 addi,
    StableHlo.TRef.ternary main_call5.v1 main_call5.v3 (.of main_v4 : StableHlo.TRef sig ⟨S2x900x8, .i32⟩) main_call5.v4 select,
    StableHlo.TRef.reshape main_call5.v4 main_call5.v5 rfl shapeCasts_S2x900x8_S2x900x8x1,
    StableHlo.TRef.nullary main_call5.c_1 (constantI S1 32 2#32),
    StableHlo.TRef.nullary main_call5.c_2 (constantI S_ 32 0#32),
    StableHlo.TRef.unary main_call5.c_2 main_call5.v6 (broadcastInDim S2x900x8x1 ![] bcast_S_S2x900x8x1),
    StableHlo.TRef.binary main_call5.v5 main_call5.v6 main_call5.v7 (cmpi .sge),
    StableHlo.TRef.unary main_call5.c_1 main_call5.v8 (broadcastInDim S1x1x1x1 ![3] bcast_S1_S1x1x1x1_3),
    StableHlo.TRef.unary main_call5.v8 main_call5.v9 (broadcastInDim S2x900x8x1 ![0, 1, 2, 3] bcast_S1x1x1x1_S2x900x8x1_0_1_2_3),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S2x900x8x1_S2x900x8_d3 h_S_),
    StableHlo.TRef.binary (.of main_arg3 : StableHlo.TRef sig ⟨S2x900x3, .i32⟩) main_call5.v5 main_call5.v13 (fun x i => Host.gather gather_S2x900x3_S2x900x8x1_S2x900x8_n_2_01_01_2_3_111 x i),
    StableHlo.TRef.nullary main_call5.c_4 (constantI S_ 32 2147483648#32),
    StableHlo.TRef.unary main_call5.c_4 main_call5.v14 (broadcastInDim S2x900x8 ![] bcast_S_S2x900x8),
    StableHlo.TRef.ternary main_call5.v12 main_call5.v13 main_call5.v14 main_call5.v15 select ]

/-- The references that stretch writes, in order. -/
abbrev WA5 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_c_4, main_call5_v14, main_v5]

theorem A5_sub : (A5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem A5_fresh : (A5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem A5_writes : (A5 : List (HloOp τ sig (Elt F))).Forall fun op => op.writes ⊆ (WA5.map (Proc.devRef (τ := τ) .tc)).toFinset :=
  ⟨wsub (y := main_call5_c) (by decide), wsub (y := main_call5_v0) (by decide), wsub (y := main_call5_v1) (by decide), wsub (y := main_call5_c_0) (by decide), wsub (y := main_call5_v2) (by decide), wsub (y := main_call5_v3) (by decide), wsub (y := main_call5_v4) (by decide), wsub (y := main_call5_v5) (by decide), wsub (y := main_call5_c_1) (by decide), wsub (y := main_call5_c_2) (by decide), wsub (y := main_call5_v6) (by decide), wsub (y := main_call5_v7) (by decide), wsub (y := main_call5_v8) (by decide), wsub (y := main_call5_v9) (by decide), wsub (y := main_call5_v10) (by decide), wsub (y := main_call5_v11) (by decide), wsub (y := main_call5_c_3) (by decide), wsub (y := main_call5_v12) (by decide), wsub (y := main_call5_v13) (by decide), wsub (y := main_call5_c_4) (by decide), wsub (y := main_call5_v14) (by decide), wsub (y := main_v5) (by decide)⟩

/-- A reference the stretch does not write keeps its contents. -/
theorem A5_keep (V : Valuation τ sig (Elt F)) {r : Ref sig .tc} (hr : r ∉ WA5) :
    after A5 V (no_index (Proc.devRef .tc r)) = V (Proc.devRef .tc r) :=
  after_of_writes_sub A5 V A5_writes hr

set_option maxHeartbeats 2000000 in
/-- What the stretch leaves at its result buffer, as a function of what it found at the buffers it reads: each
    operation's result read at its own buffer, the typed references' transports the identity at these literal references. -/
theorem A5_out (V : Valuation τ sig (Elt F)) :
    after A5 V (no_index (Proc.devRef .tc main_v5)) = Cert.Sampler.takeV (V (Proc.devRef .tc main_arg3)) (V (Proc.devRef .tc main_v4)) := by
  after_results
  rfl

/-- The first camera's own lines: the batch number wrapped, frame, h and w wrapped, the four columns concatenated, and the four-axis gather of the first camera array into main_v34. -/
abbrev A6 : List (HloOp τ sig (Elt F)) :=
  [
    StableHlo.nullary main_v6 (iotaInDim S2 32 0),
    StableHlo.unary main_v6 main_v7 (broadcastInDim S2x1x1 ![0] bcast_S2_S2x1x1_0 : (⟨S2, .i32⟩ : BufTy).Contents (Elt F) → (⟨S2x1x1, .i32⟩ : BufTy).Contents (Elt F)),
    StableHlo.nullary main_c_3 (constantI S_ 32 0#32),
    StableHlo.unary main_c_3 main_v8 (broadcastInDim S2x1x1 ![] bcast_S_S2x1x1 : (⟨S_, .i32⟩ : BufTy).Contents (Elt F) → (⟨S2x1x1, .i32⟩ : BufTy).Contents (Elt F)),
    StableHlo.binary main_v7 main_v8 main_v9 (cmpi .slt : (⟨S2x1x1, .i32⟩ : BufTy).Contents (Elt F) → (⟨S2x1x1, .i32⟩ : BufTy).Contents (Elt F) → (⟨S2x1x1, .i1⟩ : BufTy).Contents (Elt F)),
    StableHlo.nullary main_c_4 (constantI S_ 32 2#32),
    StableHlo.unary main_c_4 main_v10 (broadcastInDim S2x1x1 ![] bcast_S_S2x1x1 : (⟨S_, .i32⟩ : BufTy).Contents (Elt F) → (⟨S2x1x1, .i32⟩ : BufTy).Contents (Elt F)),
    StableHlo.binary main_v7 main_v10 main_v11 (addi : (⟨S2x1x1, .i32⟩ : BufTy).Contents (Elt F) → (⟨S2x1x1, .i32⟩ : BufTy).Contents (Elt F) → (⟨S2x1x1, .i32⟩ : BufTy).Contents (Elt F)),
    StableHlo.ternary main_v9 main_v11 main_v7 main_v12 (select : (⟨S2x1x1, .i1⟩ : BufTy).Contents (Elt F) → (⟨S2x1x1, .i32⟩ : BufTy).Contents (Elt F) → (⟨S2x1x1, .i32⟩ : BufTy).Contents (Elt F) → (⟨S2x1x1, .i32⟩ : BufTy).Contents (Elt F)),
    StableHlo.nullary main_c_5 (constantI S_ 32 0#32),
    StableHlo.unary main_c_5 main_v13 (broadcastInDim S2x900x8 ![] bcast_S_S2x900x8 : (⟨S_, .i32⟩ : BufTy).Contents (Elt F) → (⟨S2x900x8, .i32⟩ : BufTy).Contents (Elt F)),
    StableHlo.binary main_v5 main_v13 main_v14 (cmpi .slt : (⟨S2x900x8, .i32⟩ : BufTy).Contents (Elt F) → (⟨S2x900x8, .i32⟩ : BufTy).Contents (Elt F) → (⟨S2x900x8, .i1⟩ : BufTy).Contents (Elt F)),
    StableHlo.nullary main_c_6 (constantI S_ 32 4#32),
    StableHlo.unary main_c_6 main_v15 (broadcastInDim S2x900x8 ![] bcast_S_S2x900x8 : (⟨S_, .i32⟩ : BufTy).Contents (Elt F) → (⟨S2x900x8, .i32⟩ : BufTy).Contents (Elt F)),
    StableHlo.binary main_v5 main_v15 main_v16 (addi : (⟨S2x900x8, .i32⟩ : BufTy).Contents (Elt F) → (⟨S2x900x8, .i32⟩ : BufTy).Contents (Elt F) → (⟨S2x900x8, .i32⟩ : BufTy).Contents (Elt F)),
    StableHlo.ternary main_v14 main_v16 main_v5 main_v17 (select : (⟨S2x900x8, .i1⟩ : BufTy).Contents (Elt F) → (⟨S2x900x8, .i32⟩ : BufTy).Contents (Elt F) → (⟨S2x900x8, .i32⟩ : BufTy).Contents (Elt F) → (⟨S2x900x8, .i32⟩ : BufTy).Contents (Elt F)),
    StableHlo.nullary main_c_7 (constantI S_ 32 0#32),
    StableHlo.unary main_c_7 main_v18 (broadcastInDim S2x900x8 ![] bcast_S_S2x900x8 : (⟨S_, .i32⟩ : BufTy).Contents (Elt F) → (⟨S2x900x8, .i32⟩ : BufTy).Contents (Elt F)),
    StableHlo.binary main_v2 main_v18 main_v19 (cmpi .slt : (⟨S2x900x8, .i32⟩ : BufTy).Contents (Elt F) → (⟨S2x900x8, .i32⟩ : BufTy).Contents (Elt F) → (⟨S2x900x8, .i1⟩ : BufTy).Contents (Elt F)),
    StableHlo.nullary main_c_8 (constantI S_ 32 64#32),
    StableHlo.unary main_c_8 main_v20 (broadcastInDim S2x900x8 ![] bcast_S_S2x900x8 : (⟨S_, .i32⟩ : BufTy).Contents (Elt F) → (⟨S2x900x8, .i32⟩ : BufTy).Contents (Elt F)),
    StableHlo.binary main_v2 main_v20 main_v21 (addi : (⟨S2x900x8, .i32⟩ : BufTy).Contents (Elt F) → (⟨S2x900x8, .i32⟩ : BufTy).Contents (Elt F) → (⟨S2x900x8, .i32⟩ : BufTy).Contents (Elt F)),
    StableHlo.ternary main_v19 main_v21 main_v2 main_v22 (select : (⟨S2x900x8, .i1⟩ : BufTy).Contents (Elt F) → (⟨S2x900x8, .i32⟩ : BufTy).Contents (Elt F) → (⟨S2x900x8, .i32⟩ : BufTy).Contents (Elt F) → (⟨S2x900x8, .i32⟩ : BufTy).Contents (Elt F)),
    StableHlo.nullary main_c_9 (constantI S_ 32 0#32),
    StableHlo.unary main_c_9 main_v23 (broadcastInDim S2x900x8 ![] bcast_S_S2x900x8 : (⟨S_, .i32⟩ : BufTy).Contents (Elt F) → (⟨S2x900x8, .i32⟩ : BufTy).Contents (Elt F)),
    StableHlo.binary main_v3 main_v23 main_v24 (cmpi .slt : (⟨S2x900x8, .i32⟩ : BufTy).Contents (Elt F) → (⟨S2x900x8, .i32⟩ : BufTy).Contents (Elt F) → (⟨S2x900x8, .i1⟩ : BufTy).Contents (Elt F)),
    StableHlo.nullary main_c_10 (constantI S_ 32 176#32),
    StableHlo.unary main_c_10 main_v25 (broadcastInDim S2x900x8 ![] bcast_S_S2x900x8 : (⟨S_, .i32⟩ : BufTy).Contents (Elt F) → (⟨S2x900x8, .i32⟩ : BufTy).Contents (Elt F)),
    StableHlo.binary main_v3 main_v25 main_v26 (addi : (⟨S2x900x8, .i32⟩ : BufTy).Contents (Elt F) → (⟨S2x900x8, .i32⟩ : BufTy).Contents (Elt F) → (⟨S2x900x8, .i32⟩ : BufTy).Contents (Elt F)),
    StableHlo.ternary main_v24 main_v26 main_v3 main_v27 (select : (⟨S2x900x8, .i1⟩ : BufTy).Contents (Elt F) → (⟨S2x900x8, .i32⟩ : BufTy).Contents (Elt F) → (⟨S2x900x8, .i32⟩ : BufTy).Contents (Elt F) → (⟨S2x900x8, .i32⟩ : BufTy).Contents (Elt F)),
    StableHlo.unary main_v12 main_v28 (broadcastInDim S2x900x8 ![0, 1, 2] bcast_S2x1x1_S2x900x8_0_1_2 : (⟨S2x1x1, .i32⟩ : BufTy).Contents (Elt F) → (⟨S2x900x8, .i32⟩ : BufTy).Contents (Elt F)),
    StableHlo.unary main_v28 main_v29 (broadcastInDim S2x900x8x1 ![0, 1, 2] bcast_S2x900x8_S2x900x8x1_0_1_2 : (⟨S2x900x8, .i32⟩ : BufTy).Contents (Elt F) → (⟨S2x900x8x1, .i32⟩ : BufTy).Contents (Elt F)),
    StableHlo.unary main_v17 main_v30 (broadcastInDim S2x900x8x1 ![0, 1, 2] bcast_S2x900x8_S2x900x8x1_0_1_2 : (⟨S2x900x8, .i32⟩ : BufTy).Contents (Elt F) → (⟨S2x900x8x1, .i32⟩ : BufTy).Contents (Elt F)),
    StableHlo.unary main_v22 main_v31 (broadcastInDim S2x900x8x1 ![0, 1, 2] bcast_S2x900x8_S2x900x8x1_0_1_2 : (⟨S2x900x8, .i32⟩ : BufTy).Contents (Elt F) → (⟨S2x900x8x1, .i32⟩ : BufTy).Contents (Elt F)),
    StableHlo.unary main_v27 main_v32 (broadcastInDim S2x900x8x1 ![0, 1, 2] bcast_S2x900x8_S2x900x8x1_0_1_2 : (⟨S2x900x8, .i32⟩ : BufTy).Contents (Elt F) → (⟨S2x900x8x1, .i32⟩ : BufTy).Contents (Elt F)),
    StableHlo.nary ![main_v29, main_v30, main_v31, main_v32] main_v33 (fun u => concatenate S2x900x8x4 3 [⟨S2x900x8x1, u 0⟩, ⟨S2x900x8x1, u 1⟩, ⟨S2x900x8x1, u 2⟩, ⟨S2x900x8x1, u 3⟩] concatenates_S2x900x8x1_S2x900x8x1_S2x900x8x1_S2x900x8x1_S2x900x8x4_d3),
    StableHlo.binary main_arg0 main_v33 main_v34 ((fun x i => Host.gather gather_S2x4x256x64x176_S2x900x8x4_S2x900x8x256_3_0134_n_n_0134_3_1125611 x i) : (⟨S2x4x256x64x176, .f32⟩ : BufTy).Contents (Elt F) → (⟨S2x900x8x4, .i32⟩ : BufTy).Contents (Elt F) → (⟨S2x900x8x256, .f32⟩ : BufTy).Contents (Elt F)) ]

/-- The references that stretch writes, in order. -/
abbrev WA6 : List (Ref sig .tc) := [main_v6, main_v7, main_c_3, main_v8, main_v9, main_c_4, main_v10, main_v11, main_v12, main_c_5, main_v13, main_v14, main_c_6, main_v15, main_v16, main_v17, main_c_7, main_v18, main_v19, main_c_8, main_v20, main_v21, main_v22, main_c_9, main_v23, main_v24, main_c_10, main_v25, main_v26, main_v27, main_v28, main_v29, main_v30, main_v31, main_v32, main_v33, main_v34]

theorem A6_sub : (A6 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., binary_bufs_sub ..⟩

theorem A6_fresh : (A6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem A6_writes : (A6 : List (HloOp τ sig (Elt F))).Forall fun op => op.writes ⊆ (WA6.map (Proc.devRef (τ := τ) .tc)).toFinset :=
  ⟨wsub (y := main_v6) (by decide), wsub (y := main_v7) (by decide), wsub (y := main_c_3) (by decide), wsub (y := main_v8) (by decide), wsub (y := main_v9) (by decide), wsub (y := main_c_4) (by decide), wsub (y := main_v10) (by decide), wsub (y := main_v11) (by decide), wsub (y := main_v12) (by decide), wsub (y := main_c_5) (by decide), wsub (y := main_v13) (by decide), wsub (y := main_v14) (by decide), wsub (y := main_c_6) (by decide), wsub (y := main_v15) (by decide), wsub (y := main_v16) (by decide), wsub (y := main_v17) (by decide), wsub (y := main_c_7) (by decide), wsub (y := main_v18) (by decide), wsub (y := main_v19) (by decide), wsub (y := main_c_8) (by decide), wsub (y := main_v20) (by decide), wsub (y := main_v21) (by decide), wsub (y := main_v22) (by decide), wsub (y := main_c_9) (by decide), wsub (y := main_v23) (by decide), wsub (y := main_v24) (by decide), wsub (y := main_c_10) (by decide), wsub (y := main_v25) (by decide), wsub (y := main_v26) (by decide), wsub (y := main_v27) (by decide), wsub (y := main_v28) (by decide), wsub (y := main_v29) (by decide), wsub (y := main_v30) (by decide), wsub (y := main_v31) (by decide), wsub (y := main_v32) (by decide), wsub (y := main_v33) (by decide), wsub (y := main_v34) (by decide)⟩

/-- A reference the stretch does not write keeps its contents. -/
theorem A6_keep (V : Valuation τ sig (Elt F)) {r : Ref sig .tc} (hr : r ∉ WA6) :
    after A6 V (no_index (Proc.devRef .tc r)) = V (Proc.devRef .tc r) :=
  after_of_writes_sub A6 V A6_writes hr

set_option maxHeartbeats 2000000 in
/-- What the stretch leaves at its result buffer, as a function of what it found at the buffers it reads: each
    operation's result read at its own buffer, the typed references' transports the identity at these literal references. -/
theorem A6_out (V : Valuation τ sig (Elt F)) :
    after A6 V (no_index (Proc.devRef .tc main_v34)) = Host.gather Cert.Sampler.gCam (V (Proc.devRef .tc main_arg0)) (idxOf (V (Proc.devRef .tc main_v5)) (V (Proc.devRef .tc main_v2)) (V (Proc.devRef .tc main_v3))) := by
  after_results
  rfl

/-- The second camera's copy of the first stretch, over call 6's buffers: s lands in main_v35. -/
abbrev B0 : List (HloOp τ sig (Elt F)) :=
  [
    StableHlo.nullary main_c_11 (constantI S_ 32 33792#32),
    StableHlo.TRef.unary (.of main_c_11 : StableHlo.TRef sig ⟨S_, .i32⟩) main_call6.v0 id,
    StableHlo.TRef.unary main_call6.v0 main_call6.v1 (broadcastInDim S2x900x8 ![] bcast_S_S2x900x8),
    StableHlo.TRef.binary (.of main_arg5 : StableHlo.TRef sig ⟨S2x900x8, .i32⟩) main_call6.v1 main_call6.v2 Host.divsi,
    StableHlo.TRef.unary (.of main_arg5 : StableHlo.TRef sig ⟨S2x900x8, .i32⟩) main_call6.v3 signi,
    StableHlo.TRef.unary main_call6.v0 main_call6.v4 signi,
    StableHlo.TRef.unary main_call6.v4 main_call6.v5 (broadcastInDim S2x900x8 ![] bcast_S_S2x900x8),
    StableHlo.TRef.binary main_call6.v3 main_call6.v5 main_call6.v6 (cmpi .ne),
    StableHlo.TRef.unary main_call6.v0 main_call6.v7 (broadcastInDim S2x900x8 ![] bcast_S_S2x900x8),
    StableHlo.TRef.binary (.of main_arg5 : StableHlo.TRef sig ⟨S2x900x8, .i32⟩) main_call6.v7 main_call6.v8 Host.remsi,
    StableHlo.TRef.nullary main_call6.c (constantI S_ 32 0#32),
    StableHlo.TRef.unary main_call6.c main_call6.v9 (broadcastInDim S2x900x8 ![] bcast_S_S2x900x8),
    StableHlo.TRef.binary main_call6.v8 main_call6.v9 main_call6.v10 (cmpi .ne),
    StableHlo.TRef.binary main_call6.v6 main_call6.v10 main_call6.v11 andi,
    StableHlo.TRef.nullary main_call6.c_0 (constantI S_ 32 1#32),
    StableHlo.TRef.unary main_call6.c_0 main_call6.v12 (broadcastInDim S2x900x8 ![] bcast_S_S2x900x8),
    StableHlo.TRef.binary main_call6.v2 main_call6.v12 main_call6.v13 subi,
    StableHlo.TRef.ternary main_call6.v11 main_call6.v13 main_call6.v2 main_call6.call0.v0 select ]

/-- The references that stretch writes, in order. -/
abbrev WB0 : List (Ref sig .tc) := [main_c_11, main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v35]

theorem B0_sub : (B0 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem B0_fresh : (B0 : List (HloOp τ sig (Elt F))).Forall fun op => op.fresh = ∅ :=
  ⟨rfl, rfl, rfl, rfl, rfl, rfl, rfl, rfl, rfl, rfl, rfl, rfl, rfl, rfl, rfl, rfl, rfl, rfl⟩

theorem B0_writes : (B0 : List (HloOp τ sig (Elt F))).Forall fun op => op.writes ⊆ (WB0.map (Proc.devRef (τ := τ) .tc)).toFinset :=
  ⟨wsub (y := main_c_11) (by decide), wsub (y := main_call6_v0) (by decide), wsub (y := main_call6_v1) (by decide), wsub (y := main_call6_v2) (by decide), wsub (y := main_call6_v3) (by decide), wsub (y := main_call6_v4) (by decide), wsub (y := main_call6_v5) (by decide), wsub (y := main_call6_v6) (by decide), wsub (y := main_call6_v7) (by decide), wsub (y := main_call6_v8) (by decide), wsub (y := main_call6_c) (by decide), wsub (y := main_call6_v9) (by decide), wsub (y := main_call6_v10) (by decide), wsub (y := main_call6_v11) (by decide), wsub (y := main_call6_c_0) (by decide), wsub (y := main_call6_v12) (by decide), wsub (y := main_call6_v13) (by decide), wsub (y := main_v35) (by decide)⟩

/-- A reference the stretch does not write keeps its contents. -/
theorem B0_keep (V : Valuation τ sig (Elt F)) {r : Ref sig .tc} (hr : r ∉ WB0) :
    after B0 V (no_index (Proc.devRef .tc r)) = V (Proc.devRef .tc r) :=
  after_of_writes_sub B0 V B0_writes hr

set_option maxHeartbeats 2000000 in
/-- What the stretch leaves at its result buffer, as a function of what it found at the buffers it reads: each
    operation's result read at its own buffer, the typed references' transports the identity at these literal references. -/
theorem B0_out (V : Valuation τ sig (Elt F)) :
    after B0 V (no_index (Proc.devRef .tc main_v35)) = Cert.Sampler.sV (V (Proc.devRef .tc main_arg5)) := by
  after_results
  rfl

/-- The second camera's copy of the second stretch, over call 7's buffers: p mod (64·176) lands in main_v36. -/
abbrev B1 : List (HloOp τ sig (Elt F)) :=
  [
    StableHlo.nullary main_c_12 (constantI S_ 32 11264#32),
    StableHlo.TRef.unary (.of main_c_12 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S2x900x8 ![] bcast_S_S2x900x8),
    StableHlo.TRef.binary (.of main_arg5 : StableHlo.TRef sig ⟨S2x900x8, .i32⟩) main_call7.v3 main_call7.v4 Host.remsi,
    StableHlo.TRef.nullary main_call7.c_1 (constantI S_ 32 0#32),
    StableHlo.TRef.unary main_call7.c_1 main_call7.v5 (broadcastInDim S2x900x8 ![] bcast_S_S2x900x8),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S2x900x8 ![] bcast_S_S2x900x8),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S2x900x8 ![] bcast_S_S2x900x8),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S2x900x8 ![] bcast_S_S2x900x8),
    StableHlo.TRef.binary main_call7.v4 main_call7.v13 main_call7.v14 addi,
    StableHlo.TRef.ternary main_call7.v12 main_call7.v14 main_call7.v4 main_call7.v15 select ]

/-- The references that stretch writes, in order. -/
abbrev WB1 : List (Ref sig .tc) := [main_c_12, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v36]

theorem B1_sub : (B1 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem B1_fresh : (B1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem B1_writes : (B1 : List (HloOp τ sig (Elt F))).Forall fun op => op.writes ⊆ (WB1.map (Proc.devRef (τ := τ) .tc)).toFinset :=
  ⟨wsub (y := main_c_12) (by decide), wsub (y := main_call7_v0) (by decide), wsub (y := main_call7_c) (by decide), wsub (y := main_call7_v1) (by decide), wsub (y := main_call7_c_0) (by decide), wsub (y := main_call7_v2) (by decide), wsub (y := main_call7_v3) (by decide), wsub (y := main_call7_v4) (by decide), wsub (y := main_call7_c_1) (by decide), wsub (y := main_call7_v5) (by decide), wsub (y := main_call7_v6) (by decide), wsub (y := main_call7_c_2) (by decide), wsub (y := main_call7_v7) (by decide), wsub (y := main_call7_v8) (by decide), wsub (y := main_call7_c_3) (by decide), wsub (y := main_call7_v9) (by decide), wsub (y := main_call7_v10) (by decide), wsub (y := main_call7_v11) (by decide), wsub (y := main_call7_v12) (by decide), wsub (y := main_call7_v13) (by decide), wsub (y := main_call7_v14) (by decide), wsub (y := main_v36) (by decide)⟩

/-- A reference the stretch does not write keeps its contents. -/
theorem B1_keep (V : Valuation τ sig (Elt F)) {r : Ref sig .tc} (hr : r ∉ WB1) :
    after B1 V (no_index (Proc.devRef .tc r)) = V (Proc.devRef .tc r) :=
  after_of_writes_sub B1 V B1_writes hr

set_option maxHeartbeats 2000000 in
/-- What the stretch leaves at its result buffer, as a function of what it found at the buffers it reads: each
    operation's result read at its own buffer, the typed references' transports the identity at these literal references. -/
theorem B1_out (V : Valuation τ sig (Elt F)) :
    after B1 V (no_index (Proc.devRef .tc main_v36)) = Cert.Sampler.remHW (V (Proc.devRef .tc main_arg5)) := by
  after_results
  rfl

/-- The second camera's copy of the third stretch, over call 8's buffers: h lands in main_v37. -/
abbrev B2 : List (HloOp τ sig (Elt F)) :=
  [
    StableHlo.nullary main_c_13 (constantI S_ 32 176#32),
    StableHlo.TRef.unary (.of main_c_13 : StableHlo.TRef sig ⟨S_, .i32⟩) main_call8.v0 id,
    StableHlo.TRef.unary main_call8.v0 main_call8.v1 (broadcastInDim S2x900x8 ![] bcast_S_S2x900x8),
    StableHlo.TRef.binary (.of main_v36 : StableHlo.TRef sig ⟨S2x900x8, .i32⟩) main_call8.v1 main_call8.v2 Host.divsi,
    StableHlo.TRef.unary (.of main_v36 : StableHlo.TRef sig ⟨S2x900x8, .i32⟩) main_call8.v3 signi,
    StableHlo.TRef.unary main_call8.v0 main_call8.v4 signi,
    StableHlo.TRef.unary main_call8.v4 main_call8.v5 (broadcastInDim S2x900x8 ![] bcast_S_S2x900x8),
    StableHlo.TRef.binary main_call8.v3 main_call8.v5 main_call8.v6 (cmpi .ne),
    StableHlo.TRef.unary main_call8.v0 main_call8.v7 (broadcastInDim S2x900x8 ![] bcast_S_S2x900x8),
    StableHlo.TRef.binary (.of main_v36 : StableHlo.TRef sig ⟨S2x900x8, .i32⟩) main_call8.v7 main_call8.v8 Host.remsi,
    StableHlo.TRef.nullary main_call8.c (constantI S_ 32 0#32),
    StableHlo.TRef.unary main_call8.c main_call8.v9 (broadcastInDim S2x900x8 ![] bcast_S_S2x900x8),
    StableHlo.TRef.binary main_call8.v8 main_call8.v9 main_call8.v10 (cmpi .ne),
    StableHlo.TRef.binary main_call8.v6 main_call8.v10 main_call8.v11 andi,
    StableHlo.TRef.nullary main_call8.c_0 (constantI S_ 32 1#32),
    StableHlo.TRef.unary main_call8.c_0 main_call8.v12 (broadcastInDim S2x900x8 ![] bcast_S_S2x900x8),
    StableHlo.TRef.binary main_call8.v2 main_call8.v12 main_call8.v13 subi,
    StableHlo.TRef.ternary main_call8.v11 main_call8.v13 main_call8.v2 main_call8.call0.v0 select ]

/-- The references that stretch writes, in order. -/
abbrev WB2 : List (Ref sig .tc) := [main_c_13, main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v37]

theorem B2_sub : (B2 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem B2_fresh : (B2 : List (HloOp τ sig (Elt F))).Forall fun op => op.fresh = ∅ :=
  ⟨rfl, rfl, rfl, rfl, rfl, rfl, rfl, rfl, rfl, rfl, rfl, rfl, rfl, rfl, rfl, rfl, rfl, rfl⟩

theorem B2_writes : (B2 : List (HloOp τ sig (Elt F))).Forall fun op => op.writes ⊆ (WB2.map (Proc.devRef (τ := τ) .tc)).toFinset :=
  ⟨wsub (y := main_c_13) (by decide), wsub (y := main_call8_v0) (by decide), wsub (y := main_call8_v1) (by decide), wsub (y := main_call8_v2) (by decide), wsub (y := main_call8_v3) (by decide), wsub (y := main_call8_v4) (by decide), wsub (y := main_call8_v5) (by decide), wsub (y := main_call8_v6) (by decide), wsub (y := main_call8_v7) (by decide), wsub (y := main_call8_v8) (by decide), wsub (y := main_call8_c) (by decide), wsub (y := main_call8_v9) (by decide), wsub (y := main_call8_v10) (by decide), wsub (y := main_call8_v11) (by decide), wsub (y := main_call8_c_0) (by decide), wsub (y := main_call8_v12) (by decide), wsub (y := main_call8_v13) (by decide), wsub (y := main_v37) (by decide)⟩

/-- A reference the stretch does not write keeps its contents. -/
theorem B2_keep (V : Valuation τ sig (Elt F)) {r : Ref sig .tc} (hr : r ∉ WB2) :
    after B2 V (no_index (Proc.devRef .tc r)) = V (Proc.devRef .tc r) :=
  after_of_writes_sub B2 V B2_writes hr

set_option maxHeartbeats 2000000 in
/-- What the stretch leaves at its result buffer, as a function of what it found at the buffers it reads: each
    operation's result read at its own buffer, the typed references' transports the identity at these literal references. -/
theorem B2_out (V : Valuation τ sig (Elt F)) :
    after B2 V (no_index (Proc.devRef .tc main_v37)) = Cert.Sampler.floorDivV 176#32 (V (Proc.devRef .tc main_v36)) := by
  after_results
  rfl

/-- The second camera's copy of the fourth stretch, over call 9's buffers: w lands in main_v38. -/
abbrev B3 : List (HloOp τ sig (Elt F)) :=
  [
    StableHlo.nullary main_c_14 (constantI S_ 32 176#32),
    StableHlo.TRef.unary (.of main_c_14 : StableHlo.TRef sig ⟨S_, .i32⟩) main_call9.v0 id,
    StableHlo.TRef.nullary main_call9.c (constantI S_ 32 0#32),
    StableHlo.TRef.binary main_call9.v0 main_call9.c main_call9.v1 (cmpi .eq),
    StableHlo.TRef.nullary main_call9.c_0 (constantI S_ 32 1#32),
    StableHlo.TRef.ternary main_call9.v1 main_call9.c_0 main_call9.v0 main_call9.call0.v0 select,
    StableHlo.TRef.unary main_call9.call0.v0 main_call9.v3 (broadcastInDim S2x900x8 ![] bcast_S_S2x900x8),
    StableHlo.TRef.binary (.of main_v36 : StableHlo.TRef sig ⟨S2x900x8, .i32⟩) main_call9.v3 main_call9.v4 Host.remsi,
    StableHlo.TRef.nullary main_call9.c_1 (constantI S_ 32 0#32),
    StableHlo.TRef.unary main_call9.c_1 main_call9.v5 (broadcastInDim S2x900x8 ![] bcast_S_S2x900x8),
    StableHlo.TRef.binary main_call9.v4 main_call9.v5 main_call9.v6 (cmpi .ne),
    StableHlo.TRef.nullary main_call9.c_2 (constantI S_ 32 0#32),
    StableHlo.TRef.unary main_call9.c_2 main_call9.v7 (broadcastInDim S2x900x8 ![] bcast_S_S2x900x8),
    StableHlo.TRef.binary main_call9.v4 main_call9.v7 main_call9.v8 (cmpi .slt),
    StableHlo.TRef.nullary main_call9.c_3 (constantI S_ 32 0#32),
    StableHlo.TRef.binary main_call9.call0.v0 main_call9.c_3 main_call9.v9 (cmpi .slt),
    StableHlo.TRef.unary main_call9.v9 main_call9.v10 (broadcastInDim S2x900x8 ![] bcast_S_S2x900x8),
    StableHlo.TRef.binary main_call9.v8 main_call9.v10 main_call9.v11 (cmpi .ne),
    StableHlo.TRef.binary main_call9.v11 main_call9.v6 main_call9.v12 andi,
    StableHlo.TRef.unary main_call9.call0.v0 main_call9.v13 (broadcastInDim S2x900x8 ![] bcast_S_S2x900x8),
    StableHlo.TRef.binary main_call9.v4 main_call9.v13 main_call9.v14 addi,
    StableHlo.TRef.ternary main_call9.v12 main_call9.v14 main_call9.v4 main_call9.v15 select ]

/-- The references that stretch writes, in order. -/
abbrev WB3 : List (Ref sig .tc) := [main_c_14, main_call9_v0, main_call9_c, main_call9_v1, main_call9_c_0, main_call9_v2, main_call9_v3, main_call9_v4, main_call9_c_1, main_call9_v5, main_call9_v6, main_call9_c_2, main_call9_v7, main_call9_v8, main_call9_c_3, main_call9_v9, main_call9_v10, main_call9_v11, main_call9_v12, main_call9_v13, main_call9_v14, main_v38]

theorem B3_sub : (B3 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem B3_fresh : (B3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem B3_writes : (B3 : List (HloOp τ sig (Elt F))).Forall fun op => op.writes ⊆ (WB3.map (Proc.devRef (τ := τ) .tc)).toFinset :=
  ⟨wsub (y := main_c_14) (by decide), wsub (y := main_call9_v0) (by decide), wsub (y := main_call9_c) (by decide), wsub (y := main_call9_v1) (by decide), wsub (y := main_call9_c_0) (by decide), wsub (y := main_call9_v2) (by decide), wsub (y := main_call9_v3) (by decide), wsub (y := main_call9_v4) (by decide), wsub (y := main_call9_c_1) (by decide), wsub (y := main_call9_v5) (by decide), wsub (y := main_call9_v6) (by decide), wsub (y := main_call9_c_2) (by decide), wsub (y := main_call9_v7) (by decide), wsub (y := main_call9_v8) (by decide), wsub (y := main_call9_c_3) (by decide), wsub (y := main_call9_v9) (by decide), wsub (y := main_call9_v10) (by decide), wsub (y := main_call9_v11) (by decide), wsub (y := main_call9_v12) (by decide), wsub (y := main_call9_v13) (by decide), wsub (y := main_call9_v14) (by decide), wsub (y := main_v38) (by decide)⟩

/-- A reference the stretch does not write keeps its contents. -/
theorem B3_keep (V : Valuation τ sig (Elt F)) {r : Ref sig .tc} (hr : r ∉ WB3) :
    after B3 V (no_index (Proc.devRef .tc r)) = V (Proc.devRef .tc r) :=
  after_of_writes_sub B3 V B3_writes hr

set_option maxHeartbeats 2000000 in
/-- What the stretch leaves at its result buffer, as a function of what it found at the buffers it reads: each
    operation's result read at its own buffer, the typed references' transports the identity at these literal references. -/
theorem B3_out (V : Valuation τ sig (Elt F)) :
    after B3 V (no_index (Proc.devRef .tc main_v38)) = Cert.Sampler.remV 176#32 (V (Proc.devRef .tc main_v36)) := by
  after_results
  rfl

/-- The second camera's copy of the fifth stretch, over call 10's buffers: spatial[b, n, s] lands in main_v39. -/
abbrev B4 : List (HloOp τ sig (Elt F)) :=
  [
    StableHlo.TRef.nullary main_call10.c (constantI S_ 32 0#32),
    StableHlo.TRef.unary main_call10.c main_call10.v0 (broadcastInDim S2x900x8 ![] bcast_S_S2x900x8),
    StableHlo.TRef.binary (.of main_v35 : StableHlo.TRef sig ⟨S2x900x8, .i32⟩) main_call10.v0 main_call10.v1 (cmpi .slt),
    StableHlo.TRef.nullary main_call10.c_0 (constantI S_ 32 3#32),
    StableHlo.TRef.unary main_call10.c_0 main_call10.v2 (broadcastInDim S2x900x8 ![] bcast_S_S2x900x8),
    StableHlo.TRef.binary (.of main_v35 : StableHlo.TRef sig ⟨S2x900x8, .i32⟩) main_call10.v2 main_call10.v3 addi,
    StableHlo.TRef.ternary main_call10.v1 main_call10.v3 (.of main_v35 : StableHlo.TRef sig ⟨S2x900x8, .i32⟩) main_call10.v4 select,
    StableHlo.TRef.reshape main_call10.v4 main_call10.v5 rfl shapeCasts_S2x900x8_S2x900x8x1,
    StableHlo.TRef.nullary main_call10.c_1 (constantI S1 32 2#32),
    StableHlo.TRef.nullary main_call10.c_2 (constantI S_ 32 0#32),
    StableHlo.TRef.unary main_call10.c_2 main_call10.v6 (broadcastInDim S2x900x8x1 ![] bcast_S_S2x900x8x1),
    StableHlo.TRef.binary main_call10.v5 main_call10.v6 main_call10.v7 (cmpi .sge),
    StableHlo.TRef.unary main_call10.c_1 main_call10.v8 (broadcastInDim S1x1x1x1 ![3] bcast_S1_S1x1x1x1_3),
    StableHlo.TRef.unary main_call10.v8 main_call10.v9 (broadcastInDim S2x900x8x1 ![0, 1, 2, 3] bcast_S1x1x1x1_S2x900x8x1_0_1_2_3),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S2x900x8x1_S2x900x8_d3 h_S_),
    StableHlo.TRef.binary (.of main_arg4 : StableHlo.TRef sig ⟨S2x900x3, .i32⟩) main_call10.v5 main_call10.v13 (fun x i => Host.gather gather_S2x900x3_S2x900x8x1_S2x900x8_n_2_01_01_2_3_111 x i),
    StableHlo.TRef.nullary main_call10.c_4 (constantI S_ 32 2147483648#32),
    StableHlo.TRef.unary main_call10.c_4 main_call10.v14 (broadcastInDim S2x900x8 ![] bcast_S_S2x900x8),
    StableHlo.TRef.ternary main_call10.v12 main_call10.v13 main_call10.v14 main_call10.v15 select ]

/-- The references that stretch writes, in order. -/
abbrev WB4 : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_c_4, main_call10_v14, main_v39]

theorem B4_sub : (B4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem B4_fresh : (B4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem B4_writes : (B4 : List (HloOp τ sig (Elt F))).Forall fun op => op.writes ⊆ (WB4.map (Proc.devRef (τ := τ) .tc)).toFinset :=
  ⟨wsub (y := main_call10_c) (by decide), wsub (y := main_call10_v0) (by decide), wsub (y := main_call10_v1) (by decide), wsub (y := main_call10_c_0) (by decide), wsub (y := main_call10_v2) (by decide), wsub (y := main_call10_v3) (by decide), wsub (y := main_call10_v4) (by decide), wsub (y := main_call10_v5) (by decide), wsub (y := main_call10_c_1) (by decide), wsub (y := main_call10_c_2) (by decide), wsub (y := main_call10_v6) (by decide), wsub (y := main_call10_v7) (by decide), wsub (y := main_call10_v8) (by decide), wsub (y := main_call10_v9) (by decide), wsub (y := main_call10_v10) (by decide), wsub (y := main_call10_v11) (by decide), wsub (y := main_call10_c_3) (by decide), wsub (y := main_call10_v12) (by decide), wsub (y := main_call10_v13) (by decide), wsub (y := main_call10_c_4) (by decide), wsub (y := main_call10_v14) (by decide), wsub (y := main_v39) (by decide)⟩

/-- A reference the stretch does not write keeps its contents. -/
theorem B4_keep (V : Valuation τ sig (Elt F)) {r : Ref sig .tc} (hr : r ∉ WB4) :
    after B4 V (no_index (Proc.devRef .tc r)) = V (Proc.devRef .tc r) :=
  after_of_writes_sub B4 V B4_writes hr

set_option maxHeartbeats 2000000 in
/-- What the stretch leaves at its result buffer, as a function of what it found at the buffers it reads: each
    operation's result read at its own buffer, the typed references' transports the identity at these literal references. -/
theorem B4_out (V : Valuation τ sig (Elt F)) :
    after B4 V (no_index (Proc.devRef .tc main_v39)) = Cert.Sampler.takeV (V (Proc.devRef .tc main_arg4)) (V (Proc.devRef .tc main_v35)) := by
  after_results
  rfl

/-- The second camera's copy of the sixth stretch, over call 11's buffers: the frame lands in main_v40. -/
abbrev B5 : List (HloOp τ sig (Elt F)) :=
  [
    StableHlo.TRef.nullary main_call11.c (constantI S_ 32 0#32),
    StableHlo.TRef.unary main_call11.c main_call11.v0 (broadcastInDim S2x900x8 ![] bcast_S_S2x900x8),
    StableHlo.TRef.binary (.of main_v39 : StableHlo.TRef sig ⟨S2x900x8, .i32⟩) main_call11.v0 main_call11.v1 (cmpi .slt),
    StableHlo.TRef.nullary main_call11.c_0 (constantI S_ 32 3#32),
    StableHlo.TRef.unary main_call11.c_0 main_call11.v2 (broadcastInDim S2x900x8 ![] bcast_S_S2x900x8),
    StableHlo.TRef.binary (.of main_v39 : StableHlo.TRef sig ⟨S2x900x8, .i32⟩) main_call11.v2 main_call11.v3 addi,
    StableHlo.TRef.ternary main_call11.v1 main_call11.v3 (.of main_v39 : StableHlo.TRef sig ⟨S2x900x8, .i32⟩) main_call11.v4 select,
    StableHlo.TRef.reshape main_call11.v4 main_call11.v5 rfl shapeCasts_S2x900x8_S2x900x8x1,
    StableHlo.TRef.nullary main_call11.c_1 (constantI S1 32 2#32),
    StableHlo.TRef.nullary main_call11.c_2 (constantI S_ 32 0#32),
    StableHlo.TRef.unary main_call11.c_2 main_call11.v6 (broadcastInDim S2x900x8x1 ![] bcast_S_S2x900x8x1),
    StableHlo.TRef.binary main_call11.v5 main_call11.v6 main_call11.v7 (cmpi .sge),
    StableHlo.TRef.unary main_call11.c_1 main_call11.v8 (broadcastInDim S1x1x1x1 ![3] bcast_S1_S1x1x1x1_3),
    StableHlo.TRef.unary main_call11.v8 main_call11.v9 (broadcastInDim S2x900x8x1 ![0, 1, 2, 3] bcast_S1x1x1x1_S2x900x8x1_0_1_2_3),
    StableHlo.TRef.binary main_call11.v5 main_call11.v9 main_call11.v10 (cmpi .sle),
    StableHlo.TRef.binary main_call11.v7 main_call11.v10 main_call11.v11 andi,
    StableHlo.TRef.nullary main_call11.c_3 (constantI S_ 1 1#1),
    StableHlo.TRef.binary main_call11.v11 main_call11.c_3 main_call11.v12 (fun x v => Host.reduce IntOp.andi x v reducesTo_S2x900x8x1_S2x900x8_d3 h_S_),
    StableHlo.TRef.binary (.of main_arg3 : StableHlo.TRef sig ⟨S2x900x3, .i32⟩) main_call11.v5 main_call11.v13 (fun x i => Host.gather gather_S2x900x3_S2x900x8x1_S2x900x8_n_2_01_01_2_3_111 x i),
    StableHlo.TRef.nullary main_call11.c_4 (constantI S_ 32 2147483648#32),
    StableHlo.TRef.unary main_call11.c_4 main_call11.v14 (broadcastInDim S2x900x8 ![] bcast_S_S2x900x8),
    StableHlo.TRef.ternary main_call11.v12 main_call11.v13 main_call11.v14 main_call11.v15 select ]

/-- The references that stretch writes, in order. -/
abbrev WB5 : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_c_4, main_call11_v14, main_v40]

theorem B5_sub : (B5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem B5_fresh : (B5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem B5_writes : (B5 : List (HloOp τ sig (Elt F))).Forall fun op => op.writes ⊆ (WB5.map (Proc.devRef (τ := τ) .tc)).toFinset :=
  ⟨wsub (y := main_call11_c) (by decide), wsub (y := main_call11_v0) (by decide), wsub (y := main_call11_v1) (by decide), wsub (y := main_call11_c_0) (by decide), wsub (y := main_call11_v2) (by decide), wsub (y := main_call11_v3) (by decide), wsub (y := main_call11_v4) (by decide), wsub (y := main_call11_v5) (by decide), wsub (y := main_call11_c_1) (by decide), wsub (y := main_call11_c_2) (by decide), wsub (y := main_call11_v6) (by decide), wsub (y := main_call11_v7) (by decide), wsub (y := main_call11_v8) (by decide), wsub (y := main_call11_v9) (by decide), wsub (y := main_call11_v10) (by decide), wsub (y := main_call11_v11) (by decide), wsub (y := main_call11_c_3) (by decide), wsub (y := main_call11_v12) (by decide), wsub (y := main_call11_v13) (by decide), wsub (y := main_call11_c_4) (by decide), wsub (y := main_call11_v14) (by decide), wsub (y := main_v40) (by decide)⟩

/-- A reference the stretch does not write keeps its contents. -/
theorem B5_keep (V : Valuation τ sig (Elt F)) {r : Ref sig .tc} (hr : r ∉ WB5) :
    after B5 V (no_index (Proc.devRef .tc r)) = V (Proc.devRef .tc r) :=
  after_of_writes_sub B5 V B5_writes hr

set_option maxHeartbeats 2000000 in
/-- What the stretch leaves at its result buffer, as a function of what it found at the buffers it reads: each
    operation's result read at its own buffer, the typed references' transports the identity at these literal references. -/
theorem B5_out (V : Valuation τ sig (Elt F)) :
    after B5 V (no_index (Proc.devRef .tc main_v40)) = Cert.Sampler.takeV (V (Proc.devRef .tc main_arg3)) (V (Proc.devRef .tc main_v39)) := by
  after_results
  rfl

/-- The first three of the second camera's own lines (the batch iota, its column, the constant zero), which close @main's first window. -/
abbrev B6a : List (HloOp τ sig (Elt F)) :=
  [
    StableHlo.nullary main_v41 (iotaInDim S2 32 0),
    StableHlo.unary main_v41 main_v42 (broadcastInDim S2x1x1 ![0] bcast_S2_S2x1x1_0 : (⟨S2, .i32⟩ : BufTy).Contents (Elt F) → (⟨S2x1x1, .i32⟩ : BufTy).Contents (Elt F)),
    StableHlo.nullary main_c_15 (constantI S_ 32 0#32) ]

/-- The references that stretch writes, in order. -/
abbrev WB6a : List (Ref sig .tc) := [main_v41, main_v42, main_c_15]

theorem B6a_sub : (B6a : List (HloOp τ sig (Elt F))).Forall fun op => op.bufs ⊆ tcRefs τ sig :=
  ⟨nullary_bufs_sub .., unary_bufs_sub .., nullary_bufs_sub ..⟩

theorem B6a_fresh : (B6a : List (HloOp τ sig (Elt F))).Forall fun op => op.fresh = ∅ :=
  ⟨rfl, rfl, rfl⟩

theorem B6a_writes : (B6a : List (HloOp τ sig (Elt F))).Forall fun op => op.writes ⊆ (WB6a.map (Proc.devRef (τ := τ) .tc)).toFinset :=
  ⟨wsub (y := main_v41) (by decide), wsub (y := main_v42) (by decide), wsub (y := main_c_15) (by decide)⟩

/-- A reference the stretch does not write keeps its contents. -/
theorem B6a_keep (V : Valuation τ sig (Elt F)) {r : Ref sig .tc} (hr : r ∉ WB6a) :
    after B6a V (no_index (Proc.devRef .tc r)) = V (Proc.devRef .tc r) :=
  after_of_writes_sub B6a V B6a_writes hr

/-- The rest of the second camera's own lines: the wraps, the four columns concatenated, and the four-axis gather of the second camera array into main_v69. -/
abbrev B6b : List (HloOp τ sig (Elt F)) :=
  [
    StableHlo.unary main_c_15 main_v43 (broadcastInDim S2x1x1 ![] bcast_S_S2x1x1 : (⟨S_, .i32⟩ : BufTy).Contents (Elt F) → (⟨S2x1x1, .i32⟩ : BufTy).Contents (Elt F)),
    StableHlo.binary main_v42 main_v43 main_v44 (cmpi .slt : (⟨S2x1x1, .i32⟩ : BufTy).Contents (Elt F) → (⟨S2x1x1, .i32⟩ : BufTy).Contents (Elt F) → (⟨S2x1x1, .i1⟩ : BufTy).Contents (Elt F)),
    StableHlo.nullary main_c_16 (constantI S_ 32 2#32),
    StableHlo.unary main_c_16 main_v45 (broadcastInDim S2x1x1 ![] bcast_S_S2x1x1 : (⟨S_, .i32⟩ : BufTy).Contents (Elt F) → (⟨S2x1x1, .i32⟩ : BufTy).Contents (Elt F)),
    StableHlo.binary main_v42 main_v45 main_v46 (addi : (⟨S2x1x1, .i32⟩ : BufTy).Contents (Elt F) → (⟨S2x1x1, .i32⟩ : BufTy).Contents (Elt F) → (⟨S2x1x1, .i32⟩ : BufTy).Contents (Elt F)),
    StableHlo.ternary main_v44 main_v46 main_v42 main_v47 (select : (⟨S2x1x1, .i1⟩ : BufTy).Contents (Elt F) → (⟨S2x1x1, .i32⟩ : BufTy).Contents (Elt F) → (⟨S2x1x1, .i32⟩ : BufTy).Contents (Elt F) → (⟨S2x1x1, .i32⟩ : BufTy).Contents (Elt F)),
    StableHlo.nullary main_c_17 (constantI S_ 32 0#32),
    StableHlo.unary main_c_17 main_v48 (broadcastInDim S2x900x8 ![] bcast_S_S2x900x8 : (⟨S_, .i32⟩ : BufTy).Contents (Elt F) → (⟨S2x900x8, .i32⟩ : BufTy).Contents (Elt F)),
    StableHlo.binary main_v40 main_v48 main_v49 (cmpi .slt : (⟨S2x900x8, .i32⟩ : BufTy).Contents (Elt F) → (⟨S2x900x8, .i32⟩ : BufTy).Contents (Elt F) → (⟨S2x900x8, .i1⟩ : BufTy).Contents (Elt F)),
    StableHlo.nullary main_c_18 (constantI S_ 32 4#32),
    StableHlo.unary main_c_18 main_v50 (broadcastInDim S2x900x8 ![] bcast_S_S2x900x8 : (⟨S_, .i32⟩ : BufTy).Contents (Elt F) → (⟨S2x900x8, .i32⟩ : BufTy).Contents (Elt F)),
    StableHlo.binary main_v40 main_v50 main_v51 (addi : (⟨S2x900x8, .i32⟩ : BufTy).Contents (Elt F) → (⟨S2x900x8, .i32⟩ : BufTy).Contents (Elt F) → (⟨S2x900x8, .i32⟩ : BufTy).Contents (Elt F)),
    StableHlo.ternary main_v49 main_v51 main_v40 main_v52 (select : (⟨S2x900x8, .i1⟩ : BufTy).Contents (Elt F) → (⟨S2x900x8, .i32⟩ : BufTy).Contents (Elt F) → (⟨S2x900x8, .i32⟩ : BufTy).Contents (Elt F) → (⟨S2x900x8, .i32⟩ : BufTy).Contents (Elt F)),
    StableHlo.nullary main_c_19 (constantI S_ 32 0#32),
    StableHlo.unary main_c_19 main_v53 (broadcastInDim S2x900x8 ![] bcast_S_S2x900x8 : (⟨S_, .i32⟩ : BufTy).Contents (Elt F) → (⟨S2x900x8, .i32⟩ : BufTy).Contents (Elt F)),
    StableHlo.binary main_v37 main_v53 main_v54 (cmpi .slt : (⟨S2x900x8, .i32⟩ : BufTy).Contents (Elt F) → (⟨S2x900x8, .i32⟩ : BufTy).Contents (Elt F) → (⟨S2x900x8, .i1⟩ : BufTy).Contents (Elt F)),
    StableHlo.nullary main_c_20 (constantI S_ 32 64#32),
    StableHlo.unary main_c_20 main_v55 (broadcastInDim S2x900x8 ![] bcast_S_S2x900x8 : (⟨S_, .i32⟩ : BufTy).Contents (Elt F) → (⟨S2x900x8, .i32⟩ : BufTy).Contents (Elt F)),
    StableHlo.binary main_v37 main_v55 main_v56 (addi : (⟨S2x900x8, .i32⟩ : BufTy).Contents (Elt F) → (⟨S2x900x8, .i32⟩ : BufTy).Contents (Elt F) → (⟨S2x900x8, .i32⟩ : BufTy).Contents (Elt F)),
    StableHlo.ternary main_v54 main_v56 main_v37 main_v57 (select : (⟨S2x900x8, .i1⟩ : BufTy).Contents (Elt F) → (⟨S2x900x8, .i32⟩ : BufTy).Contents (Elt F) → (⟨S2x900x8, .i32⟩ : BufTy).Contents (Elt F) → (⟨S2x900x8, .i32⟩ : BufTy).Contents (Elt F)),
    StableHlo.nullary main_c_21 (constantI S_ 32 0#32),
    StableHlo.unary main_c_21 main_v58 (broadcastInDim S2x900x8 ![] bcast_S_S2x900x8 : (⟨S_, .i32⟩ : BufTy).Contents (Elt F) → (⟨S2x900x8, .i32⟩ : BufTy).Contents (Elt F)),
    StableHlo.binary main_v38 main_v58 main_v59 (cmpi .slt : (⟨S2x900x8, .i32⟩ : BufTy).Contents (Elt F) → (⟨S2x900x8, .i32⟩ : BufTy).Contents (Elt F) → (⟨S2x900x8, .i1⟩ : BufTy).Contents (Elt F)),
    StableHlo.nullary main_c_22 (constantI S_ 32 176#32),
    StableHlo.unary main_c_22 main_v60 (broadcastInDim S2x900x8 ![] bcast_S_S2x900x8 : (⟨S_, .i32⟩ : BufTy).Contents (Elt F) → (⟨S2x900x8, .i32⟩ : BufTy).Contents (Elt F)),
    StableHlo.binary main_v38 main_v60 main_v61 (addi : (⟨S2x900x8, .i32⟩ : BufTy).Contents (Elt F) → (⟨S2x900x8, .i32⟩ : BufTy).Contents (Elt F) → (⟨S2x900x8, .i32⟩ : BufTy).Contents (Elt F)),
    StableHlo.ternary main_v59 main_v61 main_v38 main_v62 (select : (⟨S2x900x8, .i1⟩ : BufTy).Contents (Elt F) → (⟨S2x900x8, .i32⟩ : BufTy).Contents (Elt F) → (⟨S2x900x8, .i32⟩ : BufTy).Contents (Elt F) → (⟨S2x900x8, .i32⟩ : BufTy).Contents (Elt F)),
    StableHlo.unary main_v47 main_v63 (broadcastInDim S2x900x8 ![0, 1, 2] bcast_S2x1x1_S2x900x8_0_1_2 : (⟨S2x1x1, .i32⟩ : BufTy).Contents (Elt F) → (⟨S2x900x8, .i32⟩ : BufTy).Contents (Elt F)),
    StableHlo.unary main_v63 main_v64 (broadcastInDim S2x900x8x1 ![0, 1, 2] bcast_S2x900x8_S2x900x8x1_0_1_2 : (⟨S2x900x8, .i32⟩ : BufTy).Contents (Elt F) → (⟨S2x900x8x1, .i32⟩ : BufTy).Contents (Elt F)),
    StableHlo.unary main_v52 main_v65 (broadcastInDim S2x900x8x1 ![0, 1, 2] bcast_S2x900x8_S2x900x8x1_0_1_2 : (⟨S2x900x8, .i32⟩ : BufTy).Contents (Elt F) → (⟨S2x900x8x1, .i32⟩ : BufTy).Contents (Elt F)),
    StableHlo.unary main_v57 main_v66 (broadcastInDim S2x900x8x1 ![0, 1, 2] bcast_S2x900x8_S2x900x8x1_0_1_2 : (⟨S2x900x8, .i32⟩ : BufTy).Contents (Elt F) → (⟨S2x900x8x1, .i32⟩ : BufTy).Contents (Elt F)),
    StableHlo.unary main_v62 main_v67 (broadcastInDim S2x900x8x1 ![0, 1, 2] bcast_S2x900x8_S2x900x8x1_0_1_2 : (⟨S2x900x8, .i32⟩ : BufTy).Contents (Elt F) → (⟨S2x900x8x1, .i32⟩ : BufTy).Contents (Elt F)),
    StableHlo.nary ![main_v64, main_v65, main_v66, main_v67] main_v68 (fun u => concatenate S2x900x8x4 3 [⟨S2x900x8x1, u 0⟩, ⟨S2x900x8x1, u 1⟩, ⟨S2x900x8x1, u 2⟩, ⟨S2x900x8x1, u 3⟩] concatenates_S2x900x8x1_S2x900x8x1_S2x900x8x1_S2x900x8x1_S2x900x8x4_d3),
    StableHlo.binary main_arg1 main_v68 main_v69 ((fun x i => Host.gather gather_S2x4x256x64x176_S2x900x8x4_S2x900x8x256_3_0134_n_n_0134_3_1125611 x i) : (⟨S2x4x256x64x176, .f32⟩ : BufTy).Contents (Elt F) → (⟨S2x900x8x4, .i32⟩ : BufTy).Contents (Elt F) → (⟨S2x900x8x256, .f32⟩ : BufTy).Contents (Elt F)) ]

/-- The references that stretch writes, in order. -/
abbrev WB6b : List (Ref sig .tc) := [main_v43, main_v44, main_c_16, main_v45, main_v46, main_v47, main_c_17, main_v48, main_v49, main_c_18, main_v50, main_v51, main_v52, main_c_19, main_v53, main_v54, main_c_20, main_v55, main_v56, main_v57, main_c_21, main_v58, main_v59, main_c_22, main_v60, main_v61, main_v62, main_v63, main_v64, main_v65, main_v66, main_v67, main_v68, main_v69]

theorem B6b_sub : (B6b : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., binary_bufs_sub ..⟩

theorem B6b_fresh : (B6b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem B6b_writes : (B6b : List (HloOp τ sig (Elt F))).Forall fun op => op.writes ⊆ (WB6b.map (Proc.devRef (τ := τ) .tc)).toFinset :=
  ⟨wsub (y := main_v43) (by decide), wsub (y := main_v44) (by decide), wsub (y := main_c_16) (by decide), wsub (y := main_v45) (by decide), wsub (y := main_v46) (by decide), wsub (y := main_v47) (by decide), wsub (y := main_c_17) (by decide), wsub (y := main_v48) (by decide), wsub (y := main_v49) (by decide), wsub (y := main_c_18) (by decide), wsub (y := main_v50) (by decide), wsub (y := main_v51) (by decide), wsub (y := main_v52) (by decide), wsub (y := main_c_19) (by decide), wsub (y := main_v53) (by decide), wsub (y := main_v54) (by decide), wsub (y := main_c_20) (by decide), wsub (y := main_v55) (by decide), wsub (y := main_v56) (by decide), wsub (y := main_v57) (by decide), wsub (y := main_c_21) (by decide), wsub (y := main_v58) (by decide), wsub (y := main_v59) (by decide), wsub (y := main_c_22) (by decide), wsub (y := main_v60) (by decide), wsub (y := main_v61) (by decide), wsub (y := main_v62) (by decide), wsub (y := main_v63) (by decide), wsub (y := main_v64) (by decide), wsub (y := main_v65) (by decide), wsub (y := main_v66) (by decide), wsub (y := main_v67) (by decide), wsub (y := main_v68) (by decide), wsub (y := main_v69) (by decide)⟩

/-- A reference the stretch does not write keeps its contents. -/
theorem B6b_keep (V : Valuation τ sig (Elt F)) {r : Ref sig .tc} (hr : r ∉ WB6b) :
    after B6b V (no_index (Proc.devRef .tc r)) = V (Proc.devRef .tc r) :=
  after_of_writes_sub B6b V B6b_writes hr

/-- The last line: the two gathers concatenated along the channel axis into main_v70. -/
abbrev Z : List (HloOp τ sig (Elt F)) :=
  [
    StableHlo.binary main_v34 main_v69 main_v70 ((fun a b => concatenate S2x900x8x512 3 [⟨S2x900x8x256, a⟩, ⟨S2x900x8x256, b⟩] concatenates_S2x900x8x256_S2x900x8x256_S2x900x8x512_d3) : (⟨S2x900x8x256, .f32⟩ : BufTy).Contents (Elt F) → (⟨S2x900x8x256, .f32⟩ : BufTy).Contents (Elt F) → (⟨S2x900x8x512, .f32⟩ : BufTy).Contents (Elt F)) ]

/-- The references that stretch writes, in order. -/
abbrev WZ : List (Ref sig .tc) := [main_v70]

theorem Z_sub : (Z : List (HloOp τ sig (Elt F))).Forall fun op => op.bufs ⊆ tcRefs τ sig :=
  binary_bufs_sub ..

theorem Z_fresh : (Z : List (HloOp τ sig (Elt F))).Forall fun op => op.fresh = ∅ :=
  rfl

theorem Z_writes : (Z : List (HloOp τ sig (Elt F))).Forall fun op => op.writes ⊆ (WZ.map (Proc.devRef (τ := τ) .tc)).toFinset :=
  wsub (y := main_v70) (by decide)

/-- A reference the stretch does not write keeps its contents. -/
theorem Z_keep (V : Valuation τ sig (Elt F)) {r : Ref sig .tc} (hr : r ∉ WZ) :
    after Z V (no_index (Proc.devRef .tc r)) = V (Proc.devRef .tc r) :=
  after_of_writes_sub Z V Z_writes hr

set_option maxHeartbeats 2000000 in
/-- What the stretch leaves at its result buffer, as a function of what it found at the buffers it reads: each
    operation's result read at its own buffer, the typed references' transports the identity at these literal references. -/
theorem Z_out (V : Valuation τ sig (Elt F)) :
    after Z V (no_index (Proc.devRef .tc main_v70)) = concatenate Cert.Sampler.S2x900x8x512 3 [⟨Cert.Sampler.S2x900x8x256, (V (Proc.devRef .tc main_v34))⟩, ⟨Cert.Sampler.S2x900x8x256, (V (Proc.devRef .tc main_v69))⟩] Cert.Sampler.cat_out := by
  after_results

set_option maxHeartbeats 2000000 in
/-- The second camera's index lines straddle the two windows of @main: read as one stretch. -/
theorem B6_out (V : Valuation τ sig (Elt F)) :
    after B6b (after B6a V) (no_index (Proc.devRef .tc main_v69))
      = Host.gather Cert.Sampler.gCam (V (Proc.devRef .tc main_arg1)) (idxOf (V (Proc.devRef .tc main_v40)) (V (Proc.devRef .tc main_v37)) (V (Proc.devRef .tc main_v38))) := by
  after_results
  rfl

/-- The operations of @main's first window, the calls opened. -/
abbrev P0 : List (HloOp τ sig (Elt F)) := A0 ++ (A1 ++ (A2 ++ (A3 ++ (A4 ++ (A5 ++ (A6 ++ (B0 ++ (B1 ++ (B2 ++ (B3 ++ (B4 ++ (B5 ++ (B6a)))))))))))))
/-- The operations of @main's second window. -/
abbrev P1 : List (HloOp τ sig (Elt F)) := B6b ++ (Z)
/-- @main's operations in order, every call's callee operations inline over that call's buffer record. -/
abbrev ops : List (HloOp τ sig (Elt F)) := P0 ++ P1

/-- The whole line's fold is the stretches' folds, one over the other. -/
theorem after_ops (V : Valuation τ sig (Elt F)) : after ops V = after Z (after B6b (after B6a (after B5 (after B4 (after B3 (after B2 (after B1 (after B0 (after A6 (after A5 (after A4 (after A3 (after A2 (after A1 (after A0 V))))))))))))))) := by
  simp only [after_append]

/-- Before the last concatenate, the first camera's gather is the four-axis gather at the wrapped indices: the chain
    of the six calls read back, no later stretch writing it. -/
theorem cam0_eq (V : Valuation τ sig (Elt F)) :
    after B6b (after B6a (after B5 (after B4 (after B3 (after B2 (after B1 (after B0 (after A6 (after A5 (after A4 (after A3 (after A2 (after A1 (after A0 V)))))))))))))) (Proc.devRef .tc main_v34)
      = Host.gather Cert.Sampler.gCam (V (Proc.devRef .tc main_arg0)) (Cert.Sampler.idxVec (V (Proc.devRef .tc main_arg3)) (V (Proc.devRef .tc main_arg4)) (V (Proc.devRef .tc main_arg5))) := by
  simp (disch := decide) only [A0_out, A1_out, A2_out, A3_out, A4_out, A5_out, A6_out, B0_out, B1_out, B2_out, B3_out, B4_out, B5_out, A0_keep, A1_keep, A2_keep, A3_keep, A4_keep, A5_keep, A6_keep, B0_keep, B1_keep, B2_keep, B3_keep, B4_keep, B5_keep, B6a_keep, B6b_keep, Z_keep]
  rfl

/-- The second camera's chain recomputes the same integer functions of the same arguments into its own buffers. -/
theorem cam1_eq (V : Valuation τ sig (Elt F)) :
    after B6b (after B6a (after B5 (after B4 (after B3 (after B2 (after B1 (after B0 (after A6 (after A5 (after A4 (after A3 (after A2 (after A1 (after A0 V)))))))))))))) (Proc.devRef .tc main_v69)
      = Host.gather Cert.Sampler.gCam (V (Proc.devRef .tc main_arg1)) (Cert.Sampler.idxVec (V (Proc.devRef .tc main_arg3)) (V (Proc.devRef .tc main_arg4)) (V (Proc.devRef .tc main_arg5))) := by
  simp (disch := decide) only [A0_out, A1_out, A2_out, A3_out, A4_out, A5_out, A6_out, B0_out, B1_out, B2_out, B3_out, B4_out, B5_out, B6_out, A0_keep, A1_keep, A2_keep, A3_keep, A4_keep, A5_keep, A6_keep, B0_keep, B1_keep, B2_keep, B3_keep, B4_keep, B5_keep, B6a_keep, B6b_keep, Z_keep]
  rfl

/-- The fold at the result buffer: the two cameras' gathers at the wrapped (b, frame, h, w), side by side. -/
theorem out_eq (V : Valuation τ sig (Elt F)) :
    after ops V (Proc.devRef .tc main_v70)
      = Cert.Sampler.gatherOut (V (Proc.devRef .tc main_arg0)) (V (Proc.devRef .tc main_arg1)) (V (Proc.devRef .tc main_arg3)) (V (Proc.devRef .tc main_arg4)) (V (Proc.devRef .tc main_arg5)) := by
  rw [after_ops, Z_out]
  exact congrArg₂ (fun a b => concatenate Cert.Sampler.S2x900x8x512 3 [⟨Cert.Sampler.S2x900x8x256, a⟩, ⟨Cert.Sampler.S2x900x8x256, b⟩] Cert.Sampler.cat_out)
    (cam0_eq V) (cam1_eq V)

theorem arg0_eq (V : Valuation τ sig (Elt F)) : after ops V (Proc.devRef .tc main_arg0) = (V (Proc.devRef .tc main_arg0)) := by
  rw [after_ops]
  simp (disch := decide) only [A0_keep, A1_keep, A2_keep, A3_keep, A4_keep, A5_keep, A6_keep, B0_keep, B1_keep, B2_keep, B3_keep, B4_keep, B5_keep, B6a_keep, B6b_keep, Z_keep]

theorem arg1_eq (V : Valuation τ sig (Elt F)) : after ops V (Proc.devRef .tc main_arg1) = (V (Proc.devRef .tc main_arg1)) := by
  rw [after_ops]
  simp (disch := decide) only [A0_keep, A1_keep, A2_keep, A3_keep, A4_keep, A5_keep, A6_keep, B0_keep, B1_keep, B2_keep, B3_keep, B4_keep, B5_keep, B6a_keep, B6b_keep, Z_keep]

theorem arg2_eq (V : Valuation τ sig (Elt F)) : after ops V (Proc.devRef .tc main_arg2) = (V (Proc.devRef .tc main_arg2)) := by
  rw [after_ops]
  simp (disch := decide) only [A0_keep, A1_keep, A2_keep, A3_keep, A4_keep, A5_keep, A6_keep, B0_keep, B1_keep, B2_keep, B3_keep, B4_keep, B5_keep, B6a_keep, B6b_keep, Z_keep]

theorem arg3_eq (V : Valuation τ sig (Elt F)) : after ops V (Proc.devRef .tc main_arg3) = (V (Proc.devRef .tc main_arg3)) := by
  rw [after_ops]
  simp (disch := decide) only [A0_keep, A1_keep, A2_keep, A3_keep, A4_keep, A5_keep, A6_keep, B0_keep, B1_keep, B2_keep, B3_keep, B4_keep, B5_keep, B6a_keep, B6b_keep, Z_keep]

theorem arg4_eq (V : Valuation τ sig (Elt F)) : after ops V (Proc.devRef .tc main_arg4) = (V (Proc.devRef .tc main_arg4)) := by
  rw [after_ops]
  simp (disch := decide) only [A0_keep, A1_keep, A2_keep, A3_keep, A4_keep, A5_keep, A6_keep, B0_keep, B1_keep, B2_keep, B3_keep, B4_keep, B5_keep, B6a_keep, B6b_keep, Z_keep]

theorem arg5_eq (V : Valuation τ sig (Elt F)) : after ops V (Proc.devRef .tc main_arg5) = (V (Proc.devRef .tc main_arg5)) := by
  rw [after_ops]
  simp (disch := decide) only [A0_keep, A1_keep, A2_keep, A3_keep, A4_keep, A5_keep, A6_keep, B0_keep, B1_keep, B2_keep, B3_keep, B4_keep, B5_keep, B6a_keep, B6b_keep, Z_keep]

set_option maxRecDepth 100000 in
theorem part0_eq (c : Dev nD) : main_part0 (F := F) c = seq P0 := by
  rfl

set_option maxRecDepth 100000 in
theorem part1_eq (c : Dev nD) : main_part1 (F := F) c = seq P1 := by
  rfl

/-- @main is that straight line: its two windows in sequence are the concatenation run as one. -/
theorem main_eq (c : Dev nD) : main (F := F) c = seq ops := by
  show (main_part0 (F := F) c >>= fun _ => main_part1 (F := F) c) = seq (P0 ++ P1)
  rw [part0_eq, part1_eq]
  exact (seq_append P0 P1).symm

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append A0_sub (forall_append A1_sub (forall_append A2_sub (forall_append A3_sub (forall_append A4_sub (forall_append A5_sub (forall_append A6_sub (forall_append B0_sub (forall_append B1_sub (forall_append B2_sub (forall_append B3_sub (forall_append B4_sub (forall_append B5_sub (B6a_sub)))))))))))))) (forall_append B6b_sub (Z_sub))

theorem ops_fresh : ∀ op ∈ (ops : List (HloOp τ sig (Elt F))), op.fresh = ∅ :=
  List.forall_iff_forall_mem.mp (forall_append (forall_append A0_fresh (forall_append A1_fresh (forall_append A2_fresh (forall_append A3_fresh (forall_append A4_fresh (forall_append A5_fresh (forall_append A6_fresh (forall_append B0_fresh (forall_append B1_fresh (forall_append B2_fresh (forall_append B3_fresh (forall_append B4_fresh (forall_append B5_fresh (B6a_fresh)))))))))))))) (forall_append B6b_fresh (Z_fresh)))

/-- Every weakly fair execution of the reference terminates with its result the side-by-side gather of the two cameras at
    the wrapped (b, frame, h, w), and its arguments as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v70)
          = Cert.Sampler.gatherOut (m ((c.tc : Thread nD τ).loc main_arg0)) (m ((c.tc : Thread nD τ).loc main_arg1))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := F)) _ _).mono (fun _ h c =>
      ⟨(h c main_v70).trans (out_eq (launchContents m c)),
       (h c main_arg0).trans (arg0_eq (launchContents m c)), (h c main_arg1).trans (arg1_eq (launchContents m c)),
       (h c main_arg2).trans (arg2_eq (launchContents m c)), (h c main_arg3).trans (arg3_eq (launchContents m c)),
       (h c main_arg4).trans (arg4_eq (launchContents m c)), (h c main_arg5).trans (arg5_eq (launchContents m c))⟩)
    (run_seq scopedRefs_eq scopedSems_eq (defs (F := F)) main (fun _ => ops) main_eq (fun _ => ops_sub) m ρ (fun _ => ops_fresh))

end Cert.ReferenceIdeal.HandRun

end
-- ==== Proof.Bridge.lean ====
/-
  The two spellings of the sampler agree on in-range index inputs.

  At (b, n, p) the row number ((b·4 + frame)·64 + h)·176 + w names row (b, frame, h, w) of the re-laid camera array,
  whose half j and lane l hold channel j·128 + l; the four-axis gather reads the camera array at (b, frame, c, h, w)
  because none of the four start indices is negative or past its axis.  Channel c of the side-by-side result is
  channel c of the first camera below 256 and channel c − 256 of the second from 256 on, in both spellings.
-/
import proofs.«424974_j60189671686814_2_alg».proof.Proof.Spec
import proofs.«424974_j60189671686814_2_alg».proof.Proof.Gathers
import proofs.«424974_j60189671686814_2_alg».proof.Proof.Layout
import proofs.«424974_j60189671686814_2_alg».proof.Proof.IntFacts

noncomputable section

namespace Cert.Sampler

open Idealize.ShloMosaic Idealize.ShloMosaic.ValueIdx

variable {α : Type} {a3 a4 : IVec S2x900x3 32} {a5 : IVec S2x900x8 32}

/-- Two indices of the five-axis camera array with equal coordinates are equal. -/
theorem ix5_congr {b b' : Fin 2} {t t' : Fin 4} {c c' : Fin 256} {h h' : Fin 64} {w w' : Fin 176}
    (hb : b.val = b'.val) (ht : t.val = t'.val) (hc : c.val = c'.val) (hh : h.val = h'.val) (hw : w.val = w'.val) :
    (ix5 b t c h w : S2x4x256x64x176.Idx) = ix5 b' t' c' h' w' := by
  obtain rfl := Fin.ext hb; obtain rfl := Fin.ext ht; obtain rfl := Fin.ext hc; obtain rfl := Fin.ext hh; obtain rfl := Fin.ext hw
  rfl

/-- The gather of one camera at (b, n, p, c) on in-range inputs: the camera array at (b, frame, c, h, w). -/
theorem cam_at (x : S2x4x256x64x176.Idx → α) (hr : InRange a3 a4 a5) (b : Fin 2) (n : Fin 900) (p : Fin 8) (c : Fin 256) :
    Host.gather gCam x (idxVec a3 a4 a5) (ix4 b n p c)
      = x (ix5 b ⟨(frameV a3 a4 a5 (ix3 b n p)).toNat, frame_lt hr _⟩ c ⟨(hV a5 (ix3 b n p)).toNat, h_lt hr.p _⟩
            ⟨(wV a5 (ix3 b n p)).toNat, w_lt hr.p _⟩) := by
  rw [cam_apply]
  refine congrArg x (ix5_congr ?_ ?_ rfl ?_ ?_)
  · show min _ 1 = b.val
    rw [idxVec_0]; have := b.isLt; omega
  · show min _ 3 = (frameV a3 a4 a5 (ix3 b n p)).toNat
    rw [idxVec_1 hr]; have := frame_lt hr (ix3 b n p); exact Nat.min_eq_left (by omega)
  · show min _ 63 = (hV a5 (ix3 b n p)).toNat
    rw [idxVec_2 hr]; have := h_lt hr.p (ix3 b n p) (a5 := a5); exact Nat.min_eq_left (by omega)
  · show min _ 175 = (wV a5 (ix3 b n p)).toNat
    rw [idxVec_3 hr]; have := w_lt hr.p (ix3 b n p) (a5 := a5); exact Nat.min_eq_left (by omega)

/-- The row read of one re-laid camera at the row number of (b, n, p), half j, lane l: the camera array at
    (b, frame, j·128 + l, h, w). -/
theorem row_at (x : S2x4x256x64x176.Idx → α) (hr : InRange a3 a4 a5) (b : Fin 2) (n : Fin 900) (p : Fin 8) (j : Fin 2) (l : Fin 128) :
    camRows x (ix3 ⟨min (flatTbl a3 a4 a5 (ix1 ⟨(b.val * 900 + n.val) * 8 + p.val, by omega⟩)).toNat 90111, by omega⟩ j l)
      = x (ix5 b ⟨(frameV a3 a4 a5 (ix3 b n p)).toNat, frame_lt hr _⟩ ⟨j.val * 128 + l.val, by omega⟩
            ⟨(hV a5 (ix3 b n p)).toNat, h_lt hr.p _⟩ ⟨(wV a5 (ix3 b n p)).toNat, w_lt hr.p _⟩) := by
  have hf := frame_lt hr (ix3 b n p)
  have hh := h_lt hr.p (ix3 b n p) (a5 := a5)
  have hw := w_lt hr.p (ix3 b n p) (a5 := a5)
  have hb := b.isLt
  have hrow : (⟨min (flatTbl a3 a4 a5 (ix1 ⟨(b.val * 900 + n.val) * 8 + p.val, by omega⟩)).toNat 90111, by omega⟩ : Fin 90112)
      = ⟨((b.val * 4 + (frameV a3 a4 a5 (ix3 b n p)).toNat) * 64 + (hV a5 (ix3 b n p)).toNat) * 176 + (wV a5 (ix3 b n p)).toNat, by omega⟩ := by
    apply Fin.ext
    show min _ 90111 = ((b.val * 4 + (frameV a3 a4 a5 (ix3 b n p)).toNat) * 64 + (hV a5 (ix3 b n p)).toNat) * 176 + (wV a5 (ix3 b n p)).toNat
    rw [flatTbl_apply, flat_toNat hr]
    exact Nat.min_eq_left (by omega)
  rw [hrow]
  exact camRows_apply x b ⟨_, hf⟩ ⟨_, hh⟩ ⟨_, hw⟩ j l

/-- THE BRIDGE: on in-range index inputs the row reads of the re-laid cameras and the four-axis gathers give one array. -/
theorem kernelOut_eq_gatherOut (a0 a1 : S2x4x256x64x176.Idx → α) (hr : InRange a3 a4 a5) :
    kernelOut a0 a1 a3 a4 a5 = gatherOut a0 a1 a3 a4 a5 := by
  funext i
  obtain ⟨b, n, p, c, rfl⟩ : ∃ (b : Fin 2) (n : Fin 900) (p : Fin 8) (c : Fin 512), i = ix4 b n p c :=
    ⟨i 0, i 1, i 2, i 3, eq_ix4 i⟩
  have hc := c.isLt
  unfold kernelOut
  rw [rowsOut_apply, gatherOut_apply]
  show rowReadAt (camRows a0) (camRows a1) (flatTbl a3 a4 a5) ⟨(b.val * 900 + n.val) * 8 + p.val, by omega⟩ ⟨c.val / 128, by omega⟩ ⟨c.val % 128, by omega⟩ = _
  unfold rowReadAt
  by_cases h : c.val < 256
  · have hj : c.val / 128 < 2 := by omega
    rw [dif_pos h, dif_pos hj, cam_at a0 hr]
    refine (row_at a0 hr b n p ⟨c.val / 128, hj⟩ ⟨c.val % 128, by omega⟩).trans (congrArg a0 (ix5_congr rfl rfl ?_ rfl rfl))
    show c.val / 128 * 128 + c.val % 128 = c.val
    omega
  · have hj : ¬ c.val / 128 < 2 := by omega
    rw [dif_neg h, dif_neg hj, cam_at a1 hr]
    refine (row_at a1 hr b n p ⟨c.val / 128 - 2, by omega⟩ ⟨c.val % 128, by omega⟩).trans (congrArg a1 (ix5_congr rfl rfl ?_ rfl rfl))
    show (c.val / 128 - 2) * 128 + c.val % 128 = c.val - 256
    omega

end Cert.Sampler

end
-- ==== Proof.lean ====
/-
  The certificate of the two-camera feature sampler: a row-gather kernel against its reference, over the extended
  reals.

  Both programs compute, per (b, n, p), a frame number frame = temporal[b, n, spatial[b, n, p div (3·64·176)]] and a
  pixel (h, w) = ((p mod (64·176)) div 176, (p mod (64·176)) mod 176) with the same integer operations.  The reference
  gathers cam[b, frame, :, h, w] from the five-axis camera arrays (negative indices wrapped, then clamped into their
  axes); the kernel moves the channels last, flattens (b, t, h, w) into one row axis, computes the row number
  ((b·4 + frame)·64 + h)·176 + w and copies that row, both cameras' rows side by side.  The two agree where the index
  inputs are in the ranges of the axes they index — frame numbers in [0, 4), table slots in [0, 3), point indices in
  [0, 3·3·64·176) — which the precondition states beside the finiteness of the float inputs; there the row number is
  below 2·4·64·176 and names exactly row (b, frame, h, w), and the reference's wrap and clamp leave its indices alone.
  No float arithmetic happens on either side: the finiteness of the features is never used.

  The frames: each kernel program's generated frame holds once every entry of the table of row numbers names a row
  (from the precondition); the reference is one straight line of host operations.  The idealization rewrote nothing, so
  its preservation claim is trivial.
-/
import proofs.«424974_j60189671686814_2_alg».proof.Defs
import proofs.«424974_j60189671686814_2_alg».proof.Proof.Gen.Kernel
import proofs.«424974_j60189671686814_2_alg».proof.Proof.Gen.Kernel.Skeleton
import proofs.«424974_j60189671686814_2_alg».proof.Proof.Gen.Kernel.Launch
import proofs.«424974_j60189671686814_2_alg».proof.Proof.Gen.Kernel.Points
import proofs.«424974_j60189671686814_2_alg».proof.Proof.Gen.Kernel.Frame
import proofs.«424974_j60189671686814_2_alg».proof.Proof.Gen.KernelIdeal
import proofs.«424974_j60189671686814_2_alg».proof.Proof.Gen.KernelIdeal.Skeleton
import proofs.«424974_j60189671686814_2_alg».proof.Proof.Gen.KernelIdeal.Launch
import proofs.«424974_j60189671686814_2_alg».proof.Proof.Gen.KernelIdeal.Points
import proofs.«424974_j60189671686814_2_alg».proof.Proof.Gen.KernelIdeal.Frame
import proofs.«424974_j60189671686814_2_alg».proof.Proof.Gen.ReferenceIdeal
import proofs.«424974_j60189671686814_2_alg».proof.Proof.Gen.Pre_finite_inputs
import proofs.«424974_j60189671686814_2_alg».proof.Proof.OkBits
import proofs.«424974_j60189671686814_2_alg».proof.Proof.OkIdeal
import proofs.«424974_j60189671686814_2_alg».proof.Proof.KValueIdeal
import proofs.«424974_j60189671686814_2_alg».proof.Proof.RefRun
import proofs.«424974_j60189671686814_2_alg».proof.Proof.Bridge
import Idealize.ShloMosaic.Adequacy
import Idealize.ShloMosaic.Init

noncomputable section

namespace Cert.Proof

open Idealize.ShloMosaic Idealize.SL.Sem

/-- The word-level kernel program runs and keeps its arguments: its generated frame, the table's side condition from
    the precondition. -/
theorem frame_k : Cert.frame_Kernel := fun m ρ h => Cert.Kernel.Gen.frame m ρ (Cert.Kernel.OkOfPre.ok_of_pre m h)

/-- The same for the idealized kernel program. -/
theorem frame_ki : Cert.frame_KernelIdeal := fun m ρ h => Cert.KernelIdeal.Gen.frame m ρ (Cert.KernelIdeal.OkOfPre.ok_of_pre m h)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- Both programs end with the sampled vectors of the two cameras side by side, the kernel's by row reads and the
    reference's by gathers: one array on in-range index inputs. -/
theorem algebraic : Cert.algebraic_KernelIdeal_ReferenceIdeal := by
  intro m ρ m' ρ' hpre hagree
  have hO := Cert.KernelIdeal.OkOfPre.ok_of_pre m hpre
  refine ⟨fun c => Cert.Sampler.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => m ((c.tc : Thread Cert.KernelIdeal.nD Cert.KernelIdeal.τ).loc Cert.KernelIdeal.main_arg3),
    fun c => m ((c.tc : Thread Cert.KernelIdeal.nD Cert.KernelIdeal.τ).loc Cert.KernelIdeal.main_arg4),
    fun c => m ((c.tc : Thread Cert.KernelIdeal.nD Cert.KernelIdeal.τ).loc Cert.KernelIdeal.main_arg5), ?_, ?_⟩
  · refine (θ_run Cert.KernelIdeal.defs _ _).mono (fun r h c => ?_) (Cert.KernelIdeal.KValue.run m ρ hO)
    obtain ⟨h0, h1, h2, h3, h4, h5, h6⟩ := h c
    exact ⟨h0, h4, h5, h6, h1, h2, h3, h4, h5, h6⟩
  · refine (θ_run Cert.ReferenceIdeal.defs _ _).mono (fun r h c => ?_) (Cert.ReferenceIdeal.HandRun.run (F := Ideal) m' ρ')
    obtain ⟨h0, h1, h2, h3, h4, h5, h6⟩ := h c
    obtain ⟨e0, e1, e2, e3, e4, e5⟩ := hagree c
    refine ⟨?_, h4.trans e3, h5.trans e4, h6.trans e5, h1, h2, h3, h4, h5, h6⟩
    rw [h0, e0, e1, e3, e4, e5]
    exact (Cert.Sampler.kernelOut_eq_gatherOut _ _ (Cert.KernelIdeal.OkOfPre.inRange m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
